-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S2x1280000 : Shape := ⟨2, ![2, 1280000]⟩
abbrev S1280000x32 : Shape := ⟨2, ![1280000, 32]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S_ : Shape := ⟨0, ![]⟩
abbrev S1x1280000 : Shape := ⟨2, ![1, 1280000]⟩
abbrev S1280000 : Shape := ⟨1, ![1280000]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S1280000x32 : S_.BroadcastsInDim S1280000x32 (![] : Fin 0 → Fin S1280000x32.rank)
  reducesTo_S1280000x32_S_d0_1 : S1280000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  slices_S2x1280000_S1x1280000_0_0 : S2x1280000.Slices ![0, 0] S1x1280000
  shapeCasts_S1x1280000_S1280000 : S1x1280000.ShapeCasts S1280000
  bcast_S_S1280000 : S_.BroadcastsInDim S1280000 (![] : Fin 0 → Fin S1280000.rank)
  reducesTo_S1280000_S_d0 : S1280000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1280000 32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x1280000 32 := (extractStridedSlice S1x1280000 ![0, 0] · slices_S2x1280000_S1x1280000_0_0) main_arg1
  let main_v60 : IVec S1280000 32 := shapeCast S1280000 main_v59 shapeCasts_S1x1280000_S1280000
  let main_c_22 : IVec S_ 32 := constantI S_ 32 4294887296#32
  let main_v61 : IVec S1280000 32 := broadcastInDim S1280000 ![] bcast_S_S1280000 main_c_22
  let main_v62 : IVec S1280000 1 := cmpi .sge main_v60 main_v61
  let main_v63 : IVec S1x1280000 32 := (extractStridedSlice S1x1280000 ![0, 0] · slices_S2x1280000_S1x1280000_0_0) main_arg1
  let main_v64 : IVec S1280000 32 := shapeCast S1280000 main_v63 shapeCasts_S1x1280000_S1280000
  let main_c_23 : IVec S_ 32 := constantI S_ 32 80000#32
  let main_v65 : IVec S1280000 32 := broadcastInDim S1280000 ![] bcast_S_S1280000 main_c_23
  let main_v66 : IVec S1280000 1 := cmpi .slt main_v64 main_v65
  let main_v67 : IVec S1280000 1 := andi main_v62 main_v66
  let main_c_24 : IVec S_ 1 := constantI S_ 1 1#1
  let main_v68 : IVec S_ 1 := (fun x v => Host.reduce IntOp.andi x v reducesTo_S1280000_S_d0 h_S_) main_v67 main_c_24
  fn_part4 (F := F) main_v58 main_v68

def fn_part2 {F : FTy → Type} [FloatOps F] (main_arg1 : IVec S2x1280000 32) (main_arg8 : FVec F S64 .f32) (main_arg9 : FVec F S128x64 .f32) (main_arg10 : FVec F S64 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_v48 main_v49 main_v50

def fn_part1 {F : FTy → Type} [FloatOps F] (main_arg1 : IVec S2x1280000 32) (main_arg5 : FVec F S64 .f32) (main_arg6 : FVec F S64 .f32) (main_arg7 : FVec F S64x64 .f32) (main_arg8 : FVec F S64 .f32) (main_arg9 : FVec F S128x64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S80000x64 .f32) (main_arg1 : IVec S2x1280000 32) (main_arg2 : FVec F S1280000x32 .f32) (main_arg3 : FVec F S96x64 .f32) (main_arg4 : FVec F S64 .f32) (main_arg5 : FVec F S64 .f32) (main_arg6 : FVec F S64 .f32) (main_arg7 : FVec F S64x64 .f32) (main_arg8 : FVec F S64 .f32) (main_arg9 : FVec F S128x64 .f32) (main_arg10 : FVec F S64 .f32) (main_arg11 : FVec F S64 .f32) (main_arg12 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S1280000x32 .f32 := Host.absf main_arg2
  let main_cst_0 : FVec F S_ .f32 := constant S_ .f32 0x7F800000#32
  let main_v5 : FVec F S1280000x32 .f32 := broadcastInDim S1280000x32 ![] bcast_S_S1280000x32 main_cst_0
  let main_v6 : IVec S1280000x32 1 := cmpf .olt main_v4 main_v5
  let main_c_1 : IVec S_ 1 := constantI S_ 1 1#1
  let main_v7 : IVec S_ 1 := (fun x v => Host.reduce IntOp.andi x v reducesTo_S1280000x32_S_d0_1 h_S_) main_v6 main_c_1
  let main_v8 : IVec S_ 1 := andi main_v3 main_v7
  let main_v9 : FVec F S96x64 .f32 := Host.absf main_arg3
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S80000x64 : Shape := ⟨2, ![80000, 64]⟩
abbrev S2x1280000 : Shape := ⟨2, ![2, 1280000]⟩
abbrev S1280000x32 : Shape := ⟨2, ![1280000, 32]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x64 : Shape := ⟨2, ![1280000, 64]⟩
abbrev S32x64 : Shape := ⟨2, ![32, 64]⟩
abbrev S1x64 : Shape := ⟨2, ![1, 64]⟩
abbrev S3200x64 : Shape := ⟨2, ![3200, 64]⟩
abbrev S3200x32 : Shape := ⟨2, ![3200, 32]⟩
abbrev S3200 : Shape := ⟨1, ![3200]⟩
abbrev S3200x1 : Shape := ⟨2, ![3200, 1]⟩

abbrev nBuf : Space → Nat
  | .hbm => 57
  | .vmem => 24
  | .smem => 0
  | _ => 0

abbrev bufTy : (tb : Table) → Fin (tcTables nBuf tb) → BufTy
  | .hbm, ⟨0, _⟩ => ⟨S80000x64, .f32⟩
  | .hbm, ⟨1, _⟩ => ⟨S2x1280000, .i32⟩
  | .hbm, ⟨2, _⟩ => ⟨S1280000x32, .f32⟩
  | .hbm, ⟨3, _⟩ => ⟨S96x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1280000, .i32⟩
  | .hbm, ⟨14, _⟩ => ⟨S1280000, .i32⟩
  | .hbm, ⟨15, _⟩ => ⟨S1x1280000, .i32⟩
  | .hbm, ⟨16, _⟩ => ⟨S1280000, .i32⟩
  | .hbm, ⟨17, _⟩ => ⟨S_, .i32⟩
  | .hbm, ⟨18, _⟩ => ⟨S1280000, .i32⟩
  | .hbm, ⟨19, _⟩ => ⟨S1280000, .i1⟩
  | .hbm, ⟨20, _⟩ => ⟨S_, .i32⟩
  | .hbm, ⟨21, _⟩ => ⟨S1280000, .i32⟩
  | .hbm, ⟨22, _⟩ => ⟨S1280000, .i32⟩
  | .hbm, ⟨23, _⟩ => ⟨S1280000, .i32⟩
  | .hbm, ⟨24, _⟩ => ⟨S1280000x1, .i32⟩
  | .hbm, ⟨25, _⟩ => ⟨S1, .i32⟩
  | .hbm, ⟨26, _⟩ => ⟨S_, .i32⟩
  | .hbm, ⟨27, _⟩ => ⟨S1280000x1, .i32⟩
  | .hbm, ⟨28, _⟩ => ⟨S1280000x1, .i1⟩
  | .hbm, ⟨29, _⟩ => ⟨S1x1, .i32⟩
  | .hbm, ⟨30, _⟩ => ⟨S1280000x1, .i32⟩
  | .hbm, ⟨31, _⟩ => ⟨S1280000x1, .i1⟩
  | .hbm, ⟨32, _⟩ => ⟨S1280000x1, .i1⟩
  | .hbm, ⟨33, _⟩ => ⟨S_, .i1⟩
  | .hbm, ⟨34, _⟩ => ⟨S1280000, .i1⟩
  | .hbm, ⟨35, _⟩ => ⟨S1280000x64, .f32⟩
  | .hbm, ⟨36, _⟩ => ⟨S1280000x64, .i1⟩
  | .hbm, ⟨37, _⟩ => ⟨S_, .f32⟩
  | .hbm, ⟨38, _⟩ => ⟨S1280000x64, .f32⟩
  | .hbm, ⟨39, _⟩ => ⟨S1280000x64, .f32⟩
  | .hbm, ⟨40, _⟩ => ⟨S64x64, .f32⟩
  | .hbm, ⟨41, _⟩ => ⟨S32x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1280000x64, .f32⟩
  | .hbm, ⟨47, _⟩ => ⟨S_, .f32⟩
  | .hbm, ⟨48, _⟩ => ⟨S80000x64, .f32⟩
  | .hbm, ⟨49, _⟩ => ⟨S1280000x1, .i32⟩
  | .hbm, ⟨50, _⟩ => ⟨S80000x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S80000x64, .f32⟩
  | .local _ .vmem, ⟨0, _⟩ => ⟨S3200x64, .f32⟩
  | .local _ .vmem, ⟨1, _⟩ => ⟨S3200x64, .f32⟩
  | .local _ .vmem, ⟨2, _⟩ => ⟨S3200x32, .f32⟩
  | .local _ .vmem, ⟨3, _⟩ => ⟨S3200x32, .f32⟩
  | .local _ .vmem, ⟨4, _⟩ => ⟨S64x64, .f32⟩
  | .local _ .vmem, ⟨5, _⟩ => ⟨S32x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S3200x64, .f32⟩
  | .local _ .vmem, ⟨15, _⟩ => ⟨S3200x64, .f32⟩
  | .local _ .vmem, ⟨16, _⟩ => ⟨S3200x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S3200x64, .f32⟩
  | .local _ .vmem, ⟨23, _⟩ => ⟨S3200x64, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3200x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  slices_S96x64_S64x64_0_0 : S96x64.Slices ![0, 0] S64x64
  slices_S96x64_S32x64_64_0 : S96x64.Slices ![64, 0] S32x64
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S3200x32_S3200x32_0_0 : ∀ a, (![0, 0] : Fin 2 → Nat) a + S3200x32.size a ≤ S3200x32.size a
  h_S3200x32 : 0 < S3200x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  reduces_S3200x64_S3200 : S3200x64.Reduces [1] S3200
  shapeCasts_S3200_S3200x1 : S3200.ShapeCasts S3200x1
  broadcasts_S3200x1_S3200x64 : S3200x1.Broadcasts S3200x64
  bcast_S_S80000x64 : S_.BroadcastsInDim S80000x64 (![] : Fin 0 → Fin S80000x64.rank)
  slices_S128x64_S64x64_0_0 : S128x64.Slices ![0, 0] S64x64
  slices_S128x64_S64x64_64_0 : S128x64.Slices ![64, 0] S64x64
  gather_S80000x64_S1280000x1_S1280000x64_1_0_n_n_0_1_164_wf : GatherDims.WF S80000x64 S1280000x1 S1280000x64 [1] [0] [] [0] [] 1 ![1, 64]
  dot_S3200x64_S64x64_S3200x64_1_0_0_1_n_n_wf : DotDims.WF S3200x64 S64x64 S3200x64 [1] [0] [0] [1] [] []
  dot_S3200x32_S32x64_S3200x64_1_0_0_1_n_n_wf : DotDims.WF S3200x32 S32x64 S3200x64 [1] [0] [0] [1] [] []
  scatter_S80000x64_S1280000x1_S1280000x64_1_0_0_1_wf : ScatterDims.WF S80000x64 S1280000x1 S1280000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S1280000x64.size a
  hwx0_0 : ∀ i : grid0.Coords, EltTy.bits .f32 = 32 ∨ (Rect.block (s := S1280000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S1280000x32.size a
  hwx0_1 : ∀ i : grid0.Coords, EltTy.bits .f32 = 32 ∨ (Rect.block (s := S1280000x32) S3200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x64.size a ≤ S1280000x64.size a
  hwx0_9 : ∀ i : grid0.Coords, EltTy.bits .f32 = 32 ∨ (Rect.block (s := S1280000x64) S3200x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S80000x64.size a
  hwx1_0 : ∀ i : grid1.Coords, EltTy.bits .f32 = 32 ∨ (Rect.block (s := S80000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S80000x64.size a
  hwx1_1 : ∀ i : grid1.Coords, EltTy.bits .f32 = 32 ∨ (Rect.block (s := S80000x64) S3200x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x64.size a ≤ S80000x64.size a
  hwx1_7 : ∀ i : grid1.Coords, EltTy.bits .f32 = 32 ∨ (Rect.block (s := S80000x64) S3200x64.size (cc1_transform_7 i) (hinb1_7 i)).WholeWords (EltTy.packing .f32)

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x32_S32x64_S3200x64_1_0_0_1_n_n : DotDims S3200x32 S32x64 S3200x64 where
  lhsContracting := [1]
  rhsContracting := [0]
  lhsNonContracting := [0]
  rhsNonContracting := [1]
  lhsBatch := []
  rhsBatch := []
  wf := dot_S3200x32_S32x64_S3200x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf

abbrev win0_0 : Pipeline.Window sig grid0 :=
  Pipeline.Window.ofSpec (Memref.whole main_v4) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S3200x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S3200x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S80000x64 : Shape := ⟨2, ![80000, 64]⟩
abbrev S2x1280000 : Shape := ⟨2, ![2, 1280000]⟩
abbrev S1280000x32 : Shape := ⟨2, ![1280000, 32]⟩
abbrev S96x64 : Shape := ⟨2, ![96, 64]⟩
abbrev S64 : Shape := ⟨1, ![64]⟩
abbrev S64x64 : Shape := ⟨2, ![64, 64]⟩
abbrev S128x64 : Shape := ⟨2, ![128, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S1280000x96 : Shape := ⟨2, ![1280000, 96]⟩
abbrev S1x64 : Shape := ⟨2, ![1, 64]⟩
abbrev S80000x128 : Shape := ⟨2, ![80000, 128]⟩
abbrev S80000 : Shape := ⟨1, ![80000]⟩
abbrev S80000x1 : Shape := ⟨2, ![80000, 1]⟩

abbrev nBuf : Space → Nat
  | .hbm => 129
  | .vmem => 0
  | .smem => 0
  | _ => 0

abbrev hbmTy0_0 (i : Nat) : BufTy := match i % 128 with
  | 0 => ⟨S80000x64, .f32⟩
  | 1 => ⟨S2x1280000, .i32⟩
  | 2 => ⟨S1280000x32, .f32⟩
  | 3 => ⟨S96x64, .f32⟩
  | 4 => ⟨S64, .f32⟩
  | 5 => ⟨S64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64, .f32⟩
  | 12 => ⟨S64, .f32⟩
  | 13 => ⟨S1x1280000, .i32⟩
  | 14 => ⟨S1280000, .i32⟩
  | 15 => ⟨S1x1280000, .i32⟩
  | 16 => ⟨S1280000, .i32⟩
  | 17 => ⟨S_, .i32⟩
  | 18 => ⟨S1280000, .i32⟩
  | 19 => ⟨S1280000, .i1⟩
  | 20 => ⟨S_, .i32⟩
  | 21 => ⟨S1280000, .i32⟩
  | 22 => ⟨S1280000, .i32⟩
  | 23 => ⟨S1280000, .i32⟩
  | 24 => ⟨S1280000x1, .i32⟩
  | 25 => ⟨S1280000x64, .f32⟩
  | 26 => ⟨S1280000x96, .f32⟩
  | 27 => ⟨S1280000x64, .f32⟩
  | 28 => ⟨S1x64, .f32⟩
  | 29 => ⟨S1280000x64, .f32⟩
  | 30 => ⟨S1280000x64, .f32⟩
  | 31 => ⟨S_, .f32⟩
  | 32 => ⟨S1280000, .f32⟩
  | 33 => ⟨S1280000x1, .f32⟩
  | 34 => ⟨S_, .f32⟩
  | 35 => ⟨S1280000x1, .f32⟩
  | 36 => ⟨S1280000x1, .f32⟩
  | 37 => ⟨S1280000x64, .f32⟩
  | 38 => ⟨S1280000x64, .f32⟩
  | 39 => ⟨S1280000x64, .f32⟩
  | 40 => ⟨S_, .f32⟩
  | 41 => ⟨S1280000, .f32⟩
  | 42 => ⟨S1280000x1, .f32⟩
  | 43 => ⟨S_, .f32⟩
  | 44 => ⟨S1280000x1, .f32⟩
  | 45 => ⟨S1280000x1, .f32⟩
  | 46 => ⟨S1280000x64, .f32⟩
  | 47 => ⟨S1280000x64, .f32⟩
  | 48 => ⟨S_, .f32⟩
  | 49 => ⟨S1280000x1, .f32⟩
  | 50 => ⟨S1280000x1, .f32⟩
  | 51 => ⟨S1280000x1, .f32⟩
  | 52 => ⟨S1280000x64, .f32⟩
  | 53 => ⟨S1280000x64, .f32⟩
  | 54 => ⟨S1x64, .f32⟩
  | 55 => ⟨S1280000x64, .f32⟩
  | 56 => ⟨S1280000x64, .f32⟩
  | 57 => ⟨S1x64, .f32⟩
  | 58 => ⟨S1280000x64, .f32⟩
  | 59 => ⟨S1280000x64, .f32⟩
  | 60 => ⟨S1280000x64, .f32⟩
  | 61 => ⟨S1280000x64, .f32⟩
  | 62 => ⟨S_, .f32⟩
  | 63 => ⟨S1280000x64, .f32⟩
  | 64 => ⟨S1280000x64, .f32⟩
  | 65 => ⟨S_, .f32⟩
  | 66 => ⟨S1280000x64, .f32⟩
  | 67 => ⟨S1280000x64, .f32⟩
  | 68 => ⟨S1280000x64, .f32⟩
  | 69 => ⟨S1280000x64, .f32⟩
  | 70 => ⟨S1x64, .f32⟩
  | 71 => ⟨S1280000x64, .f32⟩
  | 72 => ⟨S1280000x64, .f32⟩
  | 73 => ⟨S1280000x64, .f32⟩
  | 74 => ⟨S1280000x64, .f32⟩
  | 75 => ⟨S_, .f32⟩
  | 76 => ⟨S1280000x64, .f32⟩
  | 77 => ⟨S1280000x64, .f32⟩
  | 78 => ⟨S_, .f32⟩
  | 79 => ⟨S1280000x64, .f32⟩
  | 80 => ⟨S1280000x64, .f32⟩
  | 81 => ⟨S1280000x64, .f32⟩
  | 82 => ⟨S_, .f32⟩
  | 83 => ⟨S80000x64, .f32⟩
  | 84 => ⟨S1280000x1, .i32⟩
  | 85 => ⟨S80000x64, .f32⟩
  | 86 => ⟨S80000x128, .f32⟩
  | 87 => ⟨S80000x64, .f32⟩
  | 88 => ⟨S1x64, .f32⟩
  | 89 => ⟨S80000x64, .f32⟩
  | 90 => ⟨S80000x64, .f32⟩
  | 91 => ⟨S80000x64, .f32⟩
  | 92 => ⟨S80000x64, .f32⟩
  | 93 => ⟨S_, .f32⟩
  | 94 => ⟨S80000x64, .f32⟩
  | 95 => ⟨S80000x64, .f32⟩
  | 96 => ⟨S_, .f32⟩
  | 97 => ⟨S80000x64, .f32⟩
  | 98 => ⟨S80000x64, .f32⟩
  | 99 => ⟨S80000x64, .f32⟩
  | 100 => ⟨S_, .f32⟩
  | 101 => ⟨S80000, .f32⟩
  | 102 => ⟨S80000x1, .f32⟩
  | 103 => ⟨S_, .f32⟩
  | 104 => ⟨S80000x1, .f32⟩
  | 105 => ⟨S80000x1, .f32⟩
  | 106 => ⟨S80000x64, .f32⟩
  | 107 => ⟨S80000x64, .f32⟩
  | 108 => ⟨S80000x64, .f32⟩
  | 109 => ⟨S_, .f32⟩
  | 110 => ⟨S80000, .f32⟩
  | 111 => ⟨S80000x1, .f32⟩
  | 112 => ⟨S_, .f32⟩
  | 113 => ⟨S80000x1, .f32⟩
  | 114 => ⟨S80000x1, .f32⟩
  | 115 => ⟨S80000x64, .f32⟩
  | 116 => ⟨S80000x64, .f32⟩
  | 117 => ⟨S_, .f32⟩
  | 118 => ⟨S80000x1, .f32⟩
  | 119 => ⟨S80000x1, .f32⟩
  | 120 => ⟨S80000x1, .f32⟩
  | 121 => ⟨S80000x64, .f32⟩
  | 122 => ⟨S80000x64, .f32⟩
  | 123 => ⟨S1x64, .f32⟩
  | 124 => ⟨S80000x64, .f32⟩
  | 125 => ⟨S80000x64, .f32⟩
  | 126 => ⟨S1x64, .f32⟩
  | 127 => ⟨S80000x64, .f32⟩
  | _ => ⟨S80000x64, .f32⟩

abbrev hbmTy0_1 (i : Nat) : BufTy := match i % 128 with
  | 0 => ⟨S80000x64, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v45 : Ref sig .tc := ⟨.hbm, 81, rfl⟩
abbrev main_cst_5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v54 : Ref sig .tc := ⟨.hbm, 99, rfl⟩
abbrev main_cst_6 : Ref sig .tc := ⟨.hbm, 100, rfl⟩
abbrev main_v55 : Ref sig .tc := ⟨.hbm, 101, rfl⟩
abbrev main_v56 : Ref sig .tc := ⟨.hbm, 102, rfl⟩
abbrev main_cst_7 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_8 : Ref sig .tc := ⟨.hbm, 109, rfl⟩
abbrev main_v62 : Ref sig .tc := ⟨.hbm, 110, rfl⟩
abbrev main_v63 : Ref sig .tc := ⟨.hbm, 111, rfl⟩
abbrev main_cst_9 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_10 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  concatenates_S1280000x64_S1280000x32_S1280000x96_d1 : Shape.Concatenates [S1280000x64, S1280000x32] S1280000x96 1
  bcast_S64_S1x64_1 : S64.BroadcastsInDim S1x64 (![1] : Fin 1 → Fin S1x64.rank)
  bcast_S1x64_S1280000x64_0_1 : S1x64.BroadcastsInDim S1280000x64 (![0, 1] : Fin 2 → Fin S1280000x64.rank)
  reducesTo_S1280000x64_S1280000_d1 : S1280000x64.ReducesTo [1] S1280000
  h_S_ : 0 < S_.numel
  bcast_S_S1280000x1 : S_.BroadcastsInDim S1280000x1 (![] : Fin 0 → Fin S1280000x1.rank)
  bcast_S1280000x1_S1280000x64_0_1 : S1280000x1.BroadcastsInDim S1280000x64 (![0, 1] : Fin 2 → Fin S1280000x64.rank)
  bcast_S_S1280000x64 : S_.BroadcastsInDim S1280000x64 (![] : Fin 0 → Fin S1280000x64.rank)
  bcast_S_S80000x64 : S_.BroadcastsInDim S80000x64 (![] : Fin 0 → Fin S80000x64.rank)
  concatenates_S80000x64_S80000x64_S80000x128_d1 : Shape.Concatenates [S80000x64, S80000x64] S80000x128 1
  bcast_S1x64_S80000x64_0_1 : S1x64.BroadcastsInDim S80000x64 (![0, 1] : Fin 2 → Fin S80000x64.rank)
  reducesTo_S80000x64_S80000_d1 : S80000x64.ReducesTo [1] S80000
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S80000x1_S80000x64_0_1 : S80000x1.BroadcastsInDim S80000x64 (![0, 1] : Fin 2 → Fin S80000x64.rank)
  gather_S80000x64_S1280000x1_S1280000x64_1_0_n_n_0_1_164_wf : GatherDims.WF S80000x64 S1280000x1 S1280000x64 [1] [0] [] [0] [] 1 ![1, 64]
  dot_S1280000x96_S96x64_S1280000x64_1_0_0_1_n_n_wf : DotDims.WF S1280000x96 S96x64 S1280000x64 [1] [0] [0] [1] [] []
  dot_S1280000x64_S64x64_S1280000x64_1_0_0_1_n_n_wf : DotDims.WF S1280000x64 S64x64 S1280000x64 [1] [0] [0] [1] [] []
  scatter_S80000x64_S1280000x1_S1280000x64_1_0_0_1_wf : ScatterDims.WF S80000x64 S1280000x1 S1280000x64 [1] [0] [0] 1
  dot_S80000x128_S128x64_S80000x64_1_0_0_1_n_n_wf : DotDims.WF S80000x128 S128x64 S80000x64 [1] [0] [0] [1] [] []

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S1280000x96_S96x64_S1280000x64_1_0_0_1_n_n : DotDims S1280000x96 S96x64 S1280000x64 where
  lhsContracting := [1]
  rhsContracting := [0]
  lhsNonContracting := [0]
  rhsNonContracting := [1]
  lhsBatch := []
  rhsBatch := []
  wf := dot_S1280000x96_S96x64_S1280000x64_1_0_0_1_n_n_wf
def dot_S1280000x64_S64x64_S1280000x64_1_0_0_1_n_n : DotDims S1280000x64 S64x64 S1280000x64 where
  lhsContracting := [1]
  rhsContracting := [0]
  lhsNonContracting := [0]
  rhsNonContracting := [1]
  lhsBatch := []
  rhsBatch := []
  wf := dot_S1280000x64_S64x64_S1280000x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf

class Facts : Prop extends Facts₀ where

variable [Facts]
-- ==== Proof.RefStages.lean ====
/-
  The reference's host program read back one stage at a time.

  The program is a straight line of 116 operations, each writing one buffer from earlier ones. Run from launch
  contents V, the buffer an operation writes holds that operation's stage function of the thirteen argument arrays,
  because each of its operands already holds its own stage and no later operation overwrites a buffer. The line is
  cut where few buffers are still to be read — after the first affine map, after its normalisation, after each gate,
  after the scatter — so that every stretch is a short computation over the buffers the stretch before it left.
-/
import proofs.«415045_j12429635354688_1_alg».proof.Proof.RefRun
import proofs.«415045_j12429635354688_1_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The contents of the TensorCore buffer `b` under the valuation `W`. -/
local notation "⟪" W ", " b "⟫" => W (Proc.devRef Proc.tc b)

/-! ## The line, cut into nine stretches

Each stretch is a consecutive piece of the program's operation list, in the program's own words. -/

/-- Operations 1–18. The two rows of the edge list (sources, wrapped into range; destinations), the gather of the
    source rows of the node array, its join with the edge features along the feature axis, and the first affine map:
    the product with the 96×64 weight plus the bias row. Leaves `main_v15` (the affine map) and `main_v3` (the
    destinations). -/
abbrev opsEdge : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_c (constantI S_ 32 0#32),
    unary main_c main_v4 (broadcastInDim S1280000 ![] bcast_S_S1280000 : (⟨S_, .i32⟩ : BufTy).Contents (Elt F) → (⟨S1280000, .i32⟩ : BufTy).Contents (Elt F)),
    binary main_v1 main_v4 main_v5 (cmpi .slt : (⟨S1280000, .i32⟩ : BufTy).Contents (Elt F) → (⟨S1280000, .i32⟩ : BufTy).Contents (Elt F) → (⟨S1280000, .i1⟩ : BufTy).Contents (Elt F)),
    nullary main_c_0 (constantI S_ 32 80000#32),
    unary main_c_0 main_v6 (broadcastInDim S1280000 ![] bcast_S_S1280000 : (⟨S_, .i32⟩ : BufTy).Contents (Elt F) → (⟨S1280000, .i32⟩ : BufTy).Contents (Elt F)),
    binary main_v1 main_v6 main_v7 (addi : (⟨S1280000, .i32⟩ : BufTy).Contents (Elt F) → (⟨S1280000, .i32⟩ : BufTy).Contents (Elt F) → (⟨S1280000, .i32⟩ : BufTy).Contents (Elt F)),
    ternary main_v5 main_v7 main_v1 main_v8 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v8 main_v9 (broadcastInDim S1280000x1 ![0] bcast_S1280000_S1280000x1_0 : (⟨S1280000, .i32⟩ : BufTy).Contents (Elt F) → (⟨S1280000x1, .i32⟩ : BufTy).Contents (Elt F)),
    binary main_arg0 main_v9 main_v10 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    binary main_v10 main_arg2 main_v11 ((fun a b => concatenate S1280000x96 1 [⟨S1280000x64, a⟩, ⟨S1280000x32, b⟩] concatenates_S1280000x64_S1280000x32_S1280000x96_d1) : (⟨S1280000x64, .f32⟩ : BufTy).Contents (Elt F) → (⟨S1280000x32, .f32⟩ : BufTy).Contents (Elt F) → (⟨S1280000x96, .f32⟩ : BufTy).Contents (Elt F)),
    binary main_v11 main_arg3 main_v12 ((fun l r => Host.dotGeneral dot_S1280000x96_S96x64_S1280000x64_1_0_0_1_n_n none l r) : (⟨S1280000x96, .f32⟩ : BufTy).Contents (Elt F) → (⟨S96x64, .f32⟩ : BufTy).Contents (Elt F) → (⟨S1280000x64, .f32⟩ : BufTy).Contents (Elt F)),
    unary main_arg4 main_v13 (broadcastInDim S1x64 ![1] bcast_S64_S1x64_1 : (⟨S64, .f32⟩ : BufTy).Contents (Elt F) → (⟨S1x64, .f32⟩ : BufTy).Contents (Elt F)),
    unary main_v13 main_v14 (broadcastInDim S1280000x64 ![0, 1] bcast_S1x64_S1280000x64_0_1 : (⟨S1x64, .f32⟩ : BufTy).Contents (Elt F) → (⟨S1280000x64, .f32⟩ : BufTy).Contents (Elt F)),
    binary main_v12 main_v14 main_v15 (addf : (⟨S1280000x64, .f32⟩ : BufTy).Contents (Elt F) → (⟨S1280000x64, .f32⟩ : BufTy).Contents (Elt F) → (⟨S1280000x64, .f32⟩ : BufTy).Contents (Elt F)) ]

/-- Operations 19–47. The normalisation of each row of `main_v15` over its 64 features — the mean, the centred
    row, the mean square of the centred row, the reciprocal root of that plus ε — scaled and shifted by the two
    parameter rows. Leaves `main_v39`. -/
abbrev opsNorm : List (HloOp τ sig (Elt F)) :=
  [ nullary main_cst (constant S_ .f32 0x00000000#32),
    binary main_v15 main_cst main_v16 ((fun x v => Host.reduceAdd x v reducesTo_S1280000x64_S1280000_d1 h_S_) : (⟨S1280000x64, .f32⟩ : BufTy).Contents (Elt F) → (⟨S_, .f32⟩ : BufTy).Contents (Elt F) → (⟨S1280000, .f32⟩ : BufTy).Contents (Elt F)),
    unary main_v16 main_v17 (broadcastInDim S1280000x1 ![0] bcast_S1280000_S1280000x1_0 : (⟨S1280000, .f32⟩ : BufTy).Contents (Elt F) → (⟨S1280000x1, .f32⟩ : BufTy).Contents (Elt F)),
    nullary main_cst_1 (constant S_ .f32 0x42800000#32),
    unary main_cst_1 main_v18 (broadcastInDim S1280000x1 ![] bcast_S_S1280000x1 : (⟨S_, .f32⟩ : BufTy).Contents (Elt F) → (⟨S1280000x1, .f32⟩ : BufTy).Contents (Elt F)),
    binary main_v17 main_v18 main_v19 (Host.divf : (⟨S1280000x1, .f32⟩ : BufTy).Contents (Elt F) → (⟨S1280000x1, .f32⟩ : BufTy).Contents (Elt F) → (⟨S1280000x1, .f32⟩ : BufTy).Contents (Elt F)),
    unary main_v19 main_v20 (broadcastInDim S1280000x64 ![0, 1] bcast_S1280000x1_S1280000x64_0_1 : (⟨S1280000x1, .f32⟩ : BufTy).Contents (Elt F) → (⟨S1280000x64, .f32⟩ : BufTy).Contents (Elt F)),
    binary main_v15 main_v20 main_v21 (subf : (⟨S1280000x64, .f32⟩ : BufTy).Contents (Elt F) → (⟨S1280000x64, .f32⟩ : BufTy).Contents (Elt F) → (⟨S1280000x64, .f32⟩ : BufTy).Contents (Elt F)),
    binary main_v21 main_v21 main_v22 (mulf : (⟨S1280000x64, .f32⟩ : BufTy).Contents (Elt F) → (⟨S1280000x64, .f32⟩ : BufTy).Contents (Elt F) → (⟨S1280000x64, .f32⟩ : BufTy).Contents (Elt F)),
    nullary main_cst_2 (constant S_ .f32 0x00000000#32),
    binary main_v22 main_cst_2 main_v23 ((fun x v => Host.reduceAdd x v reducesTo_S1280000x64_S1280000_d1 h_S_) : (⟨S1280000x64, .f32⟩ : BufTy).Contents (Elt F) → (⟨S_, .f32⟩ : BufTy).Contents (Elt F) → (⟨S1280000, .f32⟩ : BufTy).Contents (Elt F)),
    unary main_v23 main_v24 (broadcastInDim S1280000x1 ![0] bcast_S1280000_S1280000x1_0 : (⟨S1280000, .f32⟩ : BufTy).Contents (Elt F) → (⟨S1280000x1, .f32⟩ : BufTy).Contents (Elt F)),
    nullary main_cst_3 (constant S_ .f32 0x42800000#32),
    unary main_cst_3 main_v25 (broadcastInDim S1280000x1 ![] bcast_S_S1280000x1 : (⟨S_, .f32⟩ : BufTy).Contents (Elt F) → (⟨S1280000x1, .f32⟩ : BufTy).Contents (Elt F)),
    binary main_v24 main_v25 main_v26 (Host.divf : (⟨S1280000x1, .f32⟩ : BufTy).Contents (Elt F) → (⟨S1280000x1, .f32⟩ : BufTy).Contents (Elt F) → (⟨S1280000x1, .f32⟩ : BufTy).Contents (Elt F)),
    unary main_v19 main_v27 (broadcastInDim S1280000x64 ![0, 1] bcast_S1280000x1_S1280000x64_0_1 : (⟨S1280000x1, .f32⟩ : BufTy).Contents (Elt F) → (⟨S1280000x64, .f32⟩ : BufTy).Contents (Elt F)),
    binary main_v15 main_v27 main_v28 (subf : (⟨S1280000x64, .f32⟩ : BufTy).Contents (Elt F) → (⟨S1280000x64, .f32⟩ : BufTy).Contents (Elt F) → (⟨S1280000x64, .f32⟩ : BufTy).Contents (Elt F)),
    nullary main_cst_4 (constant S_ .f32 0x3727C5AC#32),
    unary main_cst_4 main_v29 (broadcastInDim S1280000x1 ![] bcast_S_S1280000x1 : (⟨S_, .f32⟩ : BufTy).Contents (Elt F) → (⟨S1280000x1, .f32⟩ : BufTy).Contents (Elt F)),
    binary main_v26 main_v29 main_v30 (addf : (⟨S1280000x1, .f32⟩ : BufTy).Contents (Elt F) → (⟨S1280000x1, .f32⟩ : BufTy).Contents (Elt F) → (⟨S1280000x1, .f32⟩ : BufTy).Contents (Elt F)),
    unary main_v30 main_v31 (Host.rsqrt : (⟨S1280000x1, .f32⟩ : BufTy).Contents (Elt F) → (⟨S1280000x1, .f32⟩ : BufTy).Contents (Elt F)),
    unary main_v31 main_v32 (broadcastInDim S1280000x64 ![0, 1] bcast_S1280000x1_S1280000x64_0_1 : (⟨S1280000x1, .f32⟩ : BufTy).Contents (Elt F) → (⟨S1280000x64, .f32⟩ : BufTy).Contents (Elt F)),
    binary main_v28 main_v32 main_v33 (mulf : (⟨S1280000x64, .f32⟩ : BufTy).Contents (Elt F) → (⟨S1280000x64, .f32⟩ : BufTy).Contents (Elt F) → (⟨S1280000x64, .f32⟩ : BufTy).Contents (Elt F)),
    unary main_arg5 main_v34 (broadcastInDim S1x64 ![1] bcast_S64_S1x64_1 : (⟨S64, .f32⟩ : BufTy).Contents (Elt F) → (⟨S1x64, .f32⟩ : BufTy).Contents (Elt F)),
    unary main_v34 main_v35 (broadcastInDim S1280000x64 ![0, 1] bcast_S1x64_S1280000x64_0_1 : (⟨S1x64, .f32⟩ : BufTy).Contents (Elt F) → (⟨S1280000x64, .f32⟩ : BufTy).Contents (Elt F)),
    binary main_v33 main_v35 main_v36 (mulf : (⟨S1280000x64, .f32⟩ : BufTy).Contents (Elt F) → (⟨S1280000x64, .f32⟩ : BufTy).Contents (Elt F) → (⟨S1280000x64, .f32⟩ : BufTy).Contents (Elt F)),
    unary main_arg6 main_v37 (broadcastInDim S1x64 ![1] bcast_S64_S1x64_1 : (⟨S64, .f32⟩ : BufTy).Contents (Elt F) → (⟨S1x64, .f32⟩ : BufTy).Contents (Elt F)),
    unary main_v37 main_v38 (broadcastInDim S1280000x64 ![0, 1] bcast_S1x64_S1280000x64_0_1 : (⟨S1x64, .f32⟩ : BufTy).Contents (Elt F) → (⟨S1280000x64, .f32⟩ : BufTy).Contents (Elt F)),
    binary main_v36 main_v38 main_v39 (addf : (⟨S1280000x64, .f32⟩ : BufTy).Contents (Elt F) → (⟨S1280000x64, .f32⟩ : BufTy).Contents (Elt F) → (⟨S1280000x64, .f32⟩ : BufTy).Contents (Elt F)) ]

/-- Operations 48–56, the first gate: x ↦ x · (1 / (1 + exp (−x))) on `main_v39`. Leaves `main_v40`. -/
abbrev opsGate0 : List (HloOp τ sig (Elt F)) :=
  [ TRef.unary (TRef.of (T := ⟨S1280000x64, .f32⟩) main_v39) (TRef.of (T := ⟨S1280000x64, .f32⟩) main_call0_v0) Host.negf,
    TRef.unary (TRef.of (T := ⟨S1280000x64, .f32⟩) main_call0_v0) (TRef.of (T := ⟨S1280000x64, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S1280000x64, .f32⟩) main_call0_v2) (broadcastInDim S1280000x64 ![] bcast_S_S1280000x64),
    TRef.binary (TRef.of (T := ⟨S1280000x64, .f32⟩) main_call0_v2) (TRef.of (T := ⟨S1280000x64, .f32⟩) main_call0_v1) (TRef.of (T := ⟨S1280000x64, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S1280000x64, .f32⟩) main_call0_v4) (broadcastInDim S1280000x64 ![] bcast_S_S1280000x64),
    TRef.binary (TRef.of (T := ⟨S1280000x64, .f32⟩) main_call0_v4) (TRef.of (T := ⟨S1280000x64, .f32⟩) main_call0_v3) (TRef.of (T := ⟨S1280000x64, .f32⟩) main_call0_v5) Host.divf,
    TRef.binary (TRef.of (T := ⟨S1280000x64, .f32⟩) main_v39) (TRef.of (T := ⟨S1280000x64, .f32⟩) main_call0_v5) (TRef.of (T := ⟨S1280000x64, .f32⟩) main_v40) mulf ]

/-- Operations 57–60, the second affine map: the product with the 64×64 weight plus the bias row. Leaves `main_v44`. -/
abbrev opsMix : List (HloOp τ sig (Elt F)) :=
  [ binary main_v40 main_arg7 main_v41 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S1280000x64 ![0, 1] bcast_S1x64_S1280000x64_0_1 : (⟨S1x64, .f32⟩ : BufTy).Contents (Elt F) → (⟨S1280000x64, .f32⟩ : BufTy).Contents (Elt F)),
    binary main_v41 main_v43 main_v44 (addf : (⟨S1280000x64, .f32⟩ : BufTy).Contents (Elt F) → (⟨S1280000x64, .f32⟩ : BufTy).Contents (Elt F) → (⟨S1280000x64, .f32⟩ : BufTy).Contents (Elt F)) ]

/-- Operations 61–69, the second gate, on `main_v44`. Leaves `main_v45`. -/
abbrev opsGate1 : List (HloOp τ sig (Elt F)) :=
  [ TRef.unary (TRef.of (T := ⟨S1280000x64, .f32⟩) main_v44) (TRef.of (T := ⟨S1280000x64, .f32⟩) main_call1_v0) Host.negf,
    TRef.unary (TRef.of (T := ⟨S1280000x64, .f32⟩) main_call1_v0) (TRef.of (T := ⟨S1280000x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S1280000x64, .f32⟩) main_call1_v2) (broadcastInDim S1280000x64 ![] bcast_S_S1280000x64),
    TRef.binary (TRef.of (T := ⟨S1280000x64, .f32⟩) main_call1_v2) (TRef.of (T := ⟨S1280000x64, .f32⟩) main_call1_v1) (TRef.of (T := ⟨S1280000x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S1280000x64, .f32⟩) main_call1_v4) (broadcastInDim S1280000x64 ![] bcast_S_S1280000x64),
    TRef.binary (TRef.of (T := ⟨S1280000x64, .f32⟩) main_call1_v4) (TRef.of (T := ⟨S1280000x64, .f32⟩) main_call1_v3) (TRef.of (T := ⟨S1280000x64, .f32⟩) main_call1_v5) Host.divf,
    TRef.binary (TRef.of (T := ⟨S1280000x64, .f32⟩) main_v44) (TRef.of (T := ⟨S1280000x64, .f32⟩) main_call1_v5) (TRef.of (T := ⟨S1280000x64, .f32⟩) main_v45) mulf ]

/-- Operations 70–73, the scatter: the edge rows `main_v45` summed into a zero node array at the destinations
    `main_v3`. Leaves `main_v48`. -/
abbrev opsScatter : List (HloOp τ sig (Elt F)) :=
  [ nullary main_cst_5 (constant S_ .f32 0x00000000#32),
    unary main_cst_5 main_v46 (broadcastInDim S80000x64 ![] bcast_S_S80000x64 : (⟨S_, .f32⟩ : BufTy).Contents (Elt F) → (⟨S80000x64, .f32⟩ : BufTy).Contents (Elt F)),
    unary main_v3 main_v47 (broadcastInDim S1280000x1 ![0] bcast_S1280000_S1280000x1_0 : (⟨S1280000, .i32⟩ : BufTy).Contents (Elt F) → (⟨S1280000x1, .i32⟩ : BufTy).Contents (Elt F)),
    ternary main_v46 main_v47 main_v45 main_v48 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ]

/-- Operations 74–78. The join of the summed messages with the node array along the feature axis and the third
    affine map: the product with the 128×64 weight plus the bias row. Leaves `main_v53`. -/
abbrev opsNode : List (HloOp τ sig (Elt F)) :=
  [ binary main_v48 main_arg0 main_v49 ((fun a b => concatenate S80000x128 1 [⟨S80000x64, a⟩, ⟨S80000x64, b⟩] concatenates_S80000x64_S80000x64_S80000x128_d1) : (⟨S80000x64, .f32⟩ : BufTy).Contents (Elt F) → (⟨S80000x64, .f32⟩ : BufTy).Contents (Elt F) → (⟨S80000x128, .f32⟩ : BufTy).Contents (Elt F)),
    binary main_v49 main_arg9 main_v50 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    unary main_arg10 main_v51 (broadcastInDim S1x64 ![1] bcast_S64_S1x64_1 : (⟨S64, .f32⟩ : BufTy).Contents (Elt F) → (⟨S1x64, .f32⟩ : BufTy).Contents (Elt F)),
    unary main_v51 main_v52 (broadcastInDim S80000x64 ![0, 1] bcast_S1x64_S80000x64_0_1 : (⟨S1x64, .f32⟩ : BufTy).Contents (Elt F) → (⟨S80000x64, .f32⟩ : BufTy).Contents (Elt F)),
    binary main_v50 main_v52 main_v53 (addf : (⟨S80000x64, .f32⟩ : BufTy).Contents (Elt F) → (⟨S80000x64, .f32⟩ : BufTy).Contents (Elt F) → (⟨S80000x64, .f32⟩ : BufTy).Contents (Elt F)) ]

/-- Operations 79–87, the third gate, on `main_v53`. Leaves `main_v54`. -/
abbrev opsGate2 : List (HloOp τ sig (Elt F)) :=
  [ TRef.unary (TRef.of (T := ⟨S80000x64, .f32⟩) main_v53) (TRef.of (T := ⟨S80000x64, .f32⟩) main_call2_v0) Host.negf,
    TRef.unary (TRef.of (T := ⟨S80000x64, .f32⟩) main_call2_v0) (TRef.of (T := ⟨S80000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S80000x64, .f32⟩) main_call2_v2) (broadcastInDim S80000x64 ![] bcast_S_S80000x64),
    TRef.binary (TRef.of (T := ⟨S80000x64, .f32⟩) main_call2_v2) (TRef.of (T := ⟨S80000x64, .f32⟩) main_call2_v1) (TRef.of (T := ⟨S80000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S80000x64, .f32⟩) main_call2_v4) (broadcastInDim S80000x64 ![] bcast_S_S80000x64),
    TRef.binary (TRef.of (T := ⟨S80000x64, .f32⟩) main_call2_v4) (TRef.of (T := ⟨S80000x64, .f32⟩) main_call2_v3) (TRef.of (T := ⟨S80000x64, .f32⟩) main_call2_v5) Host.divf,
    TRef.binary (TRef.of (T := ⟨S80000x64, .f32⟩) main_v53) (TRef.of (T := ⟨S80000x64, .f32⟩) main_call2_v5) (TRef.of (T := ⟨S80000x64, .f32⟩) main_v54) mulf ]

/-- Operations 88–116. The normalisation of each row of `main_v54` over its 64 features, scaled and shifted by the
    last two parameter rows. Leaves the result `main_v78`. -/
abbrev opsNormOut : List (HloOp τ sig (Elt F)) :=
  [ nullary main_cst_6 (constant S_ .f32 0x00000000#32),
    binary main_v54 main_cst_6 main_v55 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    unary main_v55 main_v56 (broadcastInDim S80000x1 ![0] bcast_S80000_S80000x1_0 : (⟨S80000, .f32⟩ : BufTy).Contents (Elt F) → (⟨S80000x1, .f32⟩ : BufTy).Contents (Elt F)),
    nullary main_cst_7 (constant S_ .f32 0x42800000#32),
    unary main_cst_7 main_v57 (broadcastInDim S80000x1 ![] bcast_S_S80000x1 : (⟨S_, .f32⟩ : BufTy).Contents (Elt F) → (⟨S80000x1, .f32⟩ : BufTy).Contents (Elt F)),
    binary main_v56 main_v57 main_v58 (Host.divf : (⟨S80000x1, .f32⟩ : BufTy).Contents (Elt F) → (⟨S80000x1, .f32⟩ : BufTy).Contents (Elt F) → (⟨S80000x1, .f32⟩ : BufTy).Contents (Elt F)),
    unary main_v58 main_v59 (broadcastInDim S80000x64 ![0, 1] bcast_S80000x1_S80000x64_0_1 : (⟨S80000x1, .f32⟩ : BufTy).Contents (Elt F) → (⟨S80000x64, .f32⟩ : BufTy).Contents (Elt F)),
    binary main_v54 main_v59 main_v60 (subf : (⟨S80000x64, .f32⟩ : BufTy).Contents (Elt F) → (⟨S80000x64, .f32⟩ : BufTy).Contents (Elt F) → (⟨S80000x64, .f32⟩ : BufTy).Contents (Elt F)),
    binary main_v60 main_v60 main_v61 (mulf : (⟨S80000x64, .f32⟩ : BufTy).Contents (Elt F) → (⟨S80000x64, .f32⟩ : BufTy).Contents (Elt F) → (⟨S80000x64, .f32⟩ : BufTy).Contents (Elt F)),
    nullary main_cst_8 (constant S_ .f32 0x00000000#32),
    binary main_v61 main_cst_8 main_v62 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    unary main_v62 main_v63 (broadcastInDim S80000x1 ![0] bcast_S80000_S80000x1_0 : (⟨S80000, .f32⟩ : BufTy).Contents (Elt F) → (⟨S80000x1, .f32⟩ : BufTy).Contents (Elt F)),
    nullary main_cst_9 (constant S_ .f32 0x42800000#32),
    unary main_cst_9 main_v64 (broadcastInDim S80000x1 ![] bcast_S_S80000x1 : (⟨S_, .f32⟩ : BufTy).Contents (Elt F) → (⟨S80000x1, .f32⟩ : BufTy).Contents (Elt F)),
    binary main_v63 main_v64 main_v65 (Host.divf : (⟨S80000x1, .f32⟩ : BufTy).Contents (Elt F) → (⟨S80000x1, .f32⟩ : BufTy).Contents (Elt F) → (⟨S80000x1, .f32⟩ : BufTy).Contents (Elt F)),
    unary main_v58 main_v66 (broadcastInDim S80000x64 ![0, 1] bcast_S80000x1_S80000x64_0_1 : (⟨S80000x1, .f32⟩ : BufTy).Contents (Elt F) → (⟨S80000x64, .f32⟩ : BufTy).Contents (Elt F)),
    binary main_v54 main_v66 main_v67 (subf : (⟨S80000x64, .f32⟩ : BufTy).Contents (Elt F) → (⟨S80000x64, .f32⟩ : BufTy).Contents (Elt F) → (⟨S80000x64, .f32⟩ : BufTy).Contents (Elt F)),
    nullary main_cst_10 (constant S_ .f32 0x3727C5AC#32),
    unary main_cst_10 main_v68 (broadcastInDim S80000x1 ![] bcast_S_S80000x1 : (⟨S_, .f32⟩ : BufTy).Contents (Elt F) → (⟨S80000x1, .f32⟩ : BufTy).Contents (Elt F)),
    binary main_v65 main_v68 main_v69 (addf : (⟨S80000x1, .f32⟩ : BufTy).Contents (Elt F) → (⟨S80000x1, .f32⟩ : BufTy).Contents (Elt F) → (⟨S80000x1, .f32⟩ : BufTy).Contents (Elt F)),
    unary main_v69 main_v70 (Host.rsqrt : (⟨S80000x1, .f32⟩ : BufTy).Contents (Elt F) → (⟨S80000x1, .f32⟩ : BufTy).Contents (Elt F)),
    unary main_v70 main_v71 (broadcastInDim S80000x64 ![0, 1] bcast_S80000x1_S80000x64_0_1 : (⟨S80000x1, .f32⟩ : BufTy).Contents (Elt F) → (⟨S80000x64, .f32⟩ : BufTy).Contents (Elt F)),
    binary main_v67 main_v71 main_v72 (mulf : (⟨S80000x64, .f32⟩ : BufTy).Contents (Elt F) → (⟨S80000x64, .f32⟩ : BufTy).Contents (Elt F) → (⟨S80000x64, .f32⟩ : BufTy).Contents (Elt F)),
    unary main_arg11 main_v73 (broadcastInDim S1x64 ![1] bcast_S64_S1x64_1 : (⟨S64, .f32⟩ : BufTy).Contents (Elt F) → (⟨S1x64, .f32⟩ : BufTy).Contents (Elt F)),
    unary main_v73 main_v74 (broadcastInDim S80000x64 ![0, 1] bcast_S1x64_S80000x64_0_1 : (⟨S1x64, .f32⟩ : BufTy).Contents (Elt F) → (⟨S80000x64, .f32⟩ : BufTy).Contents (Elt F)),
    binary main_v72 main_v74 main_v75 (mulf : (⟨S80000x64, .f32⟩ : BufTy).Contents (Elt F) → (⟨S80000x64, .f32⟩ : BufTy).Contents (Elt F) → (⟨S80000x64, .f32⟩ : BufTy).Contents (Elt F)),
    unary main_arg12 main_v76 (broadcastInDim S1x64 ![1] bcast_S64_S1x64_1 : (⟨S64, .f32⟩ : BufTy).Contents (Elt F) → (⟨S1x64, .f32⟩ : BufTy).Contents (Elt F)),
    unary main_v76 main_v77 (broadcastInDim S80000x64 ![0, 1] bcast_S1x64_S80000x64_0_1 : (⟨S1x64, .f32⟩ : BufTy).Contents (Elt F) → (⟨S80000x64, .f32⟩ : BufTy).Contents (Elt F)),
    binary main_v75 main_v77 main_v78 (addf : (⟨S80000x64, .f32⟩ : BufTy).Contents (Elt F) → (⟨S80000x64, .f32⟩ : BufTy).Contents (Elt F) → (⟨S80000x64, .f32⟩ : BufTy).Contents (Elt F)) ]

/-- The program's operation list is the nine stretches in a row. -/
theorem ops_eq : (ValueP.ops : List (HloOp τ sig (Elt F)))
    = opsEdge ++ (opsNorm ++ (opsGate0 ++ (opsMix ++ (opsGate1 ++ (opsScatter ++ (opsNode ++ (opsGate2 ++ opsNormOut))))))) := rfl

/-! ## What each stretch writes, and what it therefore keeps

A stretch changes only the buffers its own operations write; every other buffer holds after it what it held before. -/

abbrev wrEdge : List (Ref sig .tc) :=
  [main_v0, main_v1, main_v2, main_v3, main_c, main_v4, main_v5, main_c_0, main_v6, main_v7, main_v8, main_v9, main_v10,
    main_v11, main_v12, main_v13, main_v14, main_v15]
abbrev wrNorm : List (Ref sig .tc) :=
  [main_cst, main_v16, main_v17, main_cst_1, main_v18, main_v19, main_v20, main_v21, main_v22, main_cst_2, main_v23,
    main_v24, main_cst_3, main_v25, main_v26, main_v27, main_v28, main_cst_4, main_v29, main_v30, main_v31, main_v32,
    main_v33, main_v34, main_v35, main_v36, main_v37, main_v38, main_v39]
abbrev wrGate0 : List (Ref sig .tc) :=
  [main_call0_v0, main_call0_v1, main_call0_cst, main_call0_v2, main_call0_v3, main_call0_cst_0, main_call0_v4,
    main_call0_v5, main_v40]
abbrev wrMix : List (Ref sig .tc) := [main_v41, main_v42, main_v43, main_v44]
abbrev wrGate1 : List (Ref sig .tc) :=
  [main_call1_v0, main_call1_v1, main_call1_cst, main_call1_v2, main_call1_v3, main_call1_cst_0, main_call1_v4,
    main_call1_v5, main_v45]
abbrev wrScatter : List (Ref sig .tc) := [main_cst_5, main_v46, main_v47, main_v48]
abbrev wrNode : List (Ref sig .tc) := [main_v49, main_v50, main_v51, main_v52, main_v53]
abbrev wrGate2 : List (Ref sig .tc) :=
  [main_call2_v0, main_call2_v1, main_call2_cst, main_call2_v2, main_call2_v3, main_call2_cst_0, main_call2_v4,
    main_call2_v5, main_v54]
abbrev wrNormOut : List (Ref sig .tc) :=
  [main_cst_6, main_v55, main_v56, main_cst_7, main_v57, main_v58, main_v59, main_v60, main_v61, main_cst_8, main_v62,
    main_v63, main_cst_9, main_v64, main_v65, main_v66, main_v67, main_cst_10, main_v68, main_v69, main_v70, main_v71,
    main_v72, main_v73, main_v74, main_v75, main_v76, main_v77, main_v78]

/-- Every operation of a literal list writes one buffer, and that buffer is in the list named beside it: an operation's
    written set is the singleton of its result buffer, and membership in the list is decided over references. -/
local macro "writes_listed" : tactic =>
  `(tactic| (simp only [List.Forall, nullary_writes, unary_writes, binary_writes, ternary_writes, reshape_writes,
               Finset.singleton_subset_iff, List.mem_toFinset]
             repeat' apply And.intro
             all_goals exact List.mem_map_of_mem (by decide)))

theorem opsEdge_writes : (opsEdge : List (HloOp τ sig (Elt F))).Forall fun op =>
    op.writes ⊆ (wrEdge.map (Proc.devRef (τ := τ) .tc)).toFinset := by
  writes_listed
theorem opsNorm_writes : (opsNorm : List (HloOp τ sig (Elt F))).Forall fun op =>
    op.writes ⊆ (wrNorm.map (Proc.devRef (τ := τ) .tc)).toFinset := by
  writes_listed
theorem opsGate0_writes : (opsGate0 : List (HloOp τ sig (Elt F))).Forall fun op =>
    op.writes ⊆ (wrGate0.map (Proc.devRef (τ := τ) .tc)).toFinset := by
  writes_listed
theorem opsMix_writes : (opsMix : List (HloOp τ sig (Elt F))).Forall fun op =>
    op.writes ⊆ (wrMix.map (Proc.devRef (τ := τ) .tc)).toFinset := by
  writes_listed
theorem opsGate1_writes : (opsGate1 : List (HloOp τ sig (Elt F))).Forall fun op =>
    op.writes ⊆ (wrGate1.map (Proc.devRef (τ := τ) .tc)).toFinset := by
  writes_listed
theorem opsScatter_writes : (opsScatter : List (HloOp τ sig (Elt F))).Forall fun op =>
    op.writes ⊆ (wrScatter.map (Proc.devRef (τ := τ) .tc)).toFinset := by
  writes_listed
theorem opsNode_writes : (opsNode : List (HloOp τ sig (Elt F))).Forall fun op =>
    op.writes ⊆ (wrNode.map (Proc.devRef (τ := τ) .tc)).toFinset := by
  writes_listed
theorem opsGate2_writes : (opsGate2 : List (HloOp τ sig (Elt F))).Forall fun op =>
    op.writes ⊆ (wrGate2.map (Proc.devRef (τ := τ) .tc)).toFinset := by
  writes_listed
theorem opsNormOut_writes : (opsNormOut : List (HloOp τ sig (Elt F))).Forall fun op =>
    op.writes ⊆ (wrNormOut.map (Proc.devRef (τ := τ) .tc)).toFinset := by
  writes_listed

section Keeps

variable (W : Valuation τ sig (Elt F)) {r : Ref sig .tc}

/-- A buffer a stretch does not write holds after the stretch what it held before. -/
theorem keepEdge (h : r ∉ wrEdge) : ⟪after opsEdge W, r⟫ = ⟪W, r⟫ := after_of_writes_sub opsEdge W opsEdge_writes h
theorem keepNorm (h : r ∉ wrNorm) : ⟪after opsNorm W, r⟫ = ⟪W, r⟫ := after_of_writes_sub opsNorm W opsNorm_writes h
theorem keepGate0 (h : r ∉ wrGate0) : ⟪after opsGate0 W, r⟫ = ⟪W, r⟫ := after_of_writes_sub opsGate0 W opsGate0_writes h
theorem keepMix (h : r ∉ wrMix) : ⟪after opsMix W, r⟫ = ⟪W, r⟫ := after_of_writes_sub opsMix W opsMix_writes h
theorem keepGate1 (h : r ∉ wrGate1) : ⟪after opsGate1 W, r⟫ = ⟪W, r⟫ := after_of_writes_sub opsGate1 W opsGate1_writes h
theorem keepScatter (h : r ∉ wrScatter) : ⟪after opsScatter W, r⟫ = ⟪W, r⟫ :=
  after_of_writes_sub opsScatter W opsScatter_writes h
theorem keepNode (h : r ∉ wrNode) : ⟪after opsNode W, r⟫ = ⟪W, r⟫ := after_of_writes_sub opsNode W opsNode_writes h
theorem keepGate2 (h : r ∉ wrGate2) : ⟪after opsGate2 W, r⟫ = ⟪W, r⟫ := after_of_writes_sub opsGate2 W opsGate2_writes h
theorem keepNormOut (h : r ∉ wrNormOut) : ⟪after opsNormOut W, r⟫ = ⟪W, r⟫ :=
  after_of_writes_sub opsNormOut W opsNormOut_writes h

end Keeps

/-- The thirteen argument buffers. -/
abbrev argRefs : List (Ref sig .tc) :=
  [main_arg0, main_arg1, main_arg2, main_arg3, main_arg4, main_arg5, main_arg6, main_arg7, main_arg8, main_arg9,
    main_arg10, main_arg11, main_arg12]

/-- No stretch writes an argument buffer: the nine lists hold result buffers only. -/
theorem args_unwritten : ∀ r ∈ argRefs, r ∉ wrEdge ∧ r ∉ wrNorm ∧ r ∉ wrGate0 ∧ r ∉ wrMix ∧ r ∉ wrGate1
    ∧ r ∉ wrScatter ∧ r ∉ wrNode ∧ r ∉ wrGate2 ∧ r ∉ wrNormOut := by decide

/-! ## Each stretch computes its stage

For ANY contents `W` whose live buffers hold their stages of argument arrays `a₀ … a₁₂` and whose argument buffers hold
those arrays, the buffer a stretch leaves holds its own stage of the same arrays: unfold the stretch's operations over
`W`, put the stages in for the buffers taken over from the stretch before, and what is left is the stage functions'
own definitions, one operation each. -/

section Stages

variable (W : Valuation τ sig (Elt F))
variable (a0 : (⟨S80000x64, .f32⟩ : BufTy).Contents (Elt F)) (a1 : (⟨S2x1280000, .i32⟩ : BufTy).Contents (Elt F))
  (a2 : (⟨S1280000x32, .f32⟩ : BufTy).Contents (Elt F)) (a3 : (⟨S96x64, .f32⟩ : BufTy).Contents (Elt F))
  (a4 a5 a6 : (⟨S64, .f32⟩ : BufTy).Contents (Elt F)) (a7 : (⟨S64x64, .f32⟩ : BufTy).Contents (Elt F))
  (a8 : (⟨S64, .f32⟩ : BufTy).Contents (Elt F)) (a9 : (⟨S128x64, .f32⟩ : BufTy).Contents (Elt F))
  (a10 a11 a12 : (⟨S64, .f32⟩ : BufTy).Contents (Elt F))

/-- The first affine map, from the argument buffers alone. -/
theorem edge_v15 (h0 : ⟪W, main_arg0⟫ = a0) (h1 : ⟪W, main_arg1⟫ = a1) (h2 : ⟪W, main_arg2⟫ = a2)
    (h3 : ⟪W, main_arg3⟫ = a3) (h4 : ⟪W, main_arg4⟫ = a4) :
    ⟪after opsEdge W, main_v15⟫ = val_main_v15 a0 a1 a2 a3 a4 := by
  subst h0 h1 h2 h3 h4
  after_results
  rfl

/-- The destinations: the edge list's second row, flattened. -/
theorem edge_v3 (h1 : ⟪W, main_arg1⟫ = a1) : ⟪after opsEdge W, main_v3⟫ = val_main_v3 a1 := by
  subst h1
  after_results
  rfl

set_option maxHeartbeats 1000000 in
/-- The normalised rows, from the first affine map and the two parameter rows. -/
theorem norm_v39 (h15 : ⟪W, main_v15⟫ = val_main_v15 a0 a1 a2 a3 a4) (h5 : ⟪W, main_arg5⟫ = a5)
    (h6 : ⟪W, main_arg6⟫ = a6) : ⟪after opsNorm W, main_v39⟫ = val_main_v39 a0 a1 a2 a3 a4 a5 a6 := by
  subst h5 h6
  after_results_simp
  rw [h15]
  rfl

/-- The first gate. -/
theorem gate0_v40 (h39 : ⟪W, main_v39⟫ = val_main_v39 a0 a1 a2 a3 a4 a5 a6) :
    ⟪after opsGate0 W, main_v40⟫ = val_main_v40 a0 a1 a2 a3 a4 a5 a6 := by
  after_results
  rw [h39]
  rfl

/-- The second affine map. -/
theorem mix_v44 (h40 : ⟪W, main_v40⟫ = val_main_v40 a0 a1 a2 a3 a4 a5 a6) (h7 : ⟪W, main_arg7⟫ = a7)
    (h8 : ⟪W, main_arg8⟫ = a8) : ⟪after opsMix W, main_v44⟫ = val_main_v44 a0 a1 a2 a3 a4 a5 a6 a7 a8 := by
  subst h7 h8
  after_results
  rw [h40]
  rfl

/-- The second gate. -/
theorem gate1_v45 (h44 : ⟪W, main_v44⟫ = val_main_v44 a0 a1 a2 a3 a4 a5 a6 a7 a8) :
    ⟪after opsGate1 W, main_v45⟫ = val_main_v45 a0 a1 a2 a3 a4 a5 a6 a7 a8 := by
  after_results
  rw [h44]
  rfl

/-- The messages summed at their destinations. -/
theorem scatter_v48 (h45 : ⟪W, main_v45⟫ = val_main_v45 a0 a1 a2 a3 a4 a5 a6 a7 a8) (h3 : ⟪W, main_v3⟫ = val_main_v3 a1) :
    ⟪after opsScatter W, main_v48⟫ = val_main_v48 a0 a1 a2 a3 a4 a5 a6 a7 a8 := by
  after_results
  rw [h45, h3]
  rfl

/-- The third affine map, of the summed messages joined with the node array. -/
theorem node_v53 (h48 : ⟪W, main_v48⟫ = val_main_v48 a0 a1 a2 a3 a4 a5 a6 a7 a8) (h0 : ⟪W, main_arg0⟫ = a0)
    (h9 : ⟪W, main_arg9⟫ = a9) (h10 : ⟪W, main_arg10⟫ = a10) :
    ⟪after opsNode W, main_v53⟫ = val_main_v53 a0 a1 a2 a3 a4 a5 a6 a7 a8 a9 a10 := by
  subst h9 h10
  after_results
  rw [h48, h0]
  rfl

/-- The third gate. -/
theorem gate2_v54 (h53 : ⟪W, main_v53⟫ = val_main_v53 a0 a1 a2 a3 a4 a5 a6 a7 a8 a9 a10) :
    ⟪after opsGate2 W, main_v54⟫ = val_main_v54 a0 a1 a2 a3 a4 a5 a6 a7 a8 a9 a10 := by
  after_results
  rw [h53]
  rfl

set_option maxHeartbeats 1000000 in
/-- The result: the normalised rows of the third gate. -/
theorem normOut_v78 (h54 : ⟪W, main_v54⟫ = val_main_v54 a0 a1 a2 a3 a4 a5 a6 a7 a8 a9 a10) (h11 : ⟪W, main_arg11⟫ = a11)
    (h12 : ⟪W, main_arg12⟫ = a12) : ⟪after opsNormOut W, main_v78⟫ = val_main_v78 a0 a1 a2 a3 a4 a5 a6 a7 a8 a9 a10 a11 a12 := by
  subst h11 h12
  after_results_simp
  rw [h54]
  rfl

end Stages

/-! ## The whole line

The contents at the eight cuts, from contents `V`, and what the live buffers hold there in terms of `V`'s argument
buffers: each cut's fact is the stretch's lemma at the cut before, the arguments carried along by the keeps. -/

section Line

variable (V : Valuation τ sig (Elt F))

abbrev cut1 : Valuation τ sig (Elt F) := after opsEdge V
abbrev cut2 : Valuation τ sig (Elt F) := after opsNorm (cut1 V)
abbrev cut3 : Valuation τ sig (Elt F) := after opsGate0 (cut2 V)
abbrev cut4 : Valuation τ sig (Elt F) := after opsMix (cut3 V)
abbrev cut5 : Valuation τ sig (Elt F) := after opsGate1 (cut4 V)
abbrev cut6 : Valuation τ sig (Elt F) := after opsScatter (cut5 V)
abbrev cut7 : Valuation τ sig (Elt F) := after opsNode (cut6 V)
abbrev cut8 : Valuation τ sig (Elt F) := after opsGate2 (cut7 V)

/-- The whole line is its last stretch run from the eighth cut. -/
theorem after_ops : after (ValueP.ops (F := F)) V = after opsNormOut (cut8 V) := by
  rw [ops_eq]
  simp only [after_append]

variable {r : Ref sig .tc}

/-- An argument buffer holds at every cut what it held at the start. -/
theorem cut1_arg (h : r ∈ argRefs) : ⟪cut1 V, r⟫ = ⟪V, r⟫ := keepEdge V (args_unwritten r h).1
theorem cut2_arg (h : r ∈ argRefs) : ⟪cut2 V, r⟫ = ⟪V, r⟫ := (keepNorm _ (args_unwritten r h).2.1).trans (cut1_arg V h)
theorem cut3_arg (h : r ∈ argRefs) : ⟪cut3 V, r⟫ = ⟪V, r⟫ := (keepGate0 _ (args_unwritten r h).2.2.1).trans (cut2_arg V h)
theorem cut4_arg (h : r ∈ argRefs) : ⟪cut4 V, r⟫ = ⟪V, r⟫ := (keepMix _ (args_unwritten r h).2.2.2.1).trans (cut3_arg V h)
theorem cut5_arg (h : r ∈ argRefs) : ⟪cut5 V, r⟫ = ⟪V, r⟫ := (keepGate1 _ (args_unwritten r h).2.2.2.2.1).trans (cut4_arg V h)
theorem cut6_arg (h : r ∈ argRefs) : ⟪cut6 V, r⟫ = ⟪V, r⟫ :=
  (keepScatter _ (args_unwritten r h).2.2.2.2.2.1).trans (cut5_arg V h)
theorem cut7_arg (h : r ∈ argRefs) : ⟪cut7 V, r⟫ = ⟪V, r⟫ :=
  (keepNode _ (args_unwritten r h).2.2.2.2.2.2.1).trans (cut6_arg V h)
theorem cut8_arg (h : r ∈ argRefs) : ⟪cut8 V, r⟫ = ⟪V, r⟫ :=
  (keepGate2 _ (args_unwritten r h).2.2.2.2.2.2.2.1).trans (cut7_arg V h)

/-- And after the whole line. -/
theorem ops_arg (h : r ∈ argRefs) : ⟪after (ValueP.ops (F := F)) V, r⟫ = ⟪V, r⟫ := by
  rw [after_ops]
  exact (keepNormOut _ (args_unwritten r h).2.2.2.2.2.2.2.2).trans (cut8_arg V h)

theorem cut1_v15 : ⟪cut1 V, main_v15⟫
    = val_main_v15 ⟪V, main_arg0⟫ ⟪V, main_arg1⟫ ⟪V, main_arg2⟫ ⟪V, main_arg3⟫ ⟪V, main_arg4⟫ :=
  edge_v15 V _ _ _ _ _ rfl rfl rfl rfl rfl

/-- The destinations are written in the first stretch and by no operation of the next four. -/
theorem cut5_v3 : ⟪cut5 V, main_v3⟫ = val_main_v3 ⟪V, main_arg1⟫ :=
  (keepGate1 _ (by decide)).trans ((keepMix _ (by decide)).trans ((keepGate0 _ (by decide)).trans
    ((keepNorm _ (by decide)).trans (edge_v3 V _ rfl))))

theorem cut2_v39 : ⟪cut2 V, main_v39⟫
    = val_main_v39 ⟪V, main_arg0⟫ ⟪V, main_arg1⟫ ⟪V, main_arg2⟫ ⟪V, main_arg3⟫ ⟪V, main_arg4⟫ ⟪V, main_arg5⟫ ⟪V, main_arg6⟫ :=
  norm_v39 (cut1 V) _ _ _ _ _ _ _ (cut1_v15 V) (cut1_arg V (by decide)) (cut1_arg V (by decide))

theorem cut3_v40 : ⟪cut3 V, main_v40⟫
    = val_main_v40 ⟪V, main_arg0⟫ ⟪V, main_arg1⟫ ⟪V, main_arg2⟫ ⟪V, main_arg3⟫ ⟪V, main_arg4⟫ ⟪V, main_arg5⟫ ⟪V, main_arg6⟫ :=
  gate0_v40 (cut2 V) _ _ _ _ _ _ _ (cut2_v39 V)

theorem cut4_v44 : ⟪cut4 V, main_v44⟫
    = val_main_v44 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ :=
  mix_v44 (cut3 V) _ _ _ _ _ _ _ _ _ (cut3_v40 V) (cut3_arg V (by decide)) (cut3_arg V (by decide))

theorem cut5_v45 : ⟪cut5 V, main_v45⟫
    = val_main_v45 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ :=
  gate1_v45 (cut4 V) _ _ _ _ _ _ _ _ _ (cut4_v44 V)

theorem cut6_v48 : ⟪cut6 V, main_v48⟫
    = val_main_v48 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ :=
  scatter_v48 (cut5 V) _ _ _ _ _ _ _ _ _ (cut5_v45 V) (cut5_v3 V)

theorem cut7_v53 : ⟪cut7 V, main_v53⟫
    = val_main_v53 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ ⟪V, main_arg9⟫ ⟪V, main_arg10⟫ :=
  node_v53 (cut6 V) _ _ _ _ _ _ _ _ _ _ _ (cut6_v48 V) (cut6_arg V (by decide)) (cut6_arg V (by decide))
    (cut6_arg V (by decide))

theorem cut8_v54 : ⟪cut8 V, main_v54⟫
    = val_main_v54 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ ⟪V, main_arg9⟫ ⟪V, main_arg10⟫ :=
  gate2_v54 (cut7 V) _ _ _ _ _ _ _ _ _ _ _ (cut7_v53 V)

/-- After the whole line the result buffer holds the last stage of the argument buffers' contents. -/
theorem ops_v78 : ⟪after (ValueP.ops (F := F)) V, main_v78⟫
    = val_main_v78 ⟪V, main_arg0⟫ ⟪V, main_arg1⟫ ⟪V, main_arg2⟫ ⟪V, main_arg3⟫ ⟪V, main_arg4⟫ ⟪V, main_arg5⟫ ⟪V, main_arg6⟫
        ⟪V, main_arg7⟫ ⟪V, main_arg8⟫ ⟪V, main_arg9⟫ ⟪V, main_arg10⟫ ⟪V, main_arg11⟫ ⟪V, main_arg12⟫ := by
  rw [after_ops]
  exact normOut_v78 (cut8 V) _ _ _ _ _ _ _ _ _ _ _ _ _ (cut8_v54 V) (cut8_arg V (by decide)) (cut8_arg V (by decide))

end Line

/-- Every weakly fair execution of the reference terminates with its result buffer at the last stage of the launch
    contents of the arguments, and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun _ h c => ?_) (ValueP.run_after m ρ)
  refine ⟨(h c main_v78).trans (ops_v78 _), ?_, ?_, ?_, ?_, ?_, ?_, ?_, ?_, ?_, ?_, ?_, ?_, ?_⟩ <;>
    exact (h c _).trans (ops_arg _ (by decide))

end Cert.ReferenceIdeal.Stages

end
-- ==== Proof.Layer.lean ====
/-
  One message-passing layer on 64-vectors over the extended reals, row by row.

  A row is normalised by centring it on its mean and scaling by the reciprocal square root of its mean squared
  deviation plus a fixed ε; the gate is x ↦ x · σ(x) with σ the logistic function. An edge's message is the gate of an
  affine map of the gated, normalised affine image of the edge's source row and its own feature row; a node's output is
  the normalised gate of an affine map of its aggregated messages and its own row. Every sum is a plain sum over a
  finite index, so that a sum over 96 (or 128) terms splits into its first 64 and its remaining 32 (or 64) by
  associativity and commutativity of + alone, which the extended reals have without any finiteness assumption.
-/
import Idealize.ShloMosaic.PureOps.Ideal
import Idealize.ShloMosaic.PureOps.Ideal.Laws
import Mathlib.Algebra.BigOperators.Fin

noncomputable section

namespace Cert.Layer

open Idealize.ShloMosaic

/-- The divisor 64 of both means, as the real number the printed word denotes. -/
def n64 : EReal := Ideal.ofBits .f32 0x42800000#32
/-- The ε added under the reciprocal square root, as the dyadic rational the printed word denotes. -/
def eps : EReal := Ideal.ofBits .f32 0x3727C5AC#32

/-- The mean of a row. -/
def mean (h : Fin 64 → EReal) : EReal := Ideal.div (∑ k, h k) n64
/-- The mean squared deviation of a row from its mean. -/
def msd (h : Fin 64 → EReal) : EReal := Ideal.div (∑ k, (h k - mean h) * (h k - mean h)) n64
/-- The row centred, scaled by (msd + ε)^(-1/2), then scaled by g and shifted by b, entry by entry. -/
def norm (h g b : Fin 64 → EReal) (j : Fin 64) : EReal :=
  (h j - mean h) * Ideal.rsqrt (msd h + eps) * g j + b j
/-- The gate x · σ(x). -/
def gate (x : EReal) : EReal := x * Ideal.logistic x

/-- The first affine map of an edge: the source row through the first 64 rows of the weight, the edge's own row
    through the remaining 32, plus the bias. -/
def edgePre (x : Fin 64 → EReal) (e : Fin 32 → EReal) (ws : Fin 64 → Fin 64 → EReal) (we : Fin 32 → Fin 64 → EReal)
    (b1 : Fin 64 → EReal) (j : Fin 64) : EReal :=
  (∑ k, x k * ws k j) + (∑ k, e k * we k j) + b1 j

/-- An edge's message. -/
def edgeMsg (x : Fin 64 → EReal) (e : Fin 32 → EReal) (ws : Fin 64 → Fin 64 → EReal) (we : Fin 32 → Fin 64 → EReal)
    (b1 g1 be1 : Fin 64 → EReal) (w2 : Fin 64 → Fin 64 → EReal) (b2 : Fin 64 → EReal) (j : Fin 64) : EReal :=
  gate ((∑ k, gate (norm (edgePre x e ws we b1) g1 be1 k) * w2 k j) + b2 j)

/-- A node's output from its aggregated messages a and its own row x. -/
def nodeOut (a x : Fin 64 → EReal) (wa wn : Fin 64 → Fin 64 → EReal) (bu gn bn : Fin 64 → EReal) (j : Fin 64) : EReal :=
  norm (fun q => gate ((∑ k, a k * wa k q) + (∑ k, x k * wn k q) + bu q)) gn bn j

/-- A sum over 96 terms is the sum of its first 64 and of its last 32. -/
theorem sum_96 (f : Fin 96 → EReal) :
    ∑ k : Fin 96, f k = (∑ k : Fin 64, f ⟨k.val, by omega⟩) + ∑ k : Fin 32, f ⟨64 + k.val, by omega⟩ :=
  Fin.sum_univ_add (a := 64) (b := 32) (fun k : Fin (64 + 32) => f k)

/-- A sum over 128 terms is the sum of its first 64 and of its last 64. -/
theorem sum_128 (f : Fin 128 → EReal) :
    ∑ k : Fin 128, f k = (∑ k : Fin 64, f ⟨k.val, by omega⟩) + ∑ k : Fin 64, f ⟨64 + k.val, by omega⟩ :=
  Fin.sum_univ_add (a := 64) (b := 64) (fun k : Fin (64 + 64) => f k)

end Cert.Layer

end
-- ==== Proof.KIdx.lean ====
/-
  The index pairs of the edges, taken apart: each edge's source and target node, the source with a negative index
  counted from the end of the 80000-row table, the test that the wrapped source lies in 0 … 79999, and the sources and
  targets as columns of one-entry indices.
-/
import proofs.«415045_j12429635354688_1_alg».proof.Proof.Gen.KernelIdeal

noncomputable section

namespace Cert.KernelIdeal.HostValue

open Cert.KernelIdeal Cert.KernelIdeal.Gen
open Idealize.ShloMosaic Idealize.ShloMosaic.TcCoe

/-! ## The index pieces, as functions of the index pairs -/

/-- Each edge's source node: row 0 of the pairs. -/
abbrev srcRow (x1 : IVec S2x1280000 32) : IVec S1280000 32 :=
  shapeCast S1280000 (extractStridedSlice S1x1280000 ![0, 0] x1 slices_S2x1280000_S1x1280000_0_0) shapeCasts_S1x1280000_S1280000
/-- Each edge's target node: row 1 of the pairs. -/
abbrev tgtRow (x1 : IVec S2x1280000 32) : IVec S1280000 32 :=
  shapeCast S1280000 (extractStridedSlice S1x1280000 ![1, 0] x1 slices_S2x1280000_S1x1280000_1_0) shapeCasts_S1x1280000_S1280000
/-- The source with a negative index counted from the end of the 80000-row table. -/
abbrev srcWrapped (x1 : IVec S2x1280000 32) : IVec S1280000 32 :=
  select (cmpi .slt (srcRow x1) (broadcastInDim S1280000 ![] bcast_S_S1280000 (constantI S_ 32 0#32)))
    (addi (srcRow x1) (broadcastInDim S1280000 ![] bcast_S_S1280000 (constantI S_ 32 80000#32))) (srcRow x1)
/-- The same as a column of one-entry start indices. -/
abbrev srcIdx (x1 : IVec S2x1280000 32) : IVec S1280000x1 32 :=
  broadcastInDim S1280000x1 ![0] bcast_S1280000_S1280000x1_0 (srcWrapped x1)
/-- 1 for an edge whose wrapped source lies in 0 … 79999. -/
abbrev srcInRange (x1 : IVec S2x1280000 32) : IVec S1280000 1 :=
  Host.reduce IntOp.andi
    (andi (cmpi .sge (srcIdx x1) (broadcastInDim S1280000x1 ![] bcast_S_S1280000x1 (constantI S_ 32 0#32)))
      (cmpi .sle (srcIdx x1) (broadcastInDim S1280000x1 ![0, 1] bcast_S1x1_S1280000x1_0_1
        (broadcastInDim S1x1 ![1] bcast_S1_S1x1_1 (constantI S1 32 79999#32)))))
    (constantI S_ 1 1#1) reducesTo_S1280000x1_S1280000_d1 h_S_
/-- The target as a column of one-entry scatter indices. -/
abbrev tgtIdx (x1 : IVec S2x1280000 32) : IVec S1280000x1 32 :=
  broadcastInDim S1280000x1 ![0] bcast_S1280000_S1280000x1_0 (tgtRow x1)

end Cert.KernelIdeal.HostValue

end
-- ==== Proof.KHostSrc.lean ====
/-
  What the edge region finds in its first array, as a term of the launch memory. Before the region the host takes the
  node features at each edge's source: the source row of the index pairs, a negative index counted from the end of the
  80000-row table, the rows gathered at the wrapped indices, and the fill word wherever the wrapped index falls outside
  0 … 79999. The take is read in three parts (the index column, the range test, the gather and choice), each from any
  contents of the buffers it reads, and the three are chained.
-/
import proofs.«415045_j12429635354688_1_alg».proof.Proof.Gen.KernelIdeal.Frame
import proofs.«415045_j12429635354688_1_alg».proof.Proof.KIdx
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ) (ρ : Dev nD → PrngReg)

namespace SrcStages

/-! ## The take of the node features at the sources, over any row of source indices -/

/-- A row of indices with each negative one counted from the end of the 80000-row table. -/
abbrev wrappedOf (r : IVec S1280000 32) : IVec S1280000 32 :=
  select (cmpi .slt r (broadcastInDim S1280000 ![] bcast_S_S1280000 (constantI S_ 32 0#32)))
    (addi r (broadcastInDim S1280000 ![] bcast_S_S1280000 (constantI S_ 32 80000#32))) r
/-- The same as a column of one-entry start indices. -/
abbrev idxOf (r : IVec S1280000 32) : IVec S1280000x1 32 :=
  broadcastInDim S1280000x1 ![0] bcast_S1280000_S1280000x1_0 (wrappedOf r)
/-- 1 where the wrapped index lies in 0 … 79999. -/
abbrev inRangeOf (r : IVec S1280000 32) : IVec S1280000 1 :=
  Host.reduce IntOp.andi
    (andi (cmpi .sge (idxOf r) (broadcastInDim S1280000x1 ![] bcast_S_S1280000x1 (constantI S_ 32 0#32)))
      (cmpi .sle (idxOf r) (broadcastInDim S1280000x1 ![0, 1] bcast_S1x1_S1280000x1_0_1
        (broadcastInDim S1x1 ![1] bcast_S1_S1x1_1 (constantI S1 32 79999#32)))))
    (constantI S_ 1 1#1) reducesTo_S1280000x1_S1280000_d1 h_S_
/-- The rows of a table x0 gathered at the wrapped indices, with the fill word where the index is out of range. -/
abbrev takeOf (x0 : FVec F S80000x64 .f32) (r : IVec S1280000 32) : FVec F S1280000x64 .f32 :=
  select (broadcastInDim S1280000x64 ![0] bcast_S1280000_S1280000x64_0 (inRangeOf r))
    (Host.gather gather_S80000x64_S1280000x1_S1280000x64_1_0_n_n_0_1_164 x0 (idxOf r))
    (broadcastInDim S1280000x64 ![] bcast_S_S1280000x64 (constant S_ .f32 0x7FC00000#32))

/-! ## The inlined take, cut in three -/

/-- The first eight operations of the inlined take: the wrapped source indices as a column. -/
abbrev opsIdx : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1280000, .i32⟩) (broadcastInDim S1280000 ![] bcast_S_S1280000),
    StableHlo.TRef.binary (.of main_v1 : StableHlo.TRef sig ⟨S1280000, .i32⟩) (.of main_call0_v0 : StableHlo.TRef sig ⟨S1280000, .i32⟩) (.of main_call0_v1 : StableHlo.TRef sig ⟨S1280000, .i1⟩) (cmpi .slt),
    StableHlo.TRef.nullary (.of main_call0_c_0 : StableHlo.TRef sig ⟨S_, .i32⟩) (constantI S_ 32 80000#32),
    StableHlo.TRef.unary (.of main_call0_c_0 : StableHlo.TRef sig ⟨S_, .i32⟩) (.of main_call0_v2 : StableHlo.TRef sig ⟨S1280000, .i32⟩) (broadcastInDim S1280000 ![] bcast_S_S1280000),
    StableHlo.TRef.binary (.of main_v1 : StableHlo.TRef sig ⟨S1280000, .i32⟩) (.of main_call0_v2 : StableHlo.TRef sig ⟨S1280000, .i32⟩) (.of main_call0_v3 : StableHlo.TRef sig ⟨S1280000, .i32⟩) addi,
    StableHlo.TRef.ternary (.of main_call0_v1 : StableHlo.TRef sig ⟨S1280000, .i1⟩) (.of main_call0_v3 : StableHlo.TRef sig ⟨S1280000, .i32⟩) (.of main_v1 : StableHlo.TRef sig ⟨S1280000, .i32⟩) (.of main_call0_v4 : StableHlo.TRef sig ⟨S1280000, .i32⟩) select,
    StableHlo.TRef.unary main_call0_call0.v0 (.of main_call0_v5 : StableHlo.TRef sig ⟨S1280000x1, .i32⟩) (broadcastInDim S1280000x1 ![0] bcast_S1280000_S1280000x1_0) ]
/-- The next ten: the test that the wrapped index lies in 0 … 79999. -/
abbrev opsMask : List (HloOp τ sig (Elt F)) :=
  [ StableHlo.TRef.nullary (.of main_call0_c_1 : StableHlo.TRef sig ⟨S1, .i32⟩) (constantI S1 32 79999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1280000x1, .i32⟩) (broadcastInDim S1280000x1 ![] bcast_S_S1280000x1),
    StableHlo.TRef.binary (.of main_call0_v5 : StableHlo.TRef sig ⟨S1280000x1, .i32⟩) (.of main_call0_v6 : StableHlo.TRef sig ⟨S1280000x1, .i32⟩) (.of main_call0_v7 : StableHlo.TRef sig ⟨S1280000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1280000x1, .i32⟩) (broadcastInDim S1280000x1 ![0, 1] bcast_S1x1_S1280000x1_0_1),
    StableHlo.TRef.binary (.of main_call0_v5 : StableHlo.TRef sig ⟨S1280000x1, .i32⟩) (.of main_call0_v9 : StableHlo.TRef sig ⟨S1280000x1, .i32⟩) (.of main_call0_v10 : StableHlo.TRef sig ⟨S1280000x1, .i1⟩) (cmpi .sle),
    StableHlo.TRef.binary (.of main_call0_v7 : StableHlo.TRef sig ⟨S1280000x1, .i1⟩) (.of main_call0_v10 : StableHlo.TRef sig ⟨S1280000x1, .i1⟩) (.of main_call0_v11 : StableHlo.TRef sig ⟨S1280000x1, .i1⟩) andi,
    StableHlo.TRef.nullary (.of main_call0_c_3 : StableHlo.TRef sig ⟨S_, .i1⟩) (constantI S_ 1 1#1),
    StableHlo.TRef.binary (.of main_call0_v11 : StableHlo.TRef sig ⟨S1280000x1, .i1⟩) (.of main_call0_c_3 : StableHlo.TRef sig ⟨S_, .i1⟩) (.of main_call0_v12 : StableHlo.TRef sig ⟨S1280000, .i1⟩) (fun x v => Host.reduce IntOp.andi x v reducesTo_S1280000x1_S1280000_d1 h_S_) ]
/-- The last five: the gather, and the choice between the gathered rows and the fill word under the mask. -/
abbrev opsSel : List (HloOp τ sig (Elt F)) :=
  [ StableHlo.TRef.binary (.of main_arg0 : StableHlo.TRef sig ⟨S80000x64, .f32⟩) (.of main_call0_v5 : StableHlo.TRef sig ⟨S1280000x1, .i32⟩) (.of main_call0_v13 : StableHlo.TRef sig ⟨S1280000x64, .f32⟩) (fun x i => Host.gather gather_S80000x64_S1280000x1_S1280000x64_1_0_n_n_0_1_164 x i),
    StableHlo.TRef.unary (.of main_call0_v12 : StableHlo.TRef sig ⟨S1280000, .i1⟩) (.of main_call0_v14 : StableHlo.TRef sig ⟨S1280000x64, .i1⟩) (broadcastInDim S1280000x64 ![0] bcast_S1280000_S1280000x64_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1280000x64, .f32⟩) (broadcastInDim S1280000x64 ![] bcast_S_S1280000x64),
    StableHlo.TRef.ternary (.of main_call0_v14 : StableHlo.TRef sig ⟨S1280000x64, .i1⟩) (.of main_call0_v13 : StableHlo.TRef sig ⟨S1280000x64, .f32⟩) (.of main_call0_v15 : StableHlo.TRef sig ⟨S1280000x64, .f32⟩) (.of main_v4 : StableHlo.TRef sig ⟨S1280000x64, .f32⟩) select ]

/-- Running two lines one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih (op.result W)

/-- The three parts, in order, are the whole inlined take. -/
theorem take_split : (hostOps0_1 : List (HloOp τ sig (Elt F))) = opsIdx ++ (opsMask ++ opsSel) := rfl

/-- From any contents whose source row is r, the first part leaves the wrapped indices of r as a column. -/
theorem stage_idx (W : Valuation τ sig (Elt F)) (r : IVec S1280000 32) (hv1 : W (Proc.devRef .tc main_v1) = r) :
    StableHlo.after (opsIdx (F := F)) W (Proc.devRef .tc main_call0_v5) = idxOf r := by
  simp only [opsIdx]
  after_results_simp
  simp only [StableHlo.TRef.ofBuf, StableHlo.TRef.toBuf, cast_eq]
  rw [hv1]

/-- The first part writes neither the node features … -/
theorem keep_idx_arg0 (W : Valuation τ sig (Elt F)) :
    StableHlo.after (opsIdx (F := F)) W (Proc.devRef .tc main_arg0) = W (Proc.devRef .tc main_arg0) := by
  simp only [opsIdx]
  after_results_simp

/-- From any contents whose index column is i, the second part leaves the range test of i. -/
theorem stage_mask (W : Valuation τ sig (Elt F)) (i : IVec S1280000x1 32) (h5 : W (Proc.devRef .tc main_call0_v5) = i) :
    StableHlo.after (opsMask (F := F)) W (Proc.devRef .tc main_call0_v12)
      = Host.reduce IntOp.andi
          (andi (cmpi .sge i (broadcastInDim S1280000x1 ![] bcast_S_S1280000x1 (constantI S_ 32 0#32)))
            (cmpi .sle i (broadcastInDim S1280000x1 ![0, 1] bcast_S1x1_S1280000x1_0_1
              (broadcastInDim S1x1 ![1] bcast_S1_S1x1_1 (constantI S1 32 79999#32)))))
          (constantI S_ 1 1#1) reducesTo_S1280000x1_S1280000_d1 h_S_ := by
  simp only [opsMask]
  after_results_simp
  simp only [StableHlo.TRef.ofBuf, StableHlo.TRef.toBuf, cast_eq]
  rw [h5]

/-- … and the second part writes neither the index column nor the node features. -/
theorem keep_mask_v5 (W : Valuation τ sig (Elt F)) :
    StableHlo.after (opsMask (F := F)) W (Proc.devRef .tc main_call0_v5) = W (Proc.devRef .tc main_call0_v5) := by
  simp only [opsMask]
  after_results_simp
theorem keep_mask_arg0 (W : Valuation τ sig (Elt F)) :
    StableHlo.after (opsMask (F := F)) W (Proc.devRef .tc main_arg0) = W (Proc.devRef .tc main_arg0) := by
  simp only [opsMask]
  after_results_simp

/-- From any contents whose index column is i, range test k and node features x0, the third part leaves the rows of x0
    gathered at i under the mask k, the fill word elsewhere. -/
theorem stage_sel (W : Valuation τ sig (Elt F)) (i : IVec S1280000x1 32) (k : IVec S1280000 1) (x0 : FVec F S80000x64 .f32)
    (h5 : W (Proc.devRef .tc main_call0_v5) = i) (h12 : W (Proc.devRef .tc main_call0_v12) = k)
    (h0 : W (Proc.devRef .tc main_arg0) = x0) :
    StableHlo.after (opsSel (F := F)) W (Proc.devRef .tc main_v4)
      = select (broadcastInDim S1280000x64 ![0] bcast_S1280000_S1280000x64_0 k)
          (Host.gather gather_S80000x64_S1280000x1_S1280000x64_1_0_n_n_0_1_164 x0 i)
          (broadcastInDim S1280000x64 ![] bcast_S_S1280000x64 (constant S_ .f32 0x7FC00000#32)) := by
  simp only [opsSel]
  after_results_simp
  simp only [StableHlo.TRef.ofBuf, StableHlo.TRef.toBuf, cast_eq]
  rw [h5, h12, h0]

/-- THE TAKE: from any contents whose source row is r and whose node features are x0, the inlined take leaves in the edge
    region's first array the take of x0 at r. -/
theorem take_stage (W : Valuation τ sig (Elt F)) (r : IVec S1280000 32) (x0 : FVec F S80000x64 .f32)
    (hv1 : W (Proc.devRef .tc main_v1) = r) (h0 : W (Proc.devRef .tc main_arg0) = x0) :
    StableHlo.after (hostOps0_1 (F := F)) W (Proc.devRef .tc main_v4) = takeOf x0 r := by
  rw [take_split, after_append, after_append]
  exact stage_sel _ (idxOf r) (inRangeOf r) x0
    (by rw [keep_mask_v5]; exact stage_idx W r hv1)
    (stage_mask _ (idxOf r) (stage_idx W r hv1))
    (by rw [keep_mask_arg0, keep_idx_arg0]; exact h0)

/-! ## What the take starts from, and what follows it -/

/-- Before the take the source row is row 0 of the launch index pairs … -/
theorem W1_srcRow (c : Dev nD) : W1 m ρ c (Proc.devRef .tc main_v1) = srcRow (m ((c : Thread nD τ).loc main_arg1)) := by
  show StableHlo.after hostOps0 (W0 m ρ c) (Proc.devRef .tc main_v1) = _
  simp only [hostOps0]
  after_results
  show shapeCast S1280000 (extractStridedSlice S1x1280000 ![0, 0] (m ((c : Thread nD τ).loc main_arg1)) slices_S2x1280000_S1x1280000_0_0)
    shapeCasts_S1x1280000_S1280000 = _
  exact rfl

/-- … and the node features are as launched. -/
theorem W1_feat (c : Dev nD) : W1 m ρ c (Proc.devRef .tc main_arg0) = m ((c : Thread nD τ).loc main_arg0) := by
  show StableHlo.after hostOps0 (W0 m ρ c) (Proc.devRef .tc main_arg0) = _
  simp only [hostOps0]
  after_results

/-- The operations between the take and the edge region do not write the region's first array. -/
theorem keep_rest_v4 (W : Valuation τ sig (Elt F)) :
    StableHlo.after (hostOps0_2 (F := F)) W (Proc.devRef .tc main_v4) = W (Proc.devRef .tc main_v4) := by
  simp only [hostOps0_2]
  after_results_simp

end SrcStages

/-- What the edge region finds in its first array: the node features taken at the edges' sources, a negative index counted
    from the end of the table, the fill word where the wrapped index is out of range. -/
theorem V3_srcfeat_stages (c : Dev nD) : V3 m ρ c main_v4 =
      select (broadcastInDim S1280000x64 ![0] bcast_S1280000_S1280000x64_0 (srcInRange (m ((c : Thread nD τ).loc main_arg1))))
        (Host.gather gather_S80000x64_S1280000x1_S1280000x64_1_0_n_n_0_1_164 (m ((c : Thread nD τ).loc main_arg0)) (srcIdx (m ((c : Thread nD τ).loc main_arg1))))
        (broadcastInDim S1280000x64 ![] bcast_S_S1280000x64 (constant S_ .f32 0x7FC00000#32)) := by
  show StableHlo.after hostOps0_2 (StableHlo.after hostOps0_1 (W1 m ρ c)) (Proc.devRef .tc main_v4)
    = SrcStages.takeOf (m ((c : Thread nD τ).loc main_arg0)) (srcRow (m ((c : Thread nD τ).loc main_arg1)))
  rw [SrcStages.keep_rest_v4]
  exact SrcStages.take_stage (W1 m ρ c) _ _ (SrcStages.W1_srcRow m ρ c) (SrcStages.W1_feat m ρ c)

end Cert.KernelIdeal.HostValue

end
-- ==== Proof.KHost.lean ====
/-
  What the edge region finds in its arrays, as terms of the launch memory.

  Before the edge region the host has split the index pairs into sources and targets, taken the source rows of the node
  features (negative indices counted from the end, rows outside the table replaced by a fill value under a range mask),
  cut the first weight into its first 64 and last 32 rows, and reshaped four bias vectors into 1 x 64 rows. Nothing else
  is written, so the edge features and the second weight are as launched.
-/
import proofs.«415045_j12429635354688_1_alg».proof.Proof.Gen.KernelIdeal.Frame
import proofs.«415045_j12429635354688_1_alg».proof.Proof.KIdx
import proofs.«415045_j12429635354688_1_alg».proof.Proof.KHostSrc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ) (ρ : Dev nD → PrngReg)

/-! ## The index rows and the node table after the first stretch -/

/-- After the first stretch the source row of the index pairs sits in its own buffer. -/
theorem W1_v1 (c : Dev nD) : W1 m ρ c (Proc.devRef .tc main_v1) = srcRow (m ((c : Thread nD τ).loc main_arg1)) := by
  show StableHlo.after hostOps0 (W0 m ρ c) (Proc.devRef .tc main_v1) = _
  simp only [hostOps0]
  after_results
  show (fun i => shapeCast S1280000 (extractStridedSlice S1x1280000 ![0, 0] (m ((c : Thread nD τ).loc main_arg1)) slices_S2x1280000_S1x1280000_0_0) shapeCasts_S1x1280000_S1280000 i) = _
  exact rfl
/-- And the target row in another. -/
theorem W1_v3 (c : Dev nD) : W1 m ρ c (Proc.devRef .tc main_v3) = tgtRow (m ((c : Thread nD τ).loc main_arg1)) := by
  show StableHlo.after hostOps0 (W0 m ρ c) (Proc.devRef .tc main_v3) = _
  simp only [hostOps0]
  after_results
  show (fun i => shapeCast S1280000 (extractStridedSlice S1x1280000 ![1, 0] (m ((c : Thread nD τ).loc main_arg1)) slices_S2x1280000_S1x1280000_1_0) shapeCasts_S1x1280000_S1280000 i) = _
  exact rfl
/-- The node table is as launched. -/
theorem W1_arg0 (c : Dev nD) : W1 m ρ c (Proc.devRef .tc main_arg0) = m ((c : Thread nD τ).loc main_arg0) := by
  show StableHlo.after hostOps0 (W0 m ρ c) (Proc.devRef .tc main_arg0) = _
  simp only [hostOps0]
  after_results

/-! ## The edge region's arrays -/

/-- The source features: the gathered rows where the range mask is set, the fill value elsewhere. -/
theorem V3_srcfeat (c : Dev nD) : V3 m ρ c main_v4 =
    select (broadcastInDim S1280000x64 ![0] bcast_S1280000_S1280000x64_0 (srcInRange (m ((c : Thread nD τ).loc main_arg1))))
      (Host.gather gather_S80000x64_S1280000x1_S1280000x64_1_0_n_n_0_1_164 (m ((c : Thread nD τ).loc main_arg0)) (srcIdx (m ((c : Thread nD τ).loc main_arg1))))
      (broadcastInDim S1280000x64 ![] bcast_S_S1280000x64 (constant S_ .f32 0x7FC00000#32)) :=
  V3_srcfeat_stages m ρ c
theorem V3_edge (c : Dev nD) : V3 m ρ c main_arg2 = m ((c : Thread nD τ).loc main_arg2) := by
  show StableHlo.after hostOps0_2 (W2 m ρ c) (Proc.devRef .tc main_arg2) = _
  simp only [hostOps0_2]
  after_results
theorem V3_w1s (c : Dev nD) : V3 m ρ c main_v5 = extractStridedSlice S64x64 ![0, 0] (m ((c : Thread nD τ).loc main_arg3)) slices_S96x64_S64x64_0_0 := by
  show StableHlo.after hostOps0_2 (W2 m ρ c) (Proc.devRef .tc main_v5) = _
  simp only [hostOps0_2]
  after_results
theorem V3_w1e (c : Dev nD) : V3 m ρ c main_v6 = extractStridedSlice S32x64 ![64, 0] (m ((c : Thread nD τ).loc main_arg3)) slices_S96x64_S32x64_64_0 := by
  show StableHlo.after hostOps0_2 (W2 m ρ c) (Proc.devRef .tc main_v6) = _
  simp only [hostOps0_2]
  after_results
theorem V3_b1 (c : Dev nD) : V3 m ρ c main_v7 = shapeCast S1x64 (m ((c : Thread nD τ).loc main_arg4)) shapeCasts_S64_S1x64 := by
  show StableHlo.after hostOps0_2 (W2 m ρ c) (Proc.devRef .tc main_v7) = _
  simp only [hostOps0_2]
  after_results
  rfl
theorem V3_g1 (c : Dev nD) : V3 m ρ c main_v8 = shapeCast S1x64 (m ((c : Thread nD τ).loc main_arg5)) shapeCasts_S64_S1x64 := by
  show StableHlo.after hostOps0_2 (W2 m ρ c) (Proc.devRef .tc main_v8) = _
  simp only [hostOps0_2]
  after_results
  rfl
theorem V3_be1 (c : Dev nD) : V3 m ρ c main_v9 = shapeCast S1x64 (m ((c : Thread nD τ).loc main_arg6)) shapeCasts_S64_S1x64 := by
  show StableHlo.after hostOps0_2 (W2 m ρ c) (Proc.devRef .tc main_v9) = _
  simp only [hostOps0_2]
  after_results
  rfl
theorem V3_w2 (c : Dev nD) : V3 m ρ c main_arg7 = m ((c : Thread nD τ).loc main_arg7) := by
  show StableHlo.after hostOps0_2 (W2 m ρ c) (Proc.devRef .tc main_arg7) = _
  simp only [hostOps0_2]
  after_results
theorem V3_b2 (c : Dev nD) : V3 m ρ c main_v10 = shapeCast S1x64 (m ((c : Thread nD τ).loc main_arg8)) shapeCasts_S64_S1x64 := by
  show StableHlo.after hostOps0_2 (W2 m ρ c) (Proc.devRef .tc main_v10) = _
  simp only [hostOps0_2]
  after_results
  rfl

end Cert.KernelIdeal.HostValue

end
-- ==== Proof.KHostNode.lean ====
/-
  What the node region finds in its arrays, as terms of the launch memory. Between the two regions the host
  scatter-adds the edge region's output array into zeros by each edge's target, cuts the update weight into its two
  halves and reshapes three vectors into 1 x 64 rows; nothing else is written, so the node features are as launched.
-/
import proofs.«415045_j12429635354688_1_alg».proof.Proof.Gen.KernelIdeal.Frame
import proofs.«415045_j12429635354688_1_alg».proof.Proof.KIdx
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ) (ρ : Dev nD → PrngReg)

/-! ## The launch contents at the edge region's exit -/

/-- The node features are written by nothing before the edge region ends. -/
theorem W4_arg0 (c : Dev nD) : W4 m ρ c (Proc.devRef .tc main_arg0) = m ((c : Thread nD τ).loc main_arg0) := by
  rw [W4_of_ne m ρ c main_arg0 (by decide)]
  show StableHlo.after hostOps0_2 (W2 m ρ c) (Proc.devRef .tc main_arg0) = _
  simp only [hostOps0_2]
  after_results

/-- Neither is the update weight. -/
theorem W4_arg9 (c : Dev nD) : W4 m ρ c (Proc.devRef .tc main_arg9) = m ((c : Thread nD τ).loc main_arg9) := by
  rw [W4_of_ne m ρ c main_arg9 (by decide)]
  show StableHlo.after hostOps0_2 (W2 m ρ c) (Proc.devRef .tc main_arg9) = _
  simp only [hostOps0_2]
  after_results

/-- Nor are the update bias and the two rows of the closing normalisation. -/
theorem W4_arg10 (c : Dev nD) : W4 m ρ c (Proc.devRef .tc main_arg10) = m ((c : Thread nD τ).loc main_arg10) := by
  rw [W4_of_ne m ρ c main_arg10 (by decide)]
  show StableHlo.after hostOps0_2 (W2 m ρ c) (Proc.devRef .tc main_arg10) = _
  simp only [hostOps0_2]
  after_results
theorem W4_arg11 (c : Dev nD) : W4 m ρ c (Proc.devRef .tc main_arg11) = m ((c : Thread nD τ).loc main_arg11) := by
  rw [W4_of_ne m ρ c main_arg11 (by decide)]
  show StableHlo.after hostOps0_2 (W2 m ρ c) (Proc.devRef .tc main_arg11) = _
  simp only [hostOps0_2]
  after_results
theorem W4_arg12 (c : Dev nD) : W4 m ρ c (Proc.devRef .tc main_arg12) = m ((c : Thread nD τ).loc main_arg12) := by
  rw [W4_of_ne m ρ c main_arg12 (by decide)]
  show StableHlo.after hostOps0_2 (W2 m ρ c) (Proc.devRef .tc main_arg12) = _
  simp only [hostOps0_2]
  after_results

/-- Each edge's target, as the first host stretch cuts it out of the index pairs. -/
theorem W1_targets (c : Dev nD) : W1 m ρ c (Proc.devRef .tc main_v3) = tgtRow (m ((c : Thread nD τ).loc main_arg1)) := by
  show StableHlo.after hostOps0 (W0 m ρ c) (Proc.devRef .tc main_v3) = _
  simp only [hostOps0]
  after_results
  show (fun i => shapeCast S1280000 (extractStridedSlice S1x1280000 ![1, 0] (m ((c : Thread nD τ).loc main_arg1)) slices_S2x1280000_S1x1280000_1_0) shapeCasts_S1x1280000_S1280000 i) = _
  exact rfl

/-- The targets' row is written by the first host stretch only, so the edge region's exit still finds it there. -/
theorem W4_v3 (c : Dev nD) : W4 m ρ c (Proc.devRef .tc main_v3) = tgtRow (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = tgtRow (m ((c : Thread nD τ).loc main_arg1)) := W1_targets m ρ c

/-- The messages' array at the edge region's exit is what the region's write-backs leave. -/
theorem W4_v11 (c : Dev nD) : W4 m ρ c (Proc.devRef .tc main_v11) = (dat0 (V3 m ρ) c).arrAt 9 cfg0.N :=
  W4_arr m ρ c 9

/-! ## The node region's arrays -/

/-- The aggregated messages: what the edge region left, scatter-added into zeros by target. -/
theorem V5_agg (c : Dev nD) : V5 m ρ c main_v14 =
    Host.scatterAdd scatter_S80000x64_S1280000x1_S1280000x64_1_0_0_1
      (broadcastInDim S80000x64 ![] bcast_S_S80000x64 (constant S_ .f32 0x00000000#32))
      (tgtIdx (m ((c : Thread nD τ).loc main_arg1)))
      ((dat0 (V3 m ρ) c).arrAt 9 cfg0.N) := by
  show StableHlo.after hostOps1 (W4 m ρ c) (Proc.devRef .tc main_v14) = _
  simp only [hostOps1]
  after_results
  rw [W4_v3 m ρ c, W4_v11 m ρ c]
theorem V5_node (c : Dev nD) : V5 m ρ c main_arg0 = m ((c : Thread nD τ).loc main_arg0) := by
  show StableHlo.after hostOps1 (W4 m ρ c) (Proc.devRef .tc main_arg0) = _
  simp only [hostOps1]
  after_results
  exact W4_arg0 m ρ c
theorem V5_wua (c : Dev nD) : V5 m ρ c main_v15 = extractStridedSlice S64x64 ![0, 0] (m ((c : Thread nD τ).loc main_arg9)) slices_S128x64_S64x64_0_0 := by
  show StableHlo.after hostOps1 (W4 m ρ c) (Proc.devRef .tc main_v15) = _
  simp only [hostOps1]
  after_results
  rw [W4_arg9 m ρ c]
theorem V5_wun (c : Dev nD) : V5 m ρ c main_v16 = extractStridedSlice S64x64 ![64, 0] (m ((c : Thread nD τ).loc main_arg9)) slices_S128x64_S64x64_64_0 := by
  show StableHlo.after hostOps1 (W4 m ρ c) (Proc.devRef .tc main_v16) = _
  simp only [hostOps1]
  after_results
  rw [W4_arg9 m ρ c]
theorem V5_bu (c : Dev nD) : V5 m ρ c main_v17 = shapeCast S1x64 (m ((c : Thread nD τ).loc main_arg10)) shapeCasts_S64_S1x64 := by
  show StableHlo.after hostOps1 (W4 m ρ c) (Proc.devRef .tc main_v17) = _
  simp only [hostOps1]
  after_results
  rw [W4_arg10 m ρ c]
  rfl
theorem V5_gn (c : Dev nD) : V5 m ρ c main_v18 = shapeCast S1x64 (m ((c : Thread nD τ).loc main_arg11)) shapeCasts_S64_S1x64 := by
  show StableHlo.after hostOps1 (W4 m ρ c) (Proc.devRef .tc main_v18) = _
  simp only [hostOps1]
  after_results
  rw [W4_arg11 m ρ c]
  rfl
theorem V5_bn (c : Dev nD) : V5 m ρ c main_v19 = shapeCast S1x64 (m ((c : Thread nD τ).loc main_arg12)) shapeCasts_S64_S1x64 := by
  show StableHlo.after hostOps1 (W4 m ρ c) (Proc.devRef .tc main_v19) = _
  simp only [hostOps1]
  after_results
  rw [W4_arg12 m ρ c]
  rfl

end Cert.KernelIdeal.HostValue

end
-- ==== Proof.KHostIdx.lean ====
/-
  A cut of consecutive rows out of a matrix, and a vector viewed as a one-row matrix, each read at an index: entry
  (k, j) of rows a … a + n − 1 of x is entry (a + k, j) of x, and entry (0, j) of the row view of x is entry j of x.
-/
import proofs.«415045_j12429635354688_1_alg».proof.Proof.Gen.KernelIdeal.Frame
import proofs.«415045_j12429635354688_1_alg».proof.Proof.KIdx
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem

/-! ## The cuts and reshapes read at an index -/

variable {α : Type}

/-- The first 64 rows of a 96-row matrix. -/
theorem slice96_top (x : S96x64.Idx → α) (k j : Fin 64) :
    extractStridedSlice S64x64 ![0, 0] x slices_S96x64_S64x64_0_0 (ix2 k j) = x (ix2 (⟨k.val, by omega⟩ : Fin 96) j) :=
  slice2_axis0_apply 0 x slices_S96x64_S64x64_0_0 k j _ (Nat.zero_add _).symm
/-- Its last 32 rows. -/
theorem slice96_bot (x : S96x64.Idx → α) (k : Fin 32) (j : Fin 64) :
    extractStridedSlice S32x64 ![64, 0] x slices_S96x64_S32x64_64_0 (ix2 k j) = x (ix2 (⟨64 + k.val, by omega⟩ : Fin 96) j) :=
  slice2_axis0_apply 64 x slices_S96x64_S32x64_64_0 k j _ rfl
/-- The first 64 rows of a 128-row matrix. -/
theorem slice128_top (x : S128x64.Idx → α) (k j : Fin 64) :
    extractStridedSlice S64x64 ![0, 0] x slices_S128x64_S64x64_0_0 (ix2 k j) = x (ix2 (⟨k.val, by omega⟩ : Fin 128) j) :=
  slice2_axis0_apply 0 x slices_S128x64_S64x64_0_0 k j _ (Nat.zero_add _).symm
/-- Its last 64 rows. -/
theorem slice128_bot (x : S128x64.Idx → α) (k j : Fin 64) :
    extractStridedSlice S64x64 ![64, 0] x slices_S128x64_S64x64_64_0 (ix2 k j) = x (ix2 (⟨64 + k.val, by omega⟩ : Fin 128) j) :=
  slice2_axis0_apply 64 x slices_S128x64_S64x64_64_0 k j _ rfl
/-- A 64-vector as a 1 x 64 row. -/
theorem row64 (x : S64.Idx → α) (j : Fin 64) :
    shapeCast S1x64 x shapeCasts_S64_S1x64 (ix2 (0 : Fin 1) j) = x (ix1 j) :=
  shapeCast_a_1a_apply x shapeCasts_S64_S1x64 (0 : Fin 1) j

end Cert.KernelIdeal.HostValue

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KEdgeBlocks.lean ====
/-
  From the edge region's body to its output array. Grid point t handles rows 3200·t … 3200·t + 3199: the block it writes
  back is the body's value of the matching blocks of the two row-blocked inputs and of the whole weight windows, so if
  the body's value at (p, q) is the message function of row p of its input blocks, the block written at point t is the
  restriction to those rows of the array whose row e is the message of edge e; the 400 blocks tile the 1,280,000 rows.
-/
import proofs.«415045_j12429635354688_1_alg».proof.Proof.Gen.KernelIdeal.Frame
import proofs.«415045_j12429635354688_1_alg».proof.Proof.Layer
import Idealize.ShloMosaic.Lib.Pipeline.Value
import Idealize.ShloMosaic.Lib.ValueIdx
import Idealize.ShloMosaic.Lib.ValueLayout

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

open Idealize.ShloMosaic.Pipeline (Dat)

namespace EdgeBlocks

/-- The offset (0, 0) is the zero offset. -/
theorem hz : (![0, 0] : Fin 2 → Nat) = fun _ => 0 := funext fun a => by fin_cases a <;> rfl

/-! ## The index maps, decided once over the 400 grid points -/

/-- The row-blocked windows 0, 1 and 9 are at block (t, 0) at grid point t; the weight windows 2 … 8 stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The grid has 400 points. -/
theorem N_eq : cfg0.N = 400 := N_0

/-- Row p of the block of grid point t is row 3200·t + p of the array: 400 blocks of 3200 rows. -/
def rowOf (t : Fin cfg0.N) (p : Fin 3200) : Fin 1280000 :=
  ⟨3200 * t.val + p.val, by have := t.isLt; have := N_eq; have := p.isLt; omega⟩

/-! ## The input blocks at a grid point, read at an entry

A block's coordinate on an axis is its block index times the block's extent plus the coordinate inside the block. -/

/-- Row p of window 0's block at point t is row 3200·t + p of the gathered source rows (likewise window 1, the edge features). -/
theorem blk0_apply (c : Dev nD) (t : Fin cfg0.N) (p : Fin 3200) (k : Fin 64) :
    iblk0 V c 0 t (ix2 p k) = V c main_v4 (ix2 (rowOf t p) k) := by
  unfold iblk0
  rw [View.read_apply]
  refine congrArg (V c main_v4) ?_
  have e0 : win0_0.index t (0 : Fin 2) = t.val := (idx_facts t).1
  have e1 : win0_0.index t (1 : Fin 2) = 0 := (idx_facts t).2.1
  funext a; apply Fin.ext
  match a with
  | ⟨0, _⟩ => show win0_0.index t (0 : Fin 2) * 3200 + 1 * p.val = 3200 * t.val + p.val; omega
  | ⟨1, _⟩ => show win0_0.index t (1 : Fin 2) * 64 + 1 * k.val = k.val; omega

theorem blk1_apply (c : Dev nD) (t : Fin cfg0.N) (p : Fin 3200) (k : Fin 32) :
    iblk0 V c 1 t (ix2 p k) = V c main_arg2 (ix2 (rowOf t p) k) := by
  unfold iblk0
  rw [View.read_apply]
  refine congrArg (V c main_arg2) ?_
  have e0 : win0_1.index t (0 : Fin 2) = t.val := (idx_facts t).2.2.1
  have e1 : win0_1.index t (1 : Fin 2) = 0 := (idx_facts t).2.2.2.1
  funext a; apply Fin.ext
  match a with
  | ⟨0, _⟩ => show win0_1.index t (0 : Fin 2) * 3200 + 1 * p.val = 3200 * t.val + p.val; omega
  | ⟨1, _⟩ => show win0_1.index t (1 : Fin 2) * 32 + 1 * k.val = k.val; omega

/-- A weight window's one block is the whole array (likewise windows 3 … 8). -/
theorem blk2_apply (c : Dev nD) (t : Fin cfg0.N) (k : Fin 64) (j : Fin 64) :
    iblk0 V c 2 t (ix2 k j) = V c main_v5 (ix2 k j) := by
  unfold iblk0
  rw [View.read_apply]
  refine congrArg (V c main_v5) ?_
  have e0 : win0_2.index t (0 : Fin 2) = 0 := (idx_facts t).2.2.2.2.1
  have e1 : win0_2.index t (1 : Fin 2) = 0 := (idx_facts t).2.2.2.2.2.1
  funext a; apply Fin.ext
  match a with
  | ⟨0, _⟩ => show win0_2.index t (0 : Fin 2) * 64 + 1 * k.val = k.val; omega
  | ⟨1, _⟩ => show win0_2.index t (1 : Fin 2) * 64 + 1 * j.val = j.val; omega

theorem blk3_apply (c : Dev nD) (t : Fin cfg0.N) (k : Fin 32) (j : Fin 64) :
    iblk0 V c 3 t (ix2 k j) = V c main_v6 (ix2 k j) := by
  unfold iblk0
  rw [View.read_apply]
  refine congrArg (V c main_v6) ?_
  have e0 : win0_3.index t (0 : Fin 2) = 0 := (idx_facts t).2.2.2.2.2.2.1
  have e1 : win0_3.index t (1 : Fin 2) = 0 := (idx_facts t).2.2.2.2.2.2.2.1
  funext a; apply Fin.ext
  match a with
  | ⟨0, _⟩ => show win0_3.index t (0 : Fin 2) * 32 + 1 * k.val = k.val; omega
  | ⟨1, _⟩ => show win0_3.index t (1 : Fin 2) * 64 + 1 * j.val = j.val; omega

theorem blk4_apply (c : Dev nD) (t : Fin cfg0.N) (k : Fin 1) (j : Fin 64) :
    iblk0 V c 4 t (ix2 k j) = V c main_v7 (ix2 k j) := by
  unfold iblk0
  rw [View.read_apply]
  refine congrArg (V c main_v7) ?_
  have e0 : win0_4.index t (0 : Fin 2) = 0 := (idx_facts t).2.2.2.2.2.2.2.2.1
  have e1 : win0_4.index t (1 : Fin 2) = 0 := (idx_facts t).2.2.2.2.2.2.2.2.2.1
  funext a; apply Fin.ext
  match a with
  | ⟨0, _⟩ => show win0_4.index t (0 : Fin 2) * 1 + 1 * k.val = k.val; omega
  | ⟨1, _⟩ => show win0_4.index t (1 : Fin 2) * 64 + 1 * j.val = j.val; omega

theorem blk5_apply (c : Dev nD) (t : Fin cfg0.N) (k : Fin 1) (j : Fin 64) :
    iblk0 V c 5 t (ix2 k j) = V c main_v8 (ix2 k j) := by
  unfold iblk0
  rw [View.read_apply]
  refine congrArg (V c main_v8) ?_
  have e0 : win0_5.index t (0 : Fin 2) = 0 := (idx_facts t).2.2.2.2.2.2.2.2.2.2.1
  have e1 : win0_5.index t (1 : Fin 2) = 0 := (idx_facts t).2.2.2.2.2.2.2.2.2.2.2.1
  funext a; apply Fin.ext
  match a with
  | ⟨0, _⟩ => show win0_5.index t (0 : Fin 2) * 1 + 1 * k.val = k.val; omega
  | ⟨1, _⟩ => show win0_5.index t (1 : Fin 2) * 64 + 1 * j.val = j.val; omega

theorem blk6_apply (c : Dev nD) (t : Fin cfg0.N) (k : Fin 1) (j : Fin 64) :
    iblk0 V c 6 t (ix2 k j) = V c main_v9 (ix2 k j) := by
  unfold iblk0
  rw [View.read_apply]
  refine congrArg (V c main_v9) ?_
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  funext a; apply Fin.ext
  match a with
  | ⟨0, _⟩ => show win0_6.index t (0 : Fin 2) * 1 + 1 * k.val = k.val; omega
  | ⟨1, _⟩ => show win0_6.index t (1 : Fin 2) * 64 + 1 * j.val = j.val; omega

theorem blk7_apply (c : Dev nD) (t : Fin cfg0.N) (k : Fin 64) (j : Fin 64) :
    iblk0 V c 7 t (ix2 k j) = V c main_arg7 (ix2 k j) := by
  unfold iblk0
  rw [View.read_apply]
  refine congrArg (V c main_arg7) ?_
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  funext a; apply Fin.ext
  match a with
  | ⟨0, _⟩ => show win0_7.index t (0 : Fin 2) * 64 + 1 * k.val = k.val; omega
  | ⟨1, _⟩ => show win0_7.index t (1 : Fin 2) * 64 + 1 * j.val = j.val; omega

theorem blk8_apply (c : Dev nD) (t : Fin cfg0.N) (k : Fin 1) (j : Fin 64) :
    iblk0 V c 8 t (ix2 k j) = V c main_v10 (ix2 k j) := by
  unfold iblk0
  rw [View.read_apply]
  refine congrArg (V c main_v10) ?_
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  funext a; apply Fin.ext
  match a with
  | ⟨0, _⟩ => show win0_8.index t (0 : Fin 2) * 1 + 1 * k.val = k.val; omega
  | ⟨1, _⟩ => show win0_8.index t (1 : Fin 2) * 64 + 1 * j.val = j.val; omega

/-- The array whose row e is the message of edge e. -/
abbrev G (c : Dev nD) : S1280000x64.Idx → Elt Ideal .f32 := fun i =>
  Cert.Layer.edgeMsg (fun k => V c main_v4 (ix2 (i 0) k)) (fun k => V c main_arg2 (ix2 (i 0) k))
    (fun k j => V c main_v5 (ix2 k j)) (fun k j => V c main_v6 (ix2 k j))
    (fun j => V c main_v7 (ix2 (0 : Fin 1) j)) (fun j => V c main_v8 (ix2 (0 : Fin 1) j))
    (fun j => V c main_v9 (ix2 (0 : Fin 1) j))
    (fun k j => V c main_arg7 (ix2 k j)) (fun j => V c main_v10 (ix2 (0 : Fin 1) j)) (i 1)

/-! ## What a grid point writes back -/

/-- Entry (p, q) of the output block of point t is entry (3200·t + p, q) of the output array. -/
theorem emb9 (t : Fin cfg0.N) (p : Fin 3200) (q : Fin 64) :
    ((cfg0.win 9).blk t).view.emb (ix2 p q) = ix2 (rowOf t p) q := by
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  funext a; apply Fin.ext
  match a with
  | ⟨0, _⟩ => show win0_9.index t (0 : Fin 2) * 3200 + 1 * p.val = 3200 * t.val + p.val; omega
  | ⟨1, _⟩ => show win0_9.index t (1 : Fin 2) * 64 + 1 * q.val = q.val; omega

/-- At (p, q) point t writes back the body's value of the blocks at t: the message of edge 3200·t + p, at q. -/
theorem flushed_apply (c : Dev nD)
    (hbody : ∀ (x0 : Vec Ideal S3200x64 .f32) (x1 : Vec Ideal S3200x32 .f32) (x2 : Vec Ideal S64x64 .f32) (x3 : Vec Ideal S32x64 .f32)
      (x4 x5 x6 : Vec Ideal S1x64 .f32) (x7 : Vec Ideal S64x64 .f32) (x8 : Vec Ideal S1x64 .f32) (p : Fin 3200) (q : Fin 64),
      k0_pay1 (k0_pay2 x0 x1 x2 x3 x4 x5) x6 x7 x8 (ix2 p q)
        = Cert.Layer.edgeMsg (fun k => x0 (ix2 p k)) (fun k => x1 (ix2 p k)) (fun k j => x2 (ix2 k j)) (fun k j => x3 (ix2 k j))
            (fun j => x4 (ix2 (0 : Fin 1) j)) (fun j => x5 (ix2 (0 : Fin 1) j)) (fun j => x6 (ix2 (0 : Fin 1) j))
            (fun k j => x7 (ix2 k j)) (fun j => x8 (ix2 (0 : Fin 1) j)) q)
    (t : Fin cfg0.N) (p : Fin 3200) (q : Fin 64) :
    (dat0 (F := Ideal) V c).flushed 9 t (ix2 p q) = G V c (ix2 (rowOf t p) q) := by
  show (cfg0.win 9).cut (grid0.coords t) ((dat0 V c).after 9 t) (ix2 p q) = _
  rw [after0_9]
  unfold out0_9
  rw [View.canon_unit_zero hz]
  simp only [View.ld_unit_zero (S := S3200x64) hz, View.ld_unit_zero (S := S3200x32) hz, View.ld_unit_zero (S := S64x64) hz,
    View.ld_unit_zero (S := S32x64) hz, View.ld_unit_zero (S := S1x64) hz]
  show k0_pay1 (k0_pay2 (iblk0 V c 0 t) (iblk0 V c 1 t) (iblk0 V c 2 t) (iblk0 V c 3 t) (iblk0 V c 4 t) (iblk0 V c 5 t))
      (iblk0 V c 6 t) (iblk0 V c 7 t) (iblk0 V c 8 t) (ix2 p q) = _
  rw [hbody]
  simp only [blk0_apply, blk1_apply, blk2_apply, blk3_apply, blk4_apply, blk5_apply, blk6_apply, blk7_apply, blk8_apply]

/-- So what point t writes back is its block of the array of all messages. -/
theorem flushed_eq (c : Dev nD)
    (hbody : ∀ (x0 : Vec Ideal S3200x64 .f32) (x1 : Vec Ideal S3200x32 .f32) (x2 : Vec Ideal S64x64 .f32) (x3 : Vec Ideal S32x64 .f32)
      (x4 x5 x6 : Vec Ideal S1x64 .f32) (x7 : Vec Ideal S64x64 .f32) (x8 : Vec Ideal S1x64 .f32) (p : Fin 3200) (q : Fin 64),
      k0_pay1 (k0_pay2 x0 x1 x2 x3 x4 x5) x6 x7 x8 (ix2 p q)
        = Cert.Layer.edgeMsg (fun k => x0 (ix2 p k)) (fun k => x1 (ix2 p k)) (fun k j => x2 (ix2 k j)) (fun k j => x3 (ix2 k j))
            (fun j => x4 (ix2 (0 : Fin 1) j)) (fun j => x5 (ix2 (0 : Fin 1) j)) (fun j => x6 (ix2 (0 : Fin 1) j))
            (fun k j => x7 (ix2 k j)) (fun j => x8 (ix2 (0 : Fin 1) j)) q)
    (t : Fin cfg0.N) :
    (dat0 (F := Ideal) V c).flushed 9 t = ((cfg0.win 9).blk t).view.read (Elt Ideal) (G V c) := by
  funext j
  have hj : j = ix2 (j 0) (j 1) := @eq_ix2 3200 64 j
  rw [View.read_apply]
  calc (dat0 (F := Ideal) V c).flushed 9 t j
      = (dat0 (F := Ideal) V c).flushed 9 t (ix2 (j 0) (j 1)) := congrArg _ hj
    _ = G V c (ix2 (rowOf t (j 0)) (j 1)) := flushed_apply V c hbody t (j 0) (j 1)
    _ = G V c (((cfg0.win 9).blk t).view.emb (ix2 (j 0) (j 1))) := (congrArg (G V c) (emb9 t (j 0) (j 1))).symm
    _ = G V c (((cfg0.win 9).blk t).view.emb j) := congrArg (fun y => G V c (((cfg0.win 9).blk t).view.emb y)) hj.symm

/-! ## The 400 blocks tile the rows -/

/-- An index of the array is in point t's block iff each coordinate is in the block's range on its axis. -/
theorem mem_blk (t : Fin cfg0.N) (i : S1280000x64.Idx) :
    i ∈ ((cfg0.win 9).blk t).view.set ↔ ∀ a : Fin 2, win0_9.index t a * S3200x64.size a ≤ (i a).val ∧ (i a).val < win0_9.index t a * S3200x64.size a + S3200x64.size a := by
  show i ∈ ((View.whole main_v11).slice (win0_9.rect t)).set ↔ _
  rw [View.set_slice_whole, Rect.mem_set_unit]
  exact Iff.rfl

/-- Row r lies in the block of point ⌊r / 3200⌋, and every point writes back. -/
theorem cover (i : S1280000x64.Idx) :
    ∃ t : Fin cfg0.N, (cfg0.win 9).flush t = true ∧ i ∈ ((cfg0.win 9).blk t).view.set := by
  have hi0 : (i 0).val < 1280000 := (i 0).isLt
  have hi1 : (i 1).val < 64 := (i 1).isLt
  obtain ⟨t, ht⟩ : ∃ t : Fin cfg0.N, t.val = (i 0).val / 3200 := ⟨⟨(i 0).val / 3200, by have := N_eq; omega⟩, rfl⟩
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  refine ⟨t, flush0_9 t, ?_⟩
  rw [mem_blk]
  intro a
  match a with
  | ⟨0, _⟩ => show win0_9.index t (0 : Fin 2) * 3200 ≤ (i 0).val ∧ (i 0).val < win0_9.index t (0 : Fin 2) * 3200 + 3200; omega
  | ⟨1, _⟩ => show win0_9.index t (1 : Fin 2) * 64 ≤ (i 1).val ∧ (i 1).val < win0_9.index t (1 : Fin 2) * 64 + 64; omega

end EdgeBlocks

/-- If the body's value at (p, q) is the message function of row p of its input blocks, then after the edge region its
    output array holds, at (e, j), entry j of the message of edge e. -/
theorem edge_array_of_payload (c : Dev nD)
    (hbody : ∀ (x0 : Vec Ideal S3200x64 .f32) (x1 : Vec Ideal S3200x32 .f32) (x2 : Vec Ideal S64x64 .f32) (x3 : Vec Ideal S32x64 .f32)
      (x4 x5 x6 : Vec Ideal S1x64 .f32) (x7 : Vec Ideal S64x64 .f32) (x8 : Vec Ideal S1x64 .f32) (p : Fin 3200) (q : Fin 64),
      k0_pay1 (k0_pay2 x0 x1 x2 x3 x4 x5) x6 x7 x8 (ix2 p q)
        = Cert.Layer.edgeMsg (fun k => x0 (ix2 p k)) (fun k => x1 (ix2 p k)) (fun k j => x2 (ix2 k j)) (fun k j => x3 (ix2 k j))
            (fun j => x4 (ix2 (0 : Fin 1) j)) (fun j => x5 (ix2 (0 : Fin 1) j)) (fun j => x6 (ix2 (0 : Fin 1) j))
            (fun k j => x7 (ix2 k j)) (fun j => x8 (ix2 (0 : Fin 1) j)) q) :
    (dat0 (F := Ideal) V c).arrAt 9 cfg0.N = fun i : S1280000x64.Idx =>
      Cert.Layer.edgeMsg (fun k => V c main_v4 (ix2 (i 0) k)) (fun k => V c main_arg2 (ix2 (i 0) k))
        (fun k j => V c main_v5 (ix2 k j)) (fun k j => V c main_v6 (ix2 k j))
        (fun j => V c main_v7 (ix2 (0 : Fin 1) j)) (fun j => V c main_v8 (ix2 (0 : Fin 1) j))
        (fun j => V c main_v9 (ix2 (0 : Fin 1) j))
        (fun k j => V c main_arg7 (ix2 k j)) (fun j => V c main_v10 (ix2 (0 : Fin 1) j)) (i 1) :=
  (dat0 (F := Ideal) V c).arrAt_eq_of_cover 9 (EdgeBlocks.G V c) (fun t _ => EdgeBlocks.flushed_eq V c hbody t) EdgeBlocks.cover

end Cert.KernelIdeal.EdgeValue

end
-- ==== Proof.KEdge.lean ====
/-
  What the edge region leaves in its output array: row e of the messages is the message function of row e of the
  source features and of the edge features, with the weights as the region finds them. A grid point t handles rows
  3200·t … 3200·t + 3199; its block of the output is the body's value of the matching blocks of the two row-blocked
  inputs and of the whole (resident) weight windows, and the 400 blocks tile the 1,280,000 rows.

  This module reads the body's value at an index (p, q) of a block. The two products into a zero accumulator are the
  sums over the contraction index of l(p, k) · r(k, q) (a change of float format is the identity on the extended
  reals); a lane sum kept as a column is the sum of the row; a column repeated across the lanes reads its row's entry;
  a 1 x 64 row repeated down the rows reads its lane's entry. Pushing (p, q) through the pointwise operations then
  gives, operation for operation, the message function of row p: the affine image, centred on its mean, scaled by the
  reciprocal square root of the mean squared deviation plus ε and by the scale row, shifted, gated, mapped again and
  gated. The passage from blocks to the whole array is the imported module's.
-/
import proofs.«415045_j12429635354688_1_alg».proof.Proof.Gen.KernelIdeal.Frame
import proofs.«415045_j12429635354688_1_alg».proof.Proof.Layer
import proofs.«415045_j12429635354688_1_alg».proof.Proof.LibColumn
import proofs.«415045_j12429635354688_1_alg».proof.Proof.KEdgeBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem

/-! ## The two contractions read at an index -/

theorem lhs_src_0 (i : S3200x64.Idx) (q : dot_S3200x64_S64x64_S3200x64_1_0_0_1_n_n.contr.Idx) :
    (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
theorem lhs_src_1 (i : S3200x64.Idx) (q : dot_S3200x64_S64x64_S3200x64_1_0_0_1_n_n.contr.Idx) :
    (dot_S3200x64_S64x64_S3200x64_1_0_0_1_n_n.lhsIdx i q 1).val = (q ⟨0, by decide⟩).val :=
  dot_S3200x64_S64x64_S3200x64_1_0_0_1_n_n.lhsIdx_val_of_single rfl i q
theorem rhs_src_0 (i : S3200x64.Idx) (q : dot_S3200x64_S64x64_S3200x64_1_0_0_1_n_n.contr.Idx) :
    (dot_S3200x64_S64x64_S3200x64_1_0_0_1_n_n.rhsIdx i q 0).val = (q ⟨0, by decide⟩).val :=
  dot_S3200x64_S64x64_S3200x64_1_0_0_1_n_n.rhsIdx_val_of_single rfl i q
theorem rhs_src_1 (i : S3200x64.Idx) (q : dot_S3200x64_S64x64_S3200x64_1_0_0_1_n_n.contr.Idx) :
    (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- A 3200 x 64 block times a 64 x 64 weight, into zero: entry (p, q) is the sum over k of l(p, k) · r(k, q). -/
theorem matmul_src_apply {φ₁ φ₂ : FTy} (l : FVec Ideal S3200x64 φ₁) (r : FVec Ideal S64x64 φ₂) (p : Fin 3200) (q : Fin 64) :
    matmul dot_S3200x64_S64x64_S3200x64_1_0_0_1_n_n none l r (constant (F := Ideal) S3200x64 .f32 0x00000000#32) (ix2 p q)
      = ∑ k : Fin 64, l (ix2 p k) * r (ix2 k q) := by
  simp only [matmul]
  rw [Ideal.matmul_constant_zero_apply, ← Equiv.sum_comp (ValueIdx.contrEquiv1 dot_S3200x64_S64x64_S3200x64_1_0_0_1_n_n 64 rfl rfl).symm]
  refine Finset.sum_congr rfl fun k _ => ?_
  have hk := ValueIdx.contrEquiv1_symm_val dot_S3200x64_S64x64_S3200x64_1_0_0_1_n_n 64 rfl rfl k
  have el : dot_S3200x64_S64x64_S3200x64_1_0_0_1_n_n.lhsIdx (ix2 p q) ((ValueIdx.contrEquiv1 dot_S3200x64_S64x64_S3200x64_1_0_0_1_n_n 64 rfl rfl).symm k) = ix2 p k := funext fun a => Fin.ext (by
    match a with
    | ⟨0, _⟩ => exact lhs_src_0 _ _
    | ⟨1, _⟩ => exact (lhs_src_1 _ _).trans hk)
  have er : dot_S3200x64_S64x64_S3200x64_1_0_0_1_n_n.rhsIdx (ix2 p q) ((ValueIdx.contrEquiv1 dot_S3200x64_S64x64_S3200x64_1_0_0_1_n_n 64 rfl rfl).symm k) = ix2 k q := funext fun a => Fin.ext (by
    match a with
    | ⟨0, _⟩ => exact (rhs_src_0 _ _).trans hk
    | ⟨1, _⟩ => exact rhs_src_1 _ _)
  rw [el, er]

theorem lhs_own_0 (i : S3200x64.Idx) (q : dot_S3200x32_S32x64_S3200x64_1_0_0_1_n_n.contr.Idx) :
    (dot_S3200x32_S32x64_S3200x64_1_0_0_1_n_n.lhsIdx i q 0).val = (i 0).val := by
  unfold DotDims.lhsIdx
  rw [dif_neg (show ¬(0 : Fin S3200x32.rank) ∈ dot_S3200x32_S32x64_S3200x64_1_0_0_1_n_n.lhsBatch by decide), dif_pos (show (0 : Fin S3200x32.rank) ∈ dot_S3200x32_S32x64_S3200x64_1_0_0_1_n_n.lhsNonContracting by decide)]
  rfl
theorem lhs_own_1 (i : S3200x64.Idx) (q : dot_S3200x32_S32x64_S3200x64_1_0_0_1_n_n.contr.Idx) :
    (dot_S3200x32_S32x64_S3200x64_1_0_0_1_n_n.lhsIdx i q 1).val = (q ⟨0, by decide⟩).val :=
  dot_S3200x32_S32x64_S3200x64_1_0_0_1_n_n.lhsIdx_val_of_single rfl i q
theorem rhs_own_0 (i : S3200x64.Idx) (q : dot_S3200x32_S32x64_S3200x64_1_0_0_1_n_n.contr.Idx) :
    (dot_S3200x32_S32x64_S3200x64_1_0_0_1_n_n.rhsIdx i q 0).val = (q ⟨0, by decide⟩).val :=
  dot_S3200x32_S32x64_S3200x64_1_0_0_1_n_n.rhsIdx_val_of_single rfl i q
theorem rhs_own_1 (i : S3200x64.Idx) (q : dot_S3200x32_S32x64_S3200x64_1_0_0_1_n_n.contr.Idx) :
    (dot_S3200x32_S32x64_S3200x64_1_0_0_1_n_n.rhsIdx i q 1).val = (i 1).val := by
  unfold DotDims.rhsIdx
  rw [dif_neg (show ¬(1 : Fin S32x64.rank) ∈ dot_S3200x32_S32x64_S3200x64_1_0_0_1_n_n.rhsBatch by decide), dif_pos (show (1 : Fin S32x64.rank) ∈ dot_S3200x32_S32x64_S3200x64_1_0_0_1_n_n.rhsNonContracting by decide)]
  rfl

/-- A 3200 x 32 block times a 32 x 64 weight, into zero: entry (p, q) is the sum over k of l(p, k) · r(k, q). -/
theorem matmul_own_apply {φ₁ φ₂ : FTy} (l : FVec Ideal S3200x32 φ₁) (r : FVec Ideal S32x64 φ₂) (p : Fin 3200) (q : Fin 64) :
    matmul dot_S3200x32_S32x64_S3200x64_1_0_0_1_n_n none l r (constant (F := Ideal) S3200x64 .f32 0x00000000#32) (ix2 p q)
      = ∑ k : Fin 32, l (ix2 p k) * r (ix2 k q) := by
  simp only [matmul]
  rw [Ideal.matmul_constant_zero_apply, ← Equiv.sum_comp (ValueIdx.contrEquiv1 dot_S3200x32_S32x64_S3200x64_1_0_0_1_n_n 32 rfl rfl).symm]
  refine Finset.sum_congr rfl fun k _ => ?_
  have hk := ValueIdx.contrEquiv1_symm_val dot_S3200x32_S32x64_S3200x64_1_0_0_1_n_n 32 rfl rfl k
  have el : dot_S3200x32_S32x64_S3200x64_1_0_0_1_n_n.lhsIdx (ix2 p q) ((ValueIdx.contrEquiv1 dot_S3200x32_S32x64_S3200x64_1_0_0_1_n_n 32 rfl rfl).symm k) = ix2 p k := funext fun a => Fin.ext (by
    match a with
    | ⟨0, _⟩ => exact lhs_own_0 _ _
    | ⟨1, _⟩ => exact (lhs_own_1 _ _).trans hk)
  have er : dot_S3200x32_S32x64_S3200x64_1_0_0_1_n_n.rhsIdx (ix2 p q) ((ValueIdx.contrEquiv1 dot_S3200x32_S32x64_S3200x64_1_0_0_1_n_n 32 rfl rfl).symm k) = ix2 k q := funext fun a => Fin.ext (by
    match a with
    | ⟨0, _⟩ => exact (rhs_own_0 _ _).trans hk
    | ⟨1, _⟩ => exact rhs_own_1 _ _)
  rw [el, er]

/-! ## A row's sum as a column entry -/

/-- The lane sum of a 3200 x 64 block, kept as a 3200 x 1 column: entry (p, ·) is the sum of row p. -/
theorem rowsum_apply (v : FVec Ideal S3200x64 .f32) (hφ : FKind.Formats .f32) (hacc : (0x00000000#32 : BitVec 32) = 0x00000000#32) (p : Fin 3200) (u : Fin 1) :
    shapeCast S3200x1 (multiReduction (F := Ideal) .add [1] S3200 v 0x00000000#32 reduces_S3200x64_S3200 hφ hacc) shapeCasts_S3200_S3200x1 (ix2 p u)
      = ∑ k : Fin 64, v (ix2 p k) := by
  rw [Cert.LibColumn.shapeCast_a_a1_apply]
  refine (Ideal.multiReduction_add_single v 0x00000000#32 reduces_S3200x64_S3200 hφ hacc (ix1 p)).trans ?_
  refine Finset.sum_congr rfl fun k _ => congrArg v (funext fun a => Fin.ext ?_)
  match a with
  | ⟨0, _⟩ => rfl
  | ⟨1, _⟩ => rfl

/-! ## The body's value at an index -/

/-- The gate's logistic factor and the reciprocal square root act entry by entry. -/
theorem logistic_apply {s : Shape} {φ : FTy} (a : FVec Ideal s φ) (i : s.Idx) : logistic a i = Ideal.logistic (a i) := rfl
theorem rsqrt_apply {s : Shape} {φ : FTy} (a : FVec Ideal s φ) (i : s.Idx) : rsqrt a i = Ideal.rsqrt (a i) := rfl

/-- The first part of the body at (p, q): the affine image of row p, centred on its mean, scaled by the reciprocal
    square root of its mean squared deviation plus ε, times the scale row's entry q. The row's mean occurs three times:
    under the centring, and in each of the two factors of every squared deviation. -/
theorem pay2_apply (x0 : Vec Ideal S3200x64 .f32) (x1 : Vec Ideal S3200x32 .f32) (x2 : Vec Ideal S64x64 .f32) (x3 : Vec Ideal S32x64 .f32)
    (x4 x5 : Vec Ideal S1x64 .f32) (p : Fin 3200) (q : Fin 64) :
    k0_pay2 x0 x1 x2 x3 x4 x5 (ix2 p q)
      = (Cert.Layer.edgePre (fun k => x0 (ix2 p k)) (fun k => x1 (ix2 p k)) (fun k j => x2 (ix2 k j)) (fun k j => x3 (ix2 k j)) (fun j => x4 (ix2 (0 : Fin 1) j)) q
          - Cert.Layer.mean (Cert.Layer.edgePre (fun k => x0 (ix2 p k)) (fun k => x1 (ix2 p k)) (fun k j => x2 (ix2 k j)) (fun k j => x3 (ix2 k j)) (fun j => x4 (ix2 (0 : Fin 1) j))))
        * Ideal.rsqrt (Cert.Layer.msd (Cert.Layer.edgePre (fun k => x0 (ix2 p k)) (fun k => x1 (ix2 p k)) (fun k j => x2 (ix2 k j)) (fun k j => x3 (ix2 k j)) (fun j => x4 (ix2 (0 : Fin 1) j))) + Cert.Layer.eps)
        * x5 (ix2 (0 : Fin 1) q) := by
  dsimp only [k0_pay2]
  simp only [mulf_apply, subf_apply, addf_apply, divf_apply, rsqrt_apply, logistic_apply, broadcast_apply, truncf_apply, shapeCast_self,
    Cert.LibColumn.broadcastTo_a1_ab_apply, broadcastTo_1b_ab_apply, matmul_src_apply, matmul_own_apply, Ideal.ofBits_def]
  rw [rowsum_apply _ _ _ p 0, rowsum_apply _ _ _ p 0]
  simp only [mulf_apply, subf_apply, addf_apply, divf_apply, rsqrt_apply, logistic_apply, broadcast_apply, truncf_apply, shapeCast_self,
    Cert.LibColumn.broadcastTo_a1_ab_apply, broadcastTo_1b_ab_apply, matmul_src_apply, matmul_own_apply, Ideal.ofBits_def]
  rw [rowsum_apply _ _ _ p 0]
  simp only [mulf_apply, subf_apply, addf_apply, divf_apply, rsqrt_apply, logistic_apply, broadcast_apply, truncf_apply, shapeCast_self,
    Cert.LibColumn.broadcastTo_a1_ab_apply, broadcastTo_1b_ab_apply, matmul_src_apply, matmul_own_apply, Ideal.ofBits_def]
  simp only [Cert.Layer.mean, Cert.Layer.msd, Cert.Layer.edgePre, Cert.Layer.n64, Cert.Layer.eps]

/-- The second part of the body at (p, q), from the first part's block v: shift, gate, the second affine map, gate. -/
theorem pay1_apply (v : FVec Ideal S3200x64 .f32) (x6 : Vec Ideal S1x64 .f32) (x7 : Vec Ideal S64x64 .f32) (x8 : Vec Ideal S1x64 .f32)
    (p : Fin 3200) (q : Fin 64) :
    k0_pay1 v x6 x7 x8 (ix2 p q)
      = Cert.Layer.gate ((∑ k : Fin 64, Cert.Layer.gate (v (ix2 p k) + x6 (ix2 (0 : Fin 1) k)) * x7 (ix2 k q)) + x8 (ix2 (0 : Fin 1) q)) := by
  dsimp only [k0_pay1]
  simp only [mulf_apply, subf_apply, addf_apply, divf_apply, rsqrt_apply, logistic_apply, broadcast_apply, truncf_apply, shapeCast_self,
    Cert.LibColumn.broadcastTo_a1_ab_apply, broadcastTo_1b_ab_apply, matmul_src_apply, matmul_own_apply, Ideal.ofBits_def]
  simp only [Cert.Layer.gate]

/-- THE BODY AT AN INDEX: entry (p, q) of the block the body stores is entry q of the message of row p of the two
    row-blocked inputs, with the seven weight blocks read whole. -/
theorem body_apply (x0 : Vec Ideal S3200x64 .f32) (x1 : Vec Ideal S3200x32 .f32) (x2 : Vec Ideal S64x64 .f32) (x3 : Vec Ideal S32x64 .f32)
    (x4 x5 x6 : Vec Ideal S1x64 .f32) (x7 : Vec Ideal S64x64 .f32) (x8 : Vec Ideal S1x64 .f32) (p : Fin 3200) (q : Fin 64) :
    k0_pay1 (k0_pay2 x0 x1 x2 x3 x4 x5) x6 x7 x8 (ix2 p q)
      = Cert.Layer.edgeMsg (fun k => x0 (ix2 p k)) (fun k => x1 (ix2 p k)) (fun k j => x2 (ix2 k j)) (fun k j => x3 (ix2 k j))
          (fun j => x4 (ix2 (0 : Fin 1) j)) (fun j => x5 (ix2 (0 : Fin 1) j)) (fun j => x6 (ix2 (0 : Fin 1) j))
          (fun k j => x7 (ix2 k j)) (fun j => x8 (ix2 (0 : Fin 1) j)) q := by
  rw [pay1_apply]
  simp only [pay2_apply]
  rfl

variable (V : (c : Dev nD) → (b : Ref sig .tc) → Buf (Elt Ideal) ((c : Thread nD τ).loc b))

/-- THE MESSAGES: after the edge region its output array holds, at (e, j), entry j of the message of edge e. -/
theorem edge_array (c : Dev nD) :
    (dat0 (F := Ideal) V c).arrAt 9 cfg0.N = fun i : S1280000x64.Idx =>
      Cert.Layer.edgeMsg (fun k => V c main_v4 (ix2 (i 0) k)) (fun k => V c main_arg2 (ix2 (i 0) k))
        (fun k j => V c main_v5 (ix2 k j)) (fun k j => V c main_v6 (ix2 k j))
        (fun j => V c main_v7 (ix2 (0 : Fin 1) j)) (fun j => V c main_v8 (ix2 (0 : Fin 1) j))
        (fun j => V c main_v9 (ix2 (0 : Fin 1) j))
        (fun k j => V c main_arg7 (ix2 k j)) (fun j => V c main_v10 (ix2 (0 : Fin 1) j)) (i 1) :=
  edge_array_of_payload V c body_apply

end Cert.KernelIdeal.EdgeValue

end
-- ==== Proof.KNode.lean ====
/-
  What the node region leaves in its output array: row n of the result is the node-output function of row n of the
  aggregated messages and of the node's own features, with the weights as the region finds them. A grid point t
  handles rows 3200·t … 3200·t + 3199, and the 25 blocks tile the 80,000 rows.
-/
import proofs.«415045_j12429635354688_1_alg».proof.Proof.Gen.KernelIdeal.Frame
import proofs.«415045_j12429635354688_1_alg».proof.Proof.Layer
import proofs.«415045_j12429635354688_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product of a block of rows with a 64 x 64 weight, read at an entry -/

/-- The left operand's row coordinate is the output's row. -/
theorem lhs_rows_0 (i : S3200x64.Idx) (q : dot_S3200x64_S64x64_S3200x64_1_0_0_1_n_n.contr.Idx) :
    (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
/-- The left operand's column coordinate is the contraction index. -/
theorem lhs_rows_1 (i : S3200x64.Idx) (q : dot_S3200x64_S64x64_S3200x64_1_0_0_1_n_n.contr.Idx) :
    (dot_S3200x64_S64x64_S3200x64_1_0_0_1_n_n.lhsIdx i q 1).val = (q ⟨0, by decide⟩).val :=
  dot_S3200x64_S64x64_S3200x64_1_0_0_1_n_n.lhsIdx_val_of_single rfl i q
/-- The right operand's row coordinate is the contraction index. -/
theorem rhs_rows_0 (i : S3200x64.Idx) (q : dot_S3200x64_S64x64_S3200x64_1_0_0_1_n_n.contr.Idx) :
    (dot_S3200x64_S64x64_S3200x64_1_0_0_1_n_n.rhsIdx i q 0).val = (q ⟨0, by decide⟩).val :=
  dot_S3200x64_S64x64_S3200x64_1_0_0_1_n_n.rhsIdx_val_of_single rfl i q
/-- The right operand's column coordinate is the output's column. -/
theorem rhs_rows_1 (i : S3200x64.Idx) (q : dot_S3200x64_S64x64_S3200x64_1_0_0_1_n_n.contr.Idx) :
    (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- A block of rows times a weight, accumulated from zero: entry (p, q) is the sum over k of row p at k times the
    weight at (k, q). -/
theorem rows_times_weight (l : FVec Ideal S3200x64 .bf16) (r : FVec Ideal S64x64 .bf16) (p : Fin 3200) (q : Fin 64) :
    matmul dot_S3200x64_S64x64_S3200x64_1_0_0_1_n_n none l r (constant (F := Ideal) S3200x64 .f32 0x00000000#32) (ix2 p q)
      = ∑ k : Fin 64, l (ix2 p k) * r (ix2 k q) := by
  simp only [matmul]
  rw [Ideal.matmul_constant_zero_apply, ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have el : dot_S3200x64_S64x64_S3200x64_1_0_0_1_n_n.lhsIdx (ix2 p q) ((contrEquiv1 dot_S3200x64_S64x64_S3200x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S3200x64_S64x64_S3200x64_1_0_0_1_n_n.rhsIdx (ix2 p q) ((contrEquiv1 dot_S3200x64_S64x64_S3200x64_1_0_0_1_n_n 64 rfl rfl).symm k) = ix2 k q := funext fun a => Fin.ext (by
    match a with
    | ⟨0, _⟩ => exact (rhs_rows_0 _ _).trans hk
    | ⟨1, _⟩ => exact rhs_rows_1 _ _)
  rw [el, er]

/-! ## A lane sum of a block, read at a row -/

/-- The sum over the 64 lanes of a block, at row p, is the sum of the block's row p. -/
theorem lane_sum (v : FVec Ideal S3200x64 .f32) (hφ : FKind.Formats .f32)
    (hacc : (0x00000000#32 : BitVec 32) = FKind.add.neutral .f32 hφ) (p : Fin 3200) :
    multiReduction .add [1] S3200 v 0x00000000#32 reduces_S3200x64_S3200 hφ hacc (ix1 p) = ∑ k : Fin 64, v (ix2 p k) := by
  refine (Ideal.multiReduction_add_single v _ reduces_S3200x64_S3200 hφ hacc (ix1 p)).trans ?_
  show ∑ k : Fin 64, v (reduces_S3200x64_S3200.lift (ix1 p) k) = ∑ k : Fin 64, v (ix2 p k)
  refine Finset.sum_congr rfl fun k _ => congrArg v ?_
  funext a
  apply Fin.ext
  match a with
  | ⟨0, _⟩ => rfl
  | ⟨1, _⟩ => rfl

/-! ## The body's stages on a block of 3200 rows -/

/-- The pre-activation of a block: the aggregated messages through the first weight, the nodes' own rows through the
    second, and the bias row added to every row. (The roundings on the way into the products are the identity on the
    extended reals.) -/
def preBlock (a x : Vec Ideal S3200x64 .f32) (wa wn : Vec Ideal S64x64 .f32) (bu : Vec Ideal S1x64 .f32) : FVec Ideal S3200x64 .f32 :=
  addf
    (addf
      (matmul dot_S3200x64_S64x64_S3200x64_1_0_0_1_n_n none
        (truncf .bf16 (shapeCast S3200x64 a shapeCasts_S3200x64_S3200x64) bitsLt_bf16_f32)
        (truncf .bf16 (shapeCast S64x64 wa shapeCasts_S64x64_S64x64) bitsLt_bf16_f32)
        (constant S3200x64 .f32 0x00000000#32))
      (matmul dot_S3200x64_S64x64_S3200x64_1_0_0_1_n_n none
        (truncf .bf16 x bitsLt_bf16_f32)
        (truncf .bf16 (shapeCast S64x64 wn shapeCasts_S64x64_S64x64) bitsLt_bf16_f32)
        (constant S3200x64 .f32 0x00000000#32)))
    (broadcastTo S3200x64 (shapeCast S1x64 bu shapeCasts_S1x64_S1x64) broadcasts_S1x64_S3200x64)

/-- The gate x · σ(x), entry by entry. -/
def gateBlock (v : FVec Ideal S3200x64 .f32) : FVec Ideal S3200x64 .f32 := mulf v (logistic v)

/-- The column of row means of a block: each row's lane sum divided by 64. -/
def meanCol (v : FVec Ideal S3200x64 .f32) : FVec Ideal S3200x1 .f32 :=
  divf
    (shapeCast S3200x1 (multiReduction .add [1] S3200 v 0x00000000#32 reduces_S3200x64_S3200 (.inl rfl) rfl) shapeCasts_S3200_S3200x1)
    (broadcast S3200x1 (Scalar.ofBits .f32 0x42800000#32))

/-- A block with each row centred on its mean. -/
def centred (v : FVec Ideal S3200x64 .f32) : FVec Ideal S3200x64 .f32 :=
  subf v (broadcastTo S3200x64 (meanCol v) broadcasts_S3200x1_S3200x64)

/-- A block with each row centred and scaled by the reciprocal square root of its mean squared deviation plus ε. -/
def centredScaled (v : FVec Ideal S3200x64 .f32) : FVec Ideal S3200x64 .f32 :=
  mulf (centred v)
    (broadcastTo S3200x64
      (rsqrt (addf (meanCol (mulf (centred v) (centred v))) (broadcast S3200x1 (Scalar.ofBits .f32 0x3727C5AC#32))))
      broadcasts_S3200x1_S3200x64)

/-- The last stage: every row scaled by one row and shifted by another, entry by entry. -/
def scaleShift (v : FVec Ideal S3200x64 .f32) (g : FVec Ideal S1x64 .f32) (b : Vec Ideal S1x64 .f32) : FVec Ideal S3200x64 .f32 :=
  addf (mulf v (broadcastTo S3200x64 g broadcasts_S1x64_S3200x64))
    (broadcastTo S3200x64 (shapeCast S1x64 b shapeCasts_S1x64_S1x64) broadcasts_S1x64_S3200x64)

/-- The body's first payload is the gated pre-activation, centred and scaled. -/
theorem pay2_stages (a x : Vec Ideal S3200x64 .f32) (wa wn : Vec Ideal S64x64 .f32) (bu : Vec Ideal S1x64 .f32) :
    k1_pay2 (F := Ideal) a x wa wn bu = centredScaled (gateBlock (preBlock a x wa wn bu)) := rfl

/-- The stored payload is that, scaled and shifted. -/
theorem pay1_stages (v : FVec Ideal S3200x64 .f32) (g : FVec Ideal S1x64 .f32) (b : Vec Ideal S1x64 .f32) :
    k1_pay1 (F := Ideal) v g b = scaleShift v g b := rfl

/-- The scale row passes through unchanged. -/
theorem pay3_stages (g : Vec Ideal S1x64 .f32) : k1_pay3 (F := Ideal) g = g := shapeCast_self g _

/-! ## Each stage read at an entry -/

/-- The pre-activation at (p, q). -/
theorem preBlock_apply (a x : Vec Ideal S3200x64 .f32) (wa wn : Vec Ideal S64x64 .f32) (bu : Vec Ideal S1x64 .f32)
    (p : Fin 3200) (q : Fin 64) :
    preBlock a x wa wn bu (ix2 p q)
      = (∑ k : Fin 64, a (ix2 p k) * wa (ix2 k q)) + (∑ k : Fin 64, x (ix2 p k) * wn (ix2 k q)) + bu (ix2 (0 : Fin 1) q) := by
  unfold preBlock
  rw [addf_apply, addf_apply, rows_times_weight, rows_times_weight, broadcastTo_1b_ab_apply]
  simp only [truncf_apply, shapeCast_self]

/-- The gate at an entry. -/
theorem gateBlock_apply (v : FVec Ideal S3200x64 .f32) (i : S3200x64.Idx) : gateBlock v i = Cert.Layer.gate (v i) := rfl

/-- The mean column at row p is the mean of row p. -/
theorem meanCol_apply (v : FVec Ideal S3200x64 .f32) (p : Fin 3200) (u : Fin 1) :
    meanCol v (ix2 p u) = Cert.Layer.mean fun k => v (ix2 p k) := by
  unfold meanCol
  rw [divf_apply, Cert.LibColumn.shapeCast_a_a1_apply]
  exact congrArg (fun s => Ideal.div s Cert.Layer.n64) (lane_sum v _ _ p)

/-- A centred block at (p, q). -/
theorem centred_apply (v : FVec Ideal S3200x64 .f32) (p : Fin 3200) (q : Fin 64) :
    centred v (ix2 p q) = v (ix2 p q) - Cert.Layer.mean fun k => v (ix2 p k) := by
  unfold centred
  rw [subf_apply, Cert.LibColumn.broadcastTo_a1_ab_apply, meanCol_apply]

/-- A centred and scaled block at (p, q). -/
theorem centredScaled_apply (v : FVec Ideal S3200x64 .f32) (p : Fin 3200) (q : Fin 64) :
    centredScaled v (ix2 p q)
      = (v (ix2 p q) - Cert.Layer.mean fun k => v (ix2 p k))
        * Ideal.rsqrt (Cert.Layer.msd (fun k => v (ix2 p k)) + Cert.Layer.eps) := by
  unfold centredScaled
  rw [mulf_apply, centred_apply, Cert.LibColumn.broadcastTo_a1_ab_apply]
  refine congrArg (fun z => (v (ix2 p q) - Cert.Layer.mean fun k => v (ix2 p k)) * Ideal.rsqrt z) ?_
  show meanCol (mulf (centred v) (centred v)) (ix2 p (0 : Fin 1)) + Cert.Layer.eps = _
  rw [meanCol_apply]
  refine congrArg (· + Cert.Layer.eps) ?_
  unfold Cert.Layer.msd Cert.Layer.mean
  refine congrArg (fun s => Ideal.div s Cert.Layer.n64) (Finset.sum_congr rfl fun k _ => ?_)
  beta_reduce
  rw [mulf_apply, centred_apply]
  rfl

/-- The last stage at (p, q). -/
theorem scaleShift_apply (v : FVec Ideal S3200x64 .f32) (g : FVec Ideal S1x64 .f32) (b : Vec Ideal S1x64 .f32)
    (p : Fin 3200) (q : Fin 64) :
    scaleShift v g b (ix2 p q) = v (ix2 p q) * g (ix2 (0 : Fin 1) q) + b (ix2 (0 : Fin 1) q) := by
  unfold scaleShift
  rw [addf_apply, mulf_apply, broadcastTo_1b_ab_apply, broadcastTo_1b_ab_apply, shapeCast_self]

/-! ## The stored payload at an entry is the node-output function -/

/-- Entry (p, q) of what the body stores is entry q of the output of the node whose aggregated messages are row p of
    the first block and whose own features are row p of the second. -/
theorem payload_apply (x0 x1 : Vec Ideal S3200x64 .f32) (x2 x3 : Vec Ideal S64x64 .f32) (x4 x5 x6 : Vec Ideal S1x64 .f32)
    (p : Fin 3200) (q : Fin 64) :
    k1_pay1 (F := Ideal) (k1_pay2 (F := Ideal) x0 x1 x2 x3 x4) (k1_pay3 (F := Ideal) x5) x6 (ix2 p q)
      = Cert.Layer.nodeOut (fun k => x0 (ix2 p k)) (fun k => x1 (ix2 p k)) (fun k j => x2 (ix2 k j)) (fun k j => x3 (ix2 k j))
          (fun j => x4 (ix2 (0 : Fin 1) j)) (fun j => x5 (ix2 (0 : Fin 1) j)) (fun j => x6 (ix2 (0 : Fin 1) j)) q := by
  rw [pay1_stages, pay2_stages, pay3_stages, scaleShift_apply, centredScaled_apply]
  unfold Cert.Layer.nodeOut Cert.Layer.norm
  simp only [gateBlock_apply, preBlock_apply]

/-! ## The region's blocks as rows of its arrays -/

theorem zero_offsets : (![0, 0] : Fin 2 → Nat) = fun _ => 0 := funext fun a => by fin_cases a <;> rfl

/-- There are 25 grid points. -/
theorem points : cfg1.N = 25 := N_1

/-- Where each window's block sits at point t: the two row-block inputs and the output at block row t, the five
    weight windows at the one block their arrays have. -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the aggregated-messages block at point t is row 3200·t + p of the array. -/
theorem aggBlock_apply (c : Dev nD) (t : Fin cfg1.N) (p : Fin 3200) (k : Fin 64) (n : Fin 80000)
    (hn : n.val = 3200 * t.val + p.val) :
    (iblk1 V c 0 t : Vec Ideal S3200x64 .f32) (ix2 p k) = V c main_v14 (ix2 n k) := by
  obtain ⟨e0, e1, -⟩ := block_rows t
  unfold iblk1
  rw [View.read_apply]
  show V c main_v14 _ = V c main_v14 _
  refine congrArg (V c main_v14) ?_
  funext a
  apply Fin.ext
  match a with
  | ⟨0, _⟩ => show win1_0.index t (0 : Fin 2) * 3200 + 1 * p.val = n.val; omega
  | ⟨1, _⟩ => show win1_0.index t (1 : Fin 2) * 64 + 1 * k.val = k.val; omega

/-- Row p of the nodes' own block at point t is row 3200·t + p of the array. -/
theorem ownBlock_apply (c : Dev nD) (t : Fin cfg1.N) (p : Fin 3200) (k : Fin 64) (n : Fin 80000)
    (hn : n.val = 3200 * t.val + p.val) :
    (iblk1 V c 1 t : Vec Ideal S3200x64 .f32) (ix2 p k) = V c main_arg0 (ix2 n k) := by
  obtain ⟨-, -, e0, e1, -⟩ := block_rows t
  unfold iblk1
  rw [View.read_apply]
  show V c main_arg0 _ = V c main_arg0 _
  refine congrArg (V c main_arg0) ?_
  funext a
  apply Fin.ext
  match a with
  | ⟨0, _⟩ => show win1_1.index t (0 : Fin 2) * 3200 + 1 * p.val = n.val; omega
  | ⟨1, _⟩ => show win1_1.index t (1 : Fin 2) * 64 + 1 * k.val = k.val; omega

/-- The first weight's block is the whole weight, at every point. -/
theorem aggWeight_apply (c : Dev nD) (t : Fin cfg1.N) (k j : Fin 64) :
    (iblk1 V c 2 t : Vec Ideal S64x64 .f32) (ix2 k j) = V c main_v15 (ix2 k j) := by
  obtain ⟨-, -, -, -, e0, e1, -⟩ := block_rows t
  unfold iblk1
  rw [View.read_apply]
  show V c main_v15 _ = V c main_v15 _
  refine congrArg (V c main_v15) ?_
  funext a
  apply Fin.ext
  match a with
  | ⟨0, _⟩ => show win1_2.index t (0 : Fin 2) * 64 + 1 * k.val = k.val; omega
  | ⟨1, _⟩ => show win1_2.index t (1 : Fin 2) * 64 + 1 * j.val = j.val; omega

/-- The second weight's block is the whole weight, at every point. -/
theorem ownWeight_apply (c : Dev nD) (t : Fin cfg1.N) (k j : Fin 64) :
    (iblk1 V c 3 t : Vec Ideal S64x64 .f32) (ix2 k j) = V c main_v16 (ix2 k j) := by
  obtain ⟨-, -, -, -, -, -, e0, e1, -⟩ := block_rows t
  unfold iblk1
  rw [View.read_apply]
  show V c main_v16 _ = V c main_v16 _
  refine congrArg (V c main_v16) ?_
  funext a
  apply Fin.ext
  match a with
  | ⟨0, _⟩ => show win1_3.index t (0 : Fin 2) * 64 + 1 * k.val = k.val; omega
  | ⟨1, _⟩ => show win1_3.index t (1 : Fin 2) * 64 + 1 * j.val = j.val; omega

/-- The bias row's block is the whole row, at every point. -/
theorem biasRow_apply (c : Dev nD) (t : Fin cfg1.N) (u : Fin 1) (j : Fin 64) :
    (iblk1 V c 4 t : Vec Ideal S1x64 .f32) (ix2 u j) = V c main_v17 (ix2 u j) := by
  obtain ⟨-, -, -, -, -, -, -, -, e0, e1, -⟩ := block_rows t
  unfold iblk1
  rw [View.read_apply]
  show V c main_v17 _ = V c main_v17 _
  refine congrArg (V c main_v17) ?_
  funext a
  apply Fin.ext
  match a with
  | ⟨0, _⟩ => show win1_4.index t (0 : Fin 2) * 1 + 1 * u.val = u.val; omega
  | ⟨1, _⟩ => show win1_4.index t (1 : Fin 2) * 64 + 1 * j.val = j.val; omega

/-- The scale row's block is the whole row, at every point. -/
theorem scaleRow_apply (c : Dev nD) (t : Fin cfg1.N) (u : Fin 1) (j : Fin 64) :
    (iblk1 V c 5 t : Vec Ideal S1x64 .f32) (ix2 u j) = V c main_v18 (ix2 u j) := by
  obtain ⟨-, -, -, -, -, -, -, -, -, -, e0, e1, -⟩ := block_rows t
  unfold iblk1
  rw [View.read_apply]
  show V c main_v18 _ = V c main_v18 _
  refine congrArg (V c main_v18) ?_
  funext a
  apply Fin.ext
  match a with
  | ⟨0, _⟩ => show win1_5.index t (0 : Fin 2) * 1 + 1 * u.val = u.val; omega
  | ⟨1, _⟩ => show win1_5.index t (1 : Fin 2) * 64 + 1 * j.val = j.val; omega

/-- The shift row's block is the whole row, at every point. -/
theorem shiftRow_apply (c : Dev nD) (t : Fin cfg1.N) (u : Fin 1) (j : Fin 64) :
    (iblk1 V c 6 t : Vec Ideal S1x64 .f32) (ix2 u j) = V c main_v19 (ix2 u j) := by
  obtain ⟨-, -, -, -, -, -, -, -, -, -, -, -, e0, e1, -⟩ := block_rows t
  unfold iblk1
  rw [View.read_apply]
  show V c main_v19 _ = V c main_v19 _
  refine congrArg (V c main_v19) ?_
  funext a
  apply Fin.ext
  match a with
  | ⟨0, _⟩ => show win1_6.index t (0 : Fin 2) * 1 + 1 * u.val = u.val; omega
  | ⟨1, _⟩ => show win1_6.index t (1 : Fin 2) * 64 + 1 * j.val = j.val; omega

/-- Entry (p, q) of the output's block at point t is entry (3200·t + p, q) of the output array. -/
theorem outBlock_emb (t : Fin cfg1.N) (p : Fin 3200) (q : Fin 64) (n : Fin 80000) (hn : n.val = 3200 * t.val + p.val) :
    ((cfg1.win 7).blk t).view.emb (ix2 p q) = (ix2 n q : S80000x64.Idx) := by
  obtain ⟨-, -, -, -, -, -, -, -, -, -, -, -, -, -, e0, e1⟩ := block_rows t
  funext a
  apply Fin.ext
  match a with
  | ⟨0, _⟩ => show win1_7.index t (0 : Fin 2) * 3200 + 1 * p.val = n.val; omega
  | ⟨1, _⟩ => show win1_7.index t (1 : Fin 2) * 64 + 1 * q.val = q.val; omega

/-! ## What the region leaves in its output array -/

/-- The array of node outputs: entry (n, j) is entry j of node n's output, from row n of the aggregated messages, row n
    of the nodes' own features, and the weights. -/
def nodeArr (c : Dev nD) : S80000x64.Idx → EReal := fun i =>
  Cert.Layer.nodeOut (fun k => V c main_v14 (ix2 (i 0) k)) (fun k => V c main_arg0 (ix2 (i 0) k))
    (fun k j => V c main_v15 (ix2 k j)) (fun k j => V c main_v16 (ix2 k j))
    (fun j => V c main_v17 (ix2 (0 : Fin 1) j)) (fun j => V c main_v18 (ix2 (0 : Fin 1) j))
    (fun j => V c main_v19 (ix2 (0 : Fin 1) j)) (i 1)

/-- Two functions of a 3200 x 64 block index that agree at every pair of coordinates are equal. -/
theorem ext_rows {α : Type} {f g : S3200x64.Idx → α} (h : ∀ (p : Fin 3200) (q : Fin 64), f (ix2 p q) = g (ix2 p q)) : f = g :=
  funext fun j => by rw [eq_ix2 j]; exact h _ _

/-- What point t writes back is block t of the array of node outputs. -/
theorem flushed_eq (c : Dev nD) (t : Fin cfg1.N) :
    (dat1 (F := Ideal) V c).flushed 7 t = ((cfg1.win 7).blk t).view.read (Elt Ideal) (nodeArr V c) := by
  show (cfg1.win 7).cut (grid1.coords t) ((dat1 V c).after 7 t) = _
  rw [after1_7]
  unfold out1_7
  rw [View.canon_unit_zero zero_offsets]
  simp only [View.ld_unit_zero (S := S3200x64) zero_offsets, View.ld_unit_zero (S := S64x64) zero_offsets,
    View.ld_unit_zero (S := S1x64) zero_offsets]
  refine ext_rows fun p q => ?_
  have hN : cfg1.N = 25 := points
  have ht : t.val < 25 := hN ▸ t.isLt
  have hn : (⟨3200 * t.val + p.val, by omega⟩ : Fin 80000).val = 3200 * t.val + p.val := rfl
  rw [View.read_apply, outBlock_emb t p q ⟨3200 * t.val + p.val, by omega⟩ hn]
  refine (payload_apply (iblk1 V c 0 t) (iblk1 V c 1 t) (iblk1 V c 2 t) (iblk1 V c 3 t) (iblk1 V c 4 t) (iblk1 V c 5 t)
    (iblk1 V c 6 t) p q).trans ?_
  unfold nodeArr
  simp only [aggBlock_apply V c t p _ _ hn, ownBlock_apply V c t p _ _ hn, aggWeight_apply V c t, ownWeight_apply V c t,
    biasRow_apply V c t, scaleRow_apply V c t, shiftRow_apply V c t]
  rfl

/-- An index of the output array is in point t's block exactly when each coordinate is in the block's range. -/
theorem mem_block (t : Fin cfg1.N) (i : S80000x64.Idx) :
    i ∈ ((cfg1.win 7).blk t).view.set ↔ ∀ a : Fin 2, win1_7.index t a * S3200x64.size a ≤ (i a).val
      ∧ (i a).val < win1_7.index t a * S3200x64.size a + S3200x64.size a := by
  show i ∈ ((View.whole main_v20).slice (win1_7.rect t)).set ↔ _
  rw [View.set_slice_whole, Rect.mem_set_unit]
  exact Iff.rfl

/-- Row n lies in the block of point n / 3200, and every point writes its block back: the 25 blocks cover the array. -/
theorem covered (i : S80000x64.Idx) :
    ∃ t : Fin cfg1.N, (cfg1.win 7).flush t = true ∧ i ∈ ((cfg1.win 7).blk t).view.set := by
  have hN : cfg1.N = 25 := points
  have hi0 : (i 0).val < 80000 := (i 0).isLt
  have hi1 : (i 1).val < 64 := (i 1).isLt
  refine ⟨⟨(i 0).val / 3200, by omega⟩, flush1_7 _, ?_⟩
  rw [mem_block]
  obtain ⟨-, -, -, -, -, -, -, -, -, -, -, -, -, -, e0, e1⟩ := block_rows ⟨(i 0).val / 3200, by omega⟩
  intro a
  match a with
  | ⟨0, _⟩ =>
    show win1_7.index ⟨(i 0).val / 3200, _⟩ (0 : Fin 2) * 3200 ≤ (i 0).val
      ∧ (i 0).val < win1_7.index ⟨(i 0).val / 3200, _⟩ (0 : Fin 2) * 3200 + 3200
    rw [e0]; show (i 0).val / 3200 * 3200 ≤ (i 0).val ∧ (i 0).val < (i 0).val / 3200 * 3200 + 3200; omega
  | ⟨1, _⟩ =>
    show win1_7.index ⟨(i 0).val / 3200, _⟩ (1 : Fin 2) * 64 ≤ (i 1).val
      ∧ (i 1).val < win1_7.index ⟨(i 0).val / 3200, _⟩ (1 : Fin 2) * 64 + 64
    rw [e1]; omega

/-- THE RESULT: after the node region its output array holds, at (n, j), entry j of node n's output. -/
theorem node_array (c : Dev nD) :
    (dat1 (F := Ideal) V c).arrAt 7 cfg1.N = fun i : S80000x64.Idx =>
      Cert.Layer.nodeOut (fun k => V c main_v14 (ix2 (i 0) k)) (fun k => V c main_arg0 (ix2 (i 0) k))
        (fun k j => V c main_v15 (ix2 k j)) (fun k j => V c main_v16 (ix2 k j))
        (fun j => V c main_v17 (ix2 (0 : Fin 1) j)) (fun j => V c main_v18 (ix2 (0 : Fin 1) j))
        (fun j => V c main_v19 (ix2 (0 : Fin 1) j)) (i 1) :=
  (dat1 V c).arrAt_eq_of_cover 7 (nodeArr V c) (fun t _ => flushed_eq V c t) covered

end Cert.KernelIdeal.NodeValue

end
-- ==== Proof.SrcRange.lean ====
/-
  Under the stated domain every edge's source index, after a negative one has been counted from the end, lies inside
  the 80000-row table: for a 32-bit word x with −80000 ≤ x < 80000 (signed), x + 80000 when x < 0 and x otherwise lies
  in 0 … 79999. So the range mask is set on every row, and a choice between the gathered rows and a fill value under
  that mask is the gathered rows.
-/
import proofs.«415045_j12429635354688_1_alg».proof.Defs
import proofs.«415045_j12429635354688_1_alg».proof.Proof.Gen.KernelIdeal
import proofs.«415045_j12429635354688_1_alg».proof.Proof.Gen.Pre_finite_inputs
import proofs.«415045_j12429635354688_1_alg».proof.Proof.KIdx
import Idealize.ShloMosaic.Lib.ReduceAll
import Idealize.ShloMosaic.Lib.StableHlo.Predicate
import Idealize.ShloMosaic.Lib.ValueIdx

noncomputable section

namespace Cert.KernelIdeal.HostValue

open Cert.KernelIdeal Cert.KernelIdeal.Gen
open Idealize.ShloMosaic Idealize.ShloMosaic.TcCoe Idealize.ShloMosaic.ValueIdx Idealize.SL.Sem

namespace SrcRange

/-! ## One signed 32-bit word -/

theorem toInt_neg80000 : (4294887296#32 : BitVec 32).toInt = -80000 := by decide
theorem toInt_80000 : (80000#32 : BitVec 32).toInt = 80000 := by decide
theorem toInt_79999 : (79999#32 : BitVec 32).toInt = 79999 := by decide
theorem toInt_zero32 : (0#32 : BitVec 32).toInt = 0 := by decide

/-- A choice under the mask bit 1 is its first branch, under the mask bit 0 its second. -/
theorem scalar_select_one {α : Type} (a b : α) : Scalar.select 1#1 a b = a := by
  unfold Scalar.select; exact if_pos rfl
theorem scalar_select_zero {α : Type} (a b : α) : Scalar.select 0#1 a b = b := by
  unfold Scalar.select; exact if_neg (by decide)

/-- A 32-bit word read signed: its unsigned value below 2³¹, and that value less 2³² from 2³¹ on. -/
theorem toInt_cases (x : BitVec 32) :
    (x.toNat < 2147483648 ∧ x.toInt = (x.toNat : Int)) ∨ (2147483648 ≤ x.toNat ∧ x.toInt = (x.toNat : Int) - 4294967296) := by
  have hx := x.isLt
  rw [BitVec.toInt_eq_toNat_cond]
  split
  · left; constructor <;> omega
  · right; constructor <;> omega

/-- Adding 80000 to a negative word no smaller than −80000 does not wrap: the signed values add. -/
theorem toInt_add_80000 (x : BitVec 32) (hlo : -80000 ≤ x.toInt) (hneg : x.toInt < 0) :
    (x + 80000#32).toInt = x.toInt + 80000 := by
  have hx := x.isLt
  have hs : (x + 80000#32).toNat = (x.toNat + 80000) % 4294967296 := by
    simp [BitVec.toNat_add]
  rcases toInt_cases x with ⟨a, b⟩ | ⟨a, b⟩ <;> rcases toInt_cases (x + 80000#32) with ⟨a', b'⟩ | ⟨a', b'⟩ <;> omega

/-- A signed 32-bit word from −80000 up to 79999, with 80000 added when it is negative, lies in 0 … 79999. -/
theorem wrap_scalar (x : BitVec 32)
    (h : IntOp.andi (IntOp.cmpi .sge x 4294887296#32) (IntOp.cmpi .slt x 80000#32) = 1#1) :
    IntOp.andi (IntOp.cmpi .sge (Scalar.select (IntOp.cmpi .slt x 0#32) (IntOp.addi x 80000#32) x) 0#32)
      (IntOp.cmpi .sle (Scalar.select (IntOp.cmpi .slt x 0#32) (IntOp.addi x 80000#32) x) 79999#32) = 1#1 := by
  obtain ⟨h1, h2⟩ := IntOp.andi_eq_one.1 h
  simp only [IntOp.cmpi, StableHlo.Predicate.ofBool_eq_one_iff, BitVec.sle, BitVec.slt, decide_eq_true_eq,
    toInt_neg80000, toInt_80000] at h1 h2
  rw [IntOp.andi_eq_one]
  by_cases hneg : x.toInt < 0
  · -- the negative case: the choice is the sum, whose signed value is x + 80000
    have hc : IntOp.cmpi .slt x 0#32 = 1#1 := by
      simp only [IntOp.cmpi, StableHlo.Predicate.ofBool_eq_one_iff, BitVec.slt, decide_eq_true_eq, toInt_zero32]
      exact hneg
    have hw := toInt_add_80000 x h1 hneg
    rw [hc, scalar_select_one]
    simp only [IntOp.addi, IntOp.cmpi, StableHlo.Predicate.ofBool_eq_one_iff, BitVec.sle, decide_eq_true_eq,
      toInt_zero32, toInt_79999, hw]
    constructor <;> omega
  · -- the other case: the choice is the word itself
    have hc : IntOp.cmpi .slt x 0#32 = 0#1 := by
      simp only [IntOp.cmpi, BitVec.slt, toInt_zero32, decide_eq_false hneg]; rfl
    rw [hc, scalar_select_zero]
    simp only [IntOp.cmpi, StableHlo.Predicate.ofBool_eq_one_iff, BitVec.sle, decide_eq_true_eq,
      toInt_zero32, toInt_79999]
    constructor <;> omega

/-! ## An and-reduce of all ones -/

/-- A left fold by `and` from 1 over words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_all_one f l (fun n hn => h n (List.mem_cons_of_mem _ hn))

/-- A reduce by `and` from the initial value 1 of an operand that is 1 at every index is 1 at every index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_of_all_one (fun n => x (s.rowMajor.symm n)) _ (fun n _ => hx _)

/-! ## The stated domain, read at one edge -/

instance subsingleton_scalarIdx : Subsingleton Cert.Pre_finite_inputs.S_.Idx := ⟨fun a b => funext fun d => d.elim0⟩

/-- The last conjunct of the precondition, at one edge: the source index is at least −80000 and below 80000, signed. -/
theorem row_in_domain (m : (ℓ : Loc nD τ sig) → Buf (Elt Ideal) ℓ) (hpre : Cert.Pre_KernelIdeal m) (c : Dev nD) (i : S1280000.Idx) :
    IntOp.andi (IntOp.cmpi .sge (srcRow (m ((c.tc : Thread nD τ).loc main_arg1)) i) 4294887296#32)
      (IntOp.cmpi .slt (srcRow (m ((c.tc : Thread nD τ).loc main_arg1)) i) 80000#32) = 1#1 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the whole predicate is a conjunction whose second half is the reduce by `and` of the per-edge range test
  have h68 := (IntOp.andi_eq_one.1 h).2
  exact Host.reduce_andi_all _ _ _ _ _ h68 i

/-! ## The range mask -/

/-- Where every edge's source index is in the stated domain, every entry of the kernel's range test is 1. -/
theorem mask_entry (x1 : IVec S2x1280000 32)
    (hrow : ∀ i : S1280000.Idx, IntOp.andi (IntOp.cmpi .sge (srcRow x1 i) 4294887296#32) (IntOp.cmpi .slt (srcRow x1 i) 80000#32) = 1#1)
    (k : S1280000x1.Idx) :
    andi (cmpi .sge (srcIdx x1) (broadcastInDim S1280000x1 ![] bcast_S_S1280000x1 (constantI S_ 32 0#32)))
      (cmpi .sle (srcIdx x1) (broadcastInDim S1280000x1 ![0, 1] bcast_S1x1_S1280000x1_0_1
        (broadcastInDim S1x1 ![1] bcast_S1_S1x1_1 (constantI S1 32 79999#32)))) k = 1#1 :=
  wrap_scalar _ (hrow _)

/-- Where every edge's source index is in the stated domain, the range test is 1 at every edge. -/
theorem srcInRange_of_domain (x1 : IVec S2x1280000 32)
    (hrow : ∀ i : S1280000.Idx, IntOp.andi (IntOp.cmpi .sge (srcRow x1 i) 4294887296#32) (IntOp.cmpi .slt (srcRow x1 i) 80000#32) = 1#1)
    (i : S1280000.Idx) : srcInRange x1 i = 1#1 :=
  reduce_andi_of_all_one _ _ _ _ rfl (mask_entry x1 hrow) i

end SrcRange

open SrcRange

/-- Under the precondition the range test is 1 at every edge. -/
theorem src_in_range (m : (ℓ : Loc nD τ sig) → Buf (Elt Ideal) ℓ) (hpre : Cert.Pre_KernelIdeal m) (c : Dev nD) (i : S1280000.Idx) :
    srcInRange (m ((c.tc : Thread nD τ).loc main_arg1)) i = 1#1 :=
  srcInRange_of_domain _ (row_in_domain m hpre c) i

/-- Under the precondition the choice under the range mask is its first branch. -/
theorem select_in_range (m : (ℓ : Loc nD τ sig) → Buf (Elt Ideal) ℓ) (hpre : Cert.Pre_KernelIdeal m) (c : Dev nD)
    (g fill : FVec Ideal S1280000x64 .f32) :
    select (broadcastInDim S1280000x64 ![0] bcast_S1280000_S1280000x64_0 (srcInRange (m ((c.tc : Thread nD τ).loc main_arg1)))) g fill = g := by
  funext j
  -- the mask at an entry is the range test at that entry's edge, which is 1
  have hmask : broadcastInDim S1280000x64 ![0] bcast_S1280000_S1280000x64_0 (srcInRange (m ((c.tc : Thread nD τ).loc main_arg1))) j = 1#1 :=
    src_in_range m hpre c _
  show Scalar.select (broadcastInDim S1280000x64 ![0] bcast_S1280000_S1280000x64_0 (srcInRange (m ((c.tc : Thread nD τ).loc main_arg1))) j) (g j) (fill j) = g j
  rw [hmask]
  exact scalar_select_one _ _

end Cert.KernelIdeal.HostValue

end
-- ==== Proof.RefEdge.lean ====
/-
  The reference's messages, row by row. Row e of the stage that holds the messages is the message function of row e of
  the gathered source features and of row e of the edge features: the product with the 96-row weight of the two rows
  laid side by side is the sum of the product of the source row with the weight's first 64 rows and of the edge row
  with its last 32, a sum over 96 terms split at 64; the row statistics are sums over the 64 entries of the row; the
  gate x · 1 / (1 + exp (−x)) is x times the logistic function of x.
-/
import proofs.«415045_j12429635354688_1_alg».proof.Proof.RefRead
import proofs.«415045_j12429635354688_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

namespace RefEdge

section Rows
variable (x0 : FVec Ideal S80000x64 .f32) (x1 : IVec S2x1280000 32) (x2 : FVec Ideal S1280000x32 .f32)
  (x3 : FVec Ideal S96x64 .f32) (x4 x5 x6 : FVec Ideal S64 .f32) (x7 : FVec Ideal S64x64 .f32) (x8 : FVec Ideal S64 .f32)

/-! ## The two rows laid side by side -/

/-- Left of column 64 the joined row is the gathered source row. -/
theorem joined_left (p : Fin 1280000) (k : Fin 64) :
    val_main_v11 (F := Ideal) x0 x1 x2 (ix2 p (⟨k.val, by omega⟩ : Fin 96)) = val_main_v10 (F := Ideal) x0 x1 (ix2 p k) := by
  unfold val_main_v11
  exact concatenate_pair_apply_left (t := S1280000x96) (s₁ := S1280000x64) (s₂ := S1280000x32) 1 (val_main_v10 (F := Ideal) x0 x1) x2
    concatenates_S1280000x64_S1280000x32_S1280000x96_d1 (ix2 p (⟨k.val, by omega⟩ : Fin 96)) rfl (ix2 p k)
    (fun b => by match b with | ⟨0, _⟩ => rfl | ⟨1, _⟩ => rfl)

/-- From column 64 on it is the edge's own feature row, 64 columns to the left. -/
theorem joined_right (p : Fin 1280000) (k : Fin 32) :
    val_main_v11 (F := Ideal) x0 x1 x2 (ix2 p (⟨64 + k.val, by omega⟩ : Fin 96)) = x2 (ix2 p k) := by
  unfold val_main_v11
  exact concatenate_pair_apply_right (t := S1280000x96) (s₁ := S1280000x64) (s₂ := S1280000x32) 1 (val_main_v10 (F := Ideal) x0 x1) x2
    concatenates_S1280000x64_S1280000x32_S1280000x96_d1 (ix2 p (⟨64 + k.val, by omega⟩ : Fin 96)) rfl rfl (ix2 p k)
    (fun b hb => by match b with | ⟨0, _⟩ => rfl | ⟨1, _⟩ => exact absurd rfl hb)
    (by show k.val + 64 = 64 + k.val; omega)

/-! ## Which entries each stage reads: at (p, j) a product reads row p of its left factor and column j of its right
one, a row statistic at p reads row p, and a row vector is read at j. -/

theorem lrow_first (p : Fin 1280000) (j : Fin 64) (k : Fin 96) : lidx_main_v12 (ix2 p j) k = ix2 p k :=
  funext fun a => Fin.ext (by match a with | ⟨0, _⟩ => rfl | ⟨1, _⟩ => rfl)
theorem rcol_first (p : Fin 1280000) (j : Fin 64) (k : Fin 96) : ridx_main_v12 (ix2 p j) k = ix2 k j :=
  funext fun a => Fin.ext (by match a with | ⟨0, _⟩ => rfl | ⟨1, _⟩ => rfl)
theorem at_b1 (p : Fin 1280000) (j : Fin 64) : idx_main_v13 (idx_main_v14 (ix2 p j)) = ix1 j :=
  funext fun a => Fin.ext (by match a with | ⟨0, _⟩ => rfl)
theorem row_sum (p : Fin 1280000) (k : Fin 64) : idx_main_v16 (ix1 p) k = ix2 p k :=
  funext fun a => Fin.ext (by match a with | ⟨0, _⟩ => rfl | ⟨1, _⟩ => rfl)
theorem row_sum_sq (p : Fin 1280000) (k : Fin 64) : idx_main_v23 (ix1 p) k = ix2 p k :=
  funext fun a => Fin.ext (by match a with | ⟨0, _⟩ => rfl | ⟨1, _⟩ => rfl)
theorem col_sum (p : Fin 1280000) : idx_main_v17 (ix2 p (0 : Fin 1)) = ix1 p :=
  funext fun a => Fin.ext (by match a with | ⟨0, _⟩ => rfl)
theorem col_sum_sq (p : Fin 1280000) : idx_main_v24 (ix2 p (0 : Fin 1)) = ix1 p :=
  funext fun a => Fin.ext (by match a with | ⟨0, _⟩ => rfl)
theorem at_mean (p : Fin 1280000) (j : Fin 64) : idx_main_v20 (ix2 p j) = ix2 p (0 : Fin 1) :=
  funext fun a => Fin.ext (by match a with | ⟨0, _⟩ => rfl | ⟨1, _⟩ => rfl)
theorem at_mean' (p : Fin 1280000) (j : Fin 64) : idx_main_v27 (ix2 p j) = ix2 p (0 : Fin 1) :=
  funext fun a => Fin.ext (by match a with | ⟨0, _⟩ => rfl | ⟨1, _⟩ => rfl)
theorem at_scale (p : Fin 1280000) (j : Fin 64) : idx_main_v32 (ix2 p j) = ix2 p (0 : Fin 1) :=
  funext fun a => Fin.ext (by match a with | ⟨0, _⟩ => rfl | ⟨1, _⟩ => rfl)
theorem at_g1 (p : Fin 1280000) (j : Fin 64) : idx_main_v34 (idx_main_v35 (ix2 p j)) = ix1 j :=
  funext fun a => Fin.ext (by match a with | ⟨0, _⟩ => rfl)
theorem at_be1 (p : Fin 1280000) (j : Fin 64) : idx_main_v37 (idx_main_v38 (ix2 p j)) = ix1 j :=
  funext fun a => Fin.ext (by match a with | ⟨0, _⟩ => rfl)
theorem lrow_second (p : Fin 1280000) (j k : Fin 64) : lidx_main_v41 (ix2 p j) k = ix2 p k :=
  funext fun a => Fin.ext (by match a with | ⟨0, _⟩ => rfl | ⟨1, _⟩ => rfl)
theorem rcol_second (p : Fin 1280000) (j k : Fin 64) : ridx_main_v41 (ix2 p j) k = ix2 k j :=
  funext fun a => Fin.ext (by match a with | ⟨0, _⟩ => rfl | ⟨1, _⟩ => rfl)
theorem at_b2 (p : Fin 1280000) (j : Fin 64) : idx_main_v42 (idx_main_v43 (ix2 p j)) = ix1 j :=
  funext fun a => Fin.ext (by match a with | ⟨0, _⟩ => rfl)

/-! ## The first affine map -/

/-- Row p before normalisation: the product of the joined row with the 96-row weight is a sum over 96 terms, split at
    64 into the source row through the weight's first 64 rows and the edge row through its last 32; then the bias. -/
theorem pre_row (p : Fin 1280000) (j : Fin 64) :
    val_main_v15 (F := Ideal) x0 x1 x2 x3 x4 (ix2 p j)
      = Cert.Layer.edgePre (fun k => val_main_v10 (F := Ideal) x0 x1 (ix2 p k)) (fun k => x2 (ix2 p k))
          (fun k j => x3 (ix2 (⟨k.val, by omega⟩ : Fin 96) j)) (fun k j => x3 (ix2 (⟨64 + k.val, by omega⟩ : Fin 96) j))
          (fun j => x4 (ix1 j)) j := by
  rw [val_main_v15_apply, val_main_v12_apply, val_main_v14_apply, val_main_v13_apply, Cert.Layer.sum_96, at_b1]
  simp only [lrow_first, rcol_first, joined_left, joined_right]
  rfl

/-! ## The row statistics: with h the row p before normalisation -/

/-- The mean of h: its sum from zero, divided by 64. -/
theorem mean_row (p : Fin 1280000) :
    val_main_v19 (F := Ideal) x0 x1 x2 x3 x4 (ix2 p (0 : Fin 1))
      = Cert.Layer.mean (fun k => val_main_v15 (F := Ideal) x0 x1 x2 x3 x4 (ix2 p k)) := by
  rw [val_main_v19_apply, val_main_v17_apply, val_main_v16_apply, val_main_v18_apply, val_main_cst_1_apply,
    val_main_cst_apply, col_sum]
  simp only [row_sum, Ideal.hostDivf_def, Ideal.ofBits_def, Ideal.ofBits_zero_f32, zero_add]
  rfl

/-- h centred on its mean, as the variance reads it … -/
theorem centred_row (p : Fin 1280000) (j : Fin 64) :
    val_main_v21 (F := Ideal) x0 x1 x2 x3 x4 (ix2 p j)
      = val_main_v15 (F := Ideal) x0 x1 x2 x3 x4 (ix2 p j)
        - Cert.Layer.mean (fun k => val_main_v15 (F := Ideal) x0 x1 x2 x3 x4 (ix2 p k)) := by
  rw [val_main_v21_apply, val_main_v20_apply, at_mean, mean_row]
  rfl

/-- … and as the normalised row reads it: the same difference. -/
theorem centred_row' (p : Fin 1280000) (j : Fin 64) :
    val_main_v28 (F := Ideal) x0 x1 x2 x3 x4 (ix2 p j)
      = val_main_v15 (F := Ideal) x0 x1 x2 x3 x4 (ix2 p j)
        - Cert.Layer.mean (fun k => val_main_v15 (F := Ideal) x0 x1 x2 x3 x4 (ix2 p k)) := by
  rw [val_main_v28_apply, val_main_v27_apply, at_mean', mean_row]
  rfl

/-- The mean squared deviation of h: the sum from zero of the squared centred entries, divided by 64. -/
theorem msd_row (p : Fin 1280000) :
    val_main_v26 (F := Ideal) x0 x1 x2 x3 x4 (ix2 p (0 : Fin 1))
      = Cert.Layer.msd (fun k => val_main_v15 (F := Ideal) x0 x1 x2 x3 x4 (ix2 p k)) := by
  rw [val_main_v26_apply, val_main_v24_apply, val_main_v23_apply, val_main_v25_apply, val_main_cst_3_apply,
    val_main_cst_2_apply, col_sum_sq]
  simp only [row_sum_sq, val_main_v22_apply, centred_row, Ideal.mulf_def, Ideal.hostDivf_def, Ideal.ofBits_def,
    Ideal.ofBits_zero_f32, zero_add]
  rfl

/-- The normalised row: the centred entry times (msd + ε)^(-1/2), times g1, plus be1. -/
theorem norm_row (p : Fin 1280000) (j : Fin 64) :
    val_main_v39 (F := Ideal) x0 x1 x2 x3 x4 x5 x6 (ix2 p j)
      = Cert.Layer.norm (fun k => val_main_v15 (F := Ideal) x0 x1 x2 x3 x4 (ix2 p k)) (fun j => x5 (ix1 j))
          (fun j => x6 (ix1 j)) j := by
  rw [val_main_v39_apply, val_main_v36_apply, val_main_v33_apply, centred_row', val_main_v32_apply, at_scale,
    val_main_v31_apply, val_main_v30_apply, msd_row, val_main_v29_apply, val_main_cst_4_apply,
    val_main_v35_apply, val_main_v34_apply, at_g1, val_main_v38_apply, val_main_v37_apply, at_be1]
  rfl

/-! ## The gate -/

/-- v · 1 / (1 + exp (−v)), the two ones being the word of 1.0, is v times the logistic function of v. -/
theorem gate_eq (v : EReal) :
    v * Ideal.div (Ideal.ofBits .f32 0x3F800000#32) (Ideal.ofBits .f32 0x3F800000#32 + Ideal.exp (-v)) = Cert.Layer.gate v := by
  have one : Ideal.ofBits .f32 0x3F800000#32 = 1 := IdealRules.sign_bit.ideal_onePat .f32
  rw [one]
  rfl

/-- The gated normalised row. -/
theorem gated_row (p : Fin 1280000) (j : Fin 64) :
    val_main_v40 (F := Ideal) x0 x1 x2 x3 x4 x5 x6 (ix2 p j)
      = Cert.Layer.gate (val_main_v39 (F := Ideal) x0 x1 x2 x3 x4 x5 x6 (ix2 p j)) := by
  rw [val_main_v40_apply, val_main_call0_v5_apply, val_main_call0_v4_apply, val_main_call0_cst_0_apply,
    val_main_call0_v3_apply, val_main_call0_v2_apply, val_main_call0_cst_apply, val_main_call0_v1_apply,
    val_main_call0_v0_apply]
  exact gate_eq _

/-! ## The second affine map and the message -/

/-- The gated row through the 64-row weight, plus the bias. -/
theorem affine_row (p : Fin 1280000) (j : Fin 64) :
    val_main_v44 (F := Ideal) x0 x1 x2 x3 x4 x5 x6 x7 x8 (ix2 p j)
      = (∑ k : Fin 64, val_main_v40 (F := Ideal) x0 x1 x2 x3 x4 x5 x6 (ix2 p k) * x7 (ix2 k j)) + x8 (ix1 j) := by
  rw [val_main_v44_apply, val_main_v41_apply, val_main_v43_apply, val_main_v42_apply, at_b2]
  simp only [lrow_second, rcol_second]
  rfl

/-- The message entry: the gate of the second affine map. -/
theorem message_row (p : Fin 1280000) (j : Fin 64) :
    val_main_v45 (F := Ideal) x0 x1 x2 x3 x4 x5 x6 x7 x8 (ix2 p j)
      = Cert.Layer.gate (val_main_v44 (F := Ideal) x0 x1 x2 x3 x4 x5 x6 x7 x8 (ix2 p j)) := by
  rw [val_main_v45_apply, val_main_call1_v5_apply, val_main_call1_v4_apply, val_main_call1_cst_0_apply,
    val_main_call1_v3_apply, val_main_call1_v2_apply, val_main_call1_cst_apply, val_main_call1_v1_apply,
    val_main_call1_v0_apply]
  exact gate_eq _

end Rows

end RefEdge

/-- THE MESSAGES: the stage that holds them is, at (e, j), entry j of the message of edge e. -/
theorem ref_edge (x0 : FVec Ideal S80000x64 .f32) (x1 : IVec S2x1280000 32) (x2 : FVec Ideal S1280000x32 .f32) (x3 : FVec Ideal S96x64 .f32) (x4 x5 x6 : FVec Ideal S64 .f32) (x7 : FVec Ideal S64x64 .f32) (x8 : FVec Ideal S64 .f32) :
    val_main_v45 (F := Ideal) x0 x1 x2 x3 x4 x5 x6 x7 x8 = fun i : S1280000x64.Idx =>
      Cert.Layer.edgeMsg (fun k => val_main_v10 (F := Ideal) x0 x1 (ix2 (i 0) k)) (fun k => x2 (ix2 (i 0) k))
        (fun k j => x3 (ix2 (⟨k.val, by omega⟩ : Fin 96) j)) (fun k j => x3 (ix2 (⟨64 + k.val, by omega⟩ : Fin 96) j))
        (fun j => x4 (ix1 j)) (fun j => x5 (ix1 j)) (fun j => x6 (ix1 j))
        (fun k j => x7 (ix2 k j)) (fun j => x8 (ix1 j)) (i 1) := by
  funext i
  obtain ⟨p, q, rfl⟩ : ∃ (p : Fin 1280000) (q : Fin 64), i = ix2 p q := ⟨i 0, i 1, eq_ix2 i⟩
  rw [RefEdge.message_row, RefEdge.affine_row]
  simp only [RefEdge.gated_row, RefEdge.norm_row, RefEdge.pre_row]
  rfl

end Cert.ReferenceIdeal.RefValue

end
-- ==== Proof.RefNode.lean ====
/-
  The reference's result, row by row. Row n of the last stage is the node-output function of row n of the aggregated
  messages and of row n of the node features: the product with the 128-row weight of the two rows laid side by side is a
  sum over 128 terms split at 64, and the normalisation's statistics are sums over the 64 entries of the gated row.
-/
import proofs.«415045_j12429635354688_1_alg».proof.Proof.RefRead
import proofs.«415045_j12429635354688_1_alg».proof.Proof.Layer
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

section Rows
variable (x0 : FVec Ideal S80000x64 .f32) (x1 : IVec S2x1280000 32) (x2 : FVec Ideal S1280000x32 .f32) (x3 : FVec Ideal S96x64 .f32) (x4 x5 x6 : FVec Ideal S64 .f32) (x7 : FVec Ideal S64x64 .f32) (x8 : FVec Ideal S64 .f32) (x9 : FVec Ideal S128x64 .f32) (x10 x11 x12 : FVec Ideal S64 .f32)

/-- The two stages laid side by side, at a column below 64: the aggregated messages' stage at that column. -/
theorem node_cat_left (p : Fin 80000) (k : Fin 64) (j : S80000x128.Idx) (h0 : (j 0).val = p.val) (h1 : (j 1).val = k.val) :
    val_main_v49 (F := Ideal) x0 x1 x2 x3 x4 x5 x6 x7 x8 j = val_main_v48 (F := Ideal) x0 x1 x2 x3 x4 x5 x6 x7 x8 (ix2 p k) := by
  unfold val_main_v49
  exact concatenate_pair_apply_left 1 _ x0 concatenates_S80000x64_S80000x64_S80000x128_d1 j rfl (ix2 p k) (fun b => by
    match b with
    | ⟨0, _⟩ => exact h0.symm
    | ⟨1, _⟩ => exact h1.symm)

/-- The two stages laid side by side, at a column from 64 on: the node features at that column less 64. -/
theorem node_cat_right (p : Fin 80000) (k : Fin 64) (j : S80000x128.Idx) (h0 : (j 0).val = p.val) (h1 : (j 1).val = 64 + k.val) :
    val_main_v49 (F := Ideal) x0 x1 x2 x3 x4 x5 x6 x7 x8 j = x0 (ix2 p k) := by
  unfold val_main_v49
  exact concatenate_pair_apply_right 1 _ x0 concatenates_S80000x64_S80000x64_S80000x128_d1 j rfl rfl (ix2 p k)
    (fun b hb => by
      match b with
      | ⟨0, _⟩ => exact h0.symm
      | ⟨1, _⟩ => exact absurd rfl hb)
    (by show k.val + 64 = (j 1).val; omega)

/-- The product with the 128-row weight at (p, q): the aggregated row through the weight's first 64 rows plus the
    node's own row through its last 64. -/
theorem node_dot_row (p : Fin 80000) (q : Fin 64) :
    val_main_v50 (F := Ideal) x0 x1 x2 x3 x4 x5 x6 x7 x8 x9 (ix2 p q) =
      (∑ k : Fin 64, val_main_v48 (F := Ideal) x0 x1 x2 x3 x4 x5 x6 x7 x8 (ix2 p k) * x9 (ix2 (⟨k.val, by omega⟩ : Fin 128) q))
        + ∑ k : Fin 64, x0 (ix2 p k) * x9 (ix2 (⟨64 + k.val, by omega⟩ : Fin 128) q) := by
  rw [val_main_v50_apply, Cert.Layer.sum_128]
  refine congrArg₂ (· + ·) (Finset.sum_congr rfl fun k _ => ?_) (Finset.sum_congr rfl fun k _ => ?_)
  · rw [node_cat_left x0 x1 x2 x3 x4 x5 x6 x7 x8 p k _ rfl rfl]
    exact congrArg (_ * x9 ·) (funext fun a => Fin.ext (by match a with | ⟨0, _⟩ => rfl | ⟨1, _⟩ => rfl))
  · rw [node_cat_right x0 x1 x2 x3 x4 x5 x6 x7 x8 p k _ rfl rfl]
    exact congrArg (_ * x9 ·) (funext fun a => Fin.ext (by match a with | ⟨0, _⟩ => rfl | ⟨1, _⟩ => rfl))

/-- The pre-activation at (p, q): the product above plus the bias. -/
theorem node_pre_row (p : Fin 80000) (q : Fin 64) :
    val_main_v53 (F := Ideal) x0 x1 x2 x3 x4 x5 x6 x7 x8 x9 x10 (ix2 p q) =
      (∑ k : Fin 64, val_main_v48 (F := Ideal) x0 x1 x2 x3 x4 x5 x6 x7 x8 (ix2 p k) * x9 (ix2 (⟨k.val, by omega⟩ : Fin 128) q))
        + (∑ k : Fin 64, x0 (ix2 p k) * x9 (ix2 (⟨64 + k.val, by omega⟩ : Fin 128) q)) + x10 (ix1 q) := by
  rw [val_main_v53_apply, Ideal.addf_def, node_dot_row, val_main_v52_apply, val_main_v51_apply]
  exact congrArg (_ + x10 ·) (funext fun a => Fin.ext (by match a with | ⟨0, _⟩ => rfl))

/-- The gate spelt with the word of 1 for the numerator and for the first summand of the denominator is the gate. -/
theorem node_gate_expanded (x : EReal) :
    x * Ideal.div (Ideal.ofBits .f32 0x3F800000#32) (Ideal.ofBits .f32 0x3F800000#32 + Ideal.exp (-x)) = Cert.Layer.gate x := by
  rw [Ideal.ofBits_one_f32]; rfl

/-- The gated stage at an index is the gate of the pre-activation there. -/
theorem node_gated_at (i : S80000x64.Idx) :
    val_main_v54 (F := Ideal) x0 x1 x2 x3 x4 x5 x6 x7 x8 x9 x10 i = Cert.Layer.gate (val_main_v53 (F := Ideal) x0 x1 x2 x3 x4 x5 x6 x7 x8 x9 x10 i) := by
  rw [val_main_v54_apply, val_main_call2_v5_apply, val_main_call2_v4_apply, val_main_call2_cst_0_apply, val_main_call2_v3_apply,
    val_main_call2_v2_apply, val_main_call2_cst_apply, val_main_call2_v1_apply, val_main_call2_v0_apply]
  generalize val_main_v53 (F := Ideal) x0 x1 x2 x3 x4 x5 x6 x7 x8 x9 x10 i = x
  exact node_gate_expanded x

/-- The first statistic at row p: the mean of the gated row. -/
theorem node_mean_at (p : Fin 80000) (j : S80000x1.Idx) (hj : (j 0).val = p.val) :
    val_main_v58 (F := Ideal) x0 x1 x2 x3 x4 x5 x6 x7 x8 x9 x10 j = Cert.Layer.mean (fun k => val_main_v54 (F := Ideal) x0 x1 x2 x3 x4 x5 x6 x7 x8 x9 x10 (ix2 p k)) := by
  rw [val_main_v58_apply, val_main_v56_apply, val_main_v55_apply, val_main_v57_apply, val_main_cst_7_apply, val_main_cst_6_apply]
  simp only [Ideal.hostDivf_def, Ideal.ofBits_def, Ideal.ofBits_zero_f32, zero_add]
  have hs : ∑ k : Fin 64, val_main_v54 (F := Ideal) x0 x1 x2 x3 x4 x5 x6 x7 x8 x9 x10 (idx_main_v55 (idx_main_v56 j) k) = ∑ k : Fin 64, val_main_v54 (F := Ideal) x0 x1 x2 x3 x4 x5 x6 x7 x8 x9 x10 (ix2 p k) :=
    Finset.sum_congr rfl fun k _ => congrArg (val_main_v54 (F := Ideal) x0 x1 x2 x3 x4 x5 x6 x7 x8 x9 x10)
      (funext fun a => Fin.ext (by match a with | ⟨0, _⟩ => exact hj | ⟨1, _⟩ => rfl))
  rw [hs]
  rfl

/-- The centred stage at (p, q): the gated entry less the row's mean. -/
theorem node_centred_at (p : Fin 80000) (q : Fin 64) :
    val_main_v60 (F := Ideal) x0 x1 x2 x3 x4 x5 x6 x7 x8 x9 x10 (ix2 p q) = val_main_v54 (F := Ideal) x0 x1 x2 x3 x4 x5 x6 x7 x8 x9 x10 (ix2 p q) - Cert.Layer.mean (fun k => val_main_v54 (F := Ideal) x0 x1 x2 x3 x4 x5 x6 x7 x8 x9 x10 (ix2 p k)) := by
  rw [val_main_v60_apply, Ideal.subf_def, val_main_v59_apply, node_mean_at x0 x1 x2 x3 x4 x5 x6 x7 x8 x9 x10 p _ rfl]

/-- The second statistic at row p: the mean squared deviation of the gated row. -/
theorem node_msd_at (p : Fin 80000) (j : S80000x1.Idx) (hj : (j 0).val = p.val) :
    val_main_v65 (F := Ideal) x0 x1 x2 x3 x4 x5 x6 x7 x8 x9 x10 j = Cert.Layer.msd (fun k => val_main_v54 (F := Ideal) x0 x1 x2 x3 x4 x5 x6 x7 x8 x9 x10 (ix2 p k)) := by
  rw [val_main_v65_apply, val_main_v63_apply, val_main_v62_apply, val_main_v64_apply, val_main_cst_9_apply, val_main_cst_8_apply]
  simp only [Ideal.hostDivf_def, Ideal.ofBits_def, Ideal.ofBits_zero_f32, zero_add]
  have hs : ∑ k : Fin 64, val_main_v61 (F := Ideal) x0 x1 x2 x3 x4 x5 x6 x7 x8 x9 x10 (idx_main_v62 (idx_main_v63 j) k)
      = ∑ k : Fin 64, (val_main_v54 (F := Ideal) x0 x1 x2 x3 x4 x5 x6 x7 x8 x9 x10 (ix2 p k) - Cert.Layer.mean (fun k => val_main_v54 (F := Ideal) x0 x1 x2 x3 x4 x5 x6 x7 x8 x9 x10 (ix2 p k)))
          * (val_main_v54 (F := Ideal) x0 x1 x2 x3 x4 x5 x6 x7 x8 x9 x10 (ix2 p k) - Cert.Layer.mean (fun k => val_main_v54 (F := Ideal) x0 x1 x2 x3 x4 x5 x6 x7 x8 x9 x10 (ix2 p k))) :=
    Finset.sum_congr rfl fun k _ => by
      have e : idx_main_v62 (idx_main_v63 j) k = ix2 p k :=
        funext fun a => Fin.ext (by match a with | ⟨0, _⟩ => exact hj | ⟨1, _⟩ => rfl)
      rw [e, val_main_v61_apply, Ideal.mulf_def, node_centred_at]
  rw [hs]
  rfl

/-- The last stage at (p, q): the gated row normalised, entry q. -/
theorem node_norm_at (p : Fin 80000) (q : Fin 64) :
    val_main_v78 (F := Ideal) x0 x1 x2 x3 x4 x5 x6 x7 x8 x9 x10 x11 x12 (ix2 p q) =
      Cert.Layer.norm (fun k => val_main_v54 (F := Ideal) x0 x1 x2 x3 x4 x5 x6 x7 x8 x9 x10 (ix2 p k)) (fun j => x11 (ix1 j)) (fun j => x12 (ix1 j)) q := by
  have e1 : idx_main_v73 (idx_main_v74 (ix2 p q)) = ix1 q := funext fun a => Fin.ext (by match a with | ⟨0, _⟩ => rfl)
  have e2 : idx_main_v76 (idx_main_v77 (ix2 p q)) = ix1 q := funext fun a => Fin.ext (by match a with | ⟨0, _⟩ => rfl)
  rw [val_main_v78_apply, val_main_v75_apply, val_main_v72_apply, val_main_v67_apply, val_main_v66_apply, val_main_v71_apply,
    val_main_v70_apply, val_main_v69_apply, val_main_v68_apply, val_main_cst_10_apply, val_main_v74_apply, val_main_v73_apply,
    val_main_v77_apply, val_main_v76_apply, node_mean_at x0 x1 x2 x3 x4 x5 x6 x7 x8 x9 x10 p _ rfl, node_msd_at x0 x1 x2 x3 x4 x5 x6 x7 x8 x9 x10 p _ rfl, e1, e2]
  rfl

end Rows

/-- THE RESULT: the last stage is, at (n, j), entry j of node n's output from the aggregated messages' stage. -/
theorem ref_node (x0 : FVec Ideal S80000x64 .f32) (x1 : IVec S2x1280000 32) (x2 : FVec Ideal S1280000x32 .f32) (x3 : FVec Ideal S96x64 .f32) (x4 x5 x6 : FVec Ideal S64 .f32) (x7 : FVec Ideal S64x64 .f32) (x8 : FVec Ideal S64 .f32) (x9 : FVec Ideal S128x64 .f32) (x10 x11 x12 : FVec Ideal S64 .f32) :
    val_main_v78 (F := Ideal) x0 x1 x2 x3 x4 x5 x6 x7 x8 x9 x10 x11 x12 = fun i : S80000x64.Idx =>
      Cert.Layer.nodeOut (fun k => val_main_v48 (F := Ideal) x0 x1 x2 x3 x4 x5 x6 x7 x8 (ix2 (i 0) k)) (fun k => x0 (ix2 (i 0) k))
        (fun k j => x9 (ix2 (⟨k.val, by omega⟩ : Fin 128) j)) (fun k j => x9 (ix2 (⟨64 + k.val, by omega⟩ : Fin 128) j))
        (fun j => x10 (ix1 j)) (fun j => x11 (ix1 j)) (fun j => x12 (ix1 j)) (i 1) := by
  funext i
  obtain ⟨p, q, rfl⟩ : ∃ (p : Fin 80000) (q : Fin 64), i = ix2 p q := ⟨i 0, i 1, eq_ix2 i⟩
  rw [node_norm_at]
  unfold Cert.Layer.nodeOut
  refine congrArg (fun h => Cert.Layer.norm h _ _ q) (funext fun k => ?_)
  rw [node_gated_at, node_pre_row]

end Cert.ReferenceIdeal.RefValue

end
-- ==== Proof.Bridge.lean ====
/-
  Both programs compute one function of the thirteen arguments.

  Take each edge's source row of the node features, form its message from that row and the edge's own features,
  add the messages into a zero array at each edge's target row, and form each node's output from its aggregated row
  and its own features. The kernel's two regions compute the messages and the outputs block by block, its host
  operations do the gather (under a range mask that the stated domain makes all ones) and the scatter-add; the reference
  does the same in one line of host operations, with the two weights applied to rows laid side by side instead of
  split in two.
-/
import proofs.«415045_j12429635354688_1_alg».proof.Proof.Layer
import proofs.«415045_j12429635354688_1_alg».proof.Proof.KIdx
import proofs.«415045_j12429635354688_1_alg».proof.Proof.KRun
import proofs.«415045_j12429635354688_1_alg».proof.Proof.KHost
import proofs.«415045_j12429635354688_1_alg».proof.Proof.KHostNode
import proofs.«415045_j12429635354688_1_alg».proof.Proof.KHostIdx
import proofs.«415045_j12429635354688_1_alg».proof.Proof.KEdge
import proofs.«415045_j12429635354688_1_alg».proof.Proof.KNode
import proofs.«415045_j12429635354688_1_alg».proof.Proof.SrcRange
import proofs.«415045_j12429635354688_1_alg».proof.Proof.RefEdge
import proofs.«415045_j12429635354688_1_alg».proof.Proof.RefNode

set_option maxRecDepth 16384

noncomputable section

namespace Cert.Bridge

open Cert.KernelIdeal Cert.KernelIdeal.Gen Cert.KernelIdeal.HostValue
open Idealize.ShloMosaic Idealize.ShloMosaic.TcCoe Idealize.ShloMosaic.ValueIdx Idealize.SL.Sem

/-- The messages: at (e, j), entry j of the message of edge e, from the source row its index pair names. -/
def msgs (a0 : FVec Ideal S80000x64 .f32) (a1 : IVec S2x1280000 32) (a2 : FVec Ideal S1280000x32 .f32) (a3 : FVec Ideal S96x64 .f32) (a4 a5 a6 : FVec Ideal S64 .f32) (a7 : FVec Ideal S64x64 .f32) (a8 : FVec Ideal S64 .f32) : FVec Ideal S1280000x64 .f32 :=
  fun i => Cert.Layer.edgeMsg
    (fun k => Host.gather gather_S80000x64_S1280000x1_S1280000x64_1_0_n_n_0_1_164 a0 (srcIdx a1) (ix2 (i 0) k))
    (fun k => a2 (ix2 (i 0) k))
    (fun k j => a3 (ix2 (⟨k.val, by omega⟩ : Fin 96) j)) (fun k j => a3 (ix2 (⟨64 + k.val, by omega⟩ : Fin 96) j))
    (fun j => a4 (ix1 j)) (fun j => a5 (ix1 j)) (fun j => a6 (ix1 j))
    (fun k j => a7 (ix2 k j)) (fun j => a8 (ix1 j)) (i 1)

/-- The messages added into zeros at each edge's target row. -/
def agg (a0 : FVec Ideal S80000x64 .f32) (a1 : IVec S2x1280000 32) (a2 : FVec Ideal S1280000x32 .f32) (a3 : FVec Ideal S96x64 .f32) (a4 a5 a6 : FVec Ideal S64 .f32) (a7 : FVec Ideal S64x64 .f32) (a8 : FVec Ideal S64 .f32) : FVec Ideal S80000x64 .f32 :=
  Host.scatterAdd scatter_S80000x64_S1280000x1_S1280000x64_1_0_0_1
    (broadcastInDim S80000x64 ![] bcast_S_S80000x64 (constant S_ .f32 0x00000000#32))
    (tgtIdx a1) (msgs a0 a1 a2 a3 a4 a5 a6 a7 a8)

/-- The layer's result: at (n, j), entry j of node n's output. -/
def layer (a0 : FVec Ideal S80000x64 .f32) (a1 : IVec S2x1280000 32) (a2 : FVec Ideal S1280000x32 .f32) (a3 : FVec Ideal S96x64 .f32) (a4 a5 a6 : FVec Ideal S64 .f32) (a7 : FVec Ideal S64x64 .f32) (a8 : FVec Ideal S64 .f32) (a9 : FVec Ideal S128x64 .f32) (a10 a11 a12 : FVec Ideal S64 .f32) : FVec Ideal S80000x64 .f32 :=
  fun i => Cert.Layer.nodeOut (fun k => agg a0 a1 a2 a3 a4 a5 a6 a7 a8 (ix2 (i 0) k)) (fun k => a0 (ix2 (i 0) k))
    (fun k j => a9 (ix2 (⟨k.val, by omega⟩ : Fin 128) j)) (fun k j => a9 (ix2 (⟨64 + k.val, by omega⟩ : Fin 128) j))
    (fun j => a10 (ix1 j)) (fun j => a11 (ix1 j)) (fun j => a12 (ix1 j)) (i 1)

/-- What the edge region leaves, under the stated domain: the messages of the launch contents. -/
theorem kernel_msgs (m : (ℓ : Loc nD τ sig) → Buf (Elt Ideal) ℓ) (ρ : Dev nD → PrngReg) (hpre : Cert.Pre_KernelIdeal m) (c : Dev nD) :
    (dat0 (V3 m ρ) c).arrAt 9 cfg0.N = msgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.KernelIdeal.EdgeValue.edge_array (V3 m ρ) c]
  rw [V3_srcfeat m ρ c, V3_edge m ρ c, V3_w1s m ρ c, V3_w1e m ρ c, V3_b1 m ρ c, V3_g1 m ρ c, V3_be1 m ρ c, V3_w2 m ρ c, V3_b2 m ρ c]
  rw [select_in_range m hpre c]
  funext i
  simp only [slice96_top, slice96_bot, row64]
  rfl

/-- What the kernel leaves in its result buffer, under the stated domain: the layer's result of the launch contents. -/
theorem kernel_result (m : (ℓ : Loc nD τ sig) → Buf (Elt Ideal) ℓ) (ρ : Dev nD → PrngReg) (hpre : Cert.Pre_KernelIdeal m) (c : Dev nD) :
    W6 m ρ c (Proc.devRef .tc main_v20) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (show W6 m ρ c (Proc.devRef .tc main_v20) = (dat1 (V5 m ρ) c).arrAt 7 cfg1.N from W6_arr m ρ c 7).trans ?_
  rw [Cert.KernelIdeal.NodeValue.node_array (V5 m ρ) c]
  rw [V5_agg m ρ c, V5_node m ρ c, V5_wua m ρ c, V5_wun m ρ c, V5_bu m ρ c, V5_gn m ρ c, V5_bn m ρ c]
  rw [kernel_msgs m ρ hpre c]
  funext i
  simp only [slice128_top, slice128_bot, row64]
  rfl

/-- The reference's last stage is the layer's result of its arguments. -/
theorem reference_result (a0 : FVec Ideal S80000x64 .f32) (a1 : IVec S2x1280000 32) (a2 : FVec Ideal S1280000x32 .f32) (a3 : FVec Ideal S96x64 .f32) (a4 a5 a6 : FVec Ideal S64 .f32) (a7 : FVec Ideal S64x64 .f32) (a8 : FVec Ideal S64 .f32) (a9 : FVec Ideal S128x64 .f32) (a10 a11 a12 : FVec Ideal S64 .f32) :
    Cert.ReferenceIdeal.ReadP.val_main_v78 (F := Ideal) a0 a1 a2 a3 a4 a5 a6 a7 a8 a9 a10 a11 a12 = layer a0 a1 a2 a3 a4 a5 a6 a7 a8 a9 a10 a11 a12 := by
  have h45 : Cert.ReferenceIdeal.ReadP.val_main_v45 (F := Ideal) a0 a1 a2 a3 a4 a5 a6 a7 a8 = msgs a0 a1 a2 a3 a4 a5 a6 a7 a8 := by
    rw [Cert.ReferenceIdeal.RefValue.ref_edge]; rfl
  have h48 : Cert.ReferenceIdeal.ReadP.val_main_v48 (F := Ideal) a0 a1 a2 a3 a4 a5 a6 a7 a8 = agg a0 a1 a2 a3 a4 a5 a6 a7 a8 := by
    unfold Cert.ReferenceIdeal.ReadP.val_main_v48
    rw [h45]; rfl
  rw [Cert.ReferenceIdeal.RefValue.ref_node, h48]; rfl

/-- The layer's result at equal arguments. -/
theorem layer_congr {a0 b0 : FVec Ideal S80000x64 .f32} {a1 b1 : IVec S2x1280000 32} {a2 b2 : FVec Ideal S1280000x32 .f32} {a3 b3 : FVec Ideal S96x64 .f32}
    {a4 b4 a5 b5 a6 b6 : FVec Ideal S64 .f32} {a7 b7 : FVec Ideal S64x64 .f32} {a8 b8 : FVec Ideal S64 .f32} {a9 b9 : FVec Ideal S128x64 .f32}
    {a10 b10 a11 b11 a12 b12 : FVec Ideal S64 .f32}
    (h0 : a0 = b0) (h1 : a1 = b1) (h2 : a2 = b2) (h3 : a3 = b3) (h4 : a4 = b4) (h5 : a5 = b5) (h6 : a6 = b6) (h7 : a7 = b7) (h8 : a8 = b8)
    (h9 : a9 = b9) (h10 : a10 = b10) (h11 : a11 = b11) (h12 : a12 = b12) :
    layer a0 a1 a2 a3 a4 a5 a6 a7 a8 a9 a10 a11 a12 = layer b0 b1 b2 b3 b4 b5 b6 b7 b8 b9 b10 b11 b12 := by
  subst h0 h1 h2 h3 h4 h5 h6 h7 h8 h9 h10 h11 h12; rfl

end Cert.Bridge

end
-- ==== Proof.lean ====
/-
  The certificate of one message-passing layer: a kernel of two blocked regions (the edge messages, the node update)
  around a host gather and a host scatter-add, against the same layer written as one line of host operations.

  The three programs run, nothing faulting, their arguments unchanged. Under the stated domain — every float input
  finite, every source index inside the table it indexes — the idealized kernel and the idealized reference end with the
  same result array: both hold the layer's function of the arguments (Proof/Bridge.lean). Finiteness is never used: the
  two sides differ only in how sums are grouped (a 96-term sum against its first 64 and last 32 terms), which the
  extended reals allow unconditionally; the index domain is used once, to see that the kernel's range mask on the
  gathered rows is all ones. The ideal pass rewrote nothing, so the kernel's idealization has no side to prove.
-/
import proofs.«415045_j12429635354688_1_alg».proof.Defs
import proofs.«415045_j12429635354688_1_alg».proof.Proof.Gen.Kernel
import proofs.«415045_j12429635354688_1_alg».proof.Proof.Gen.Kernel.Skeleton
import proofs.«415045_j12429635354688_1_alg».proof.Proof.Gen.Kernel.Launch
import proofs.«415045_j12429635354688_1_alg».proof.Proof.Gen.Kernel.Points
import proofs.«415045_j12429635354688_1_alg».proof.Proof.Gen.Kernel.Frame
import proofs.«415045_j12429635354688_1_alg».proof.Proof.Gen.KernelIdeal
import proofs.«415045_j12429635354688_1_alg».proof.Proof.Gen.KernelIdeal.Skeleton
import proofs.«415045_j12429635354688_1_alg».proof.Proof.Gen.KernelIdeal.Launch
import proofs.«415045_j12429635354688_1_alg».proof.Proof.Gen.KernelIdeal.Points
import proofs.«415045_j12429635354688_1_alg».proof.Proof.Gen.KernelIdeal.Frame
import proofs.«415045_j12429635354688_1_alg».proof.Proof.Gen.ReferenceIdeal
import proofs.«415045_j12429635354688_1_alg».proof.Proof.Gen.Pre_finite_inputs
import proofs.«415045_j12429635354688_1_alg».proof.Proof.KRun
import proofs.«415045_j12429635354688_1_alg».proof.Proof.RefStages
import proofs.«415045_j12429635354688_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass's ledger is empty. -/
theorem preserves : Cert.preserves_Kernel_KernelIdeal := trivial

/-- Run from memories that agree on the arguments, under the stated domain, both idealized programs end with the
    layer's result of the arguments in their result buffers. -/
theorem algebraic : Cert.algebraic_KernelIdeal_ReferenceIdeal := by
  intro m ρ m' ρ' hpre hagree
  refine ⟨_, (θ_run Cert.KernelIdeal.defs _ _).mono (fun _ h c => ⟨(h c).1.trans (Cert.Bridge.kernel_result m ρ hpre c), (h c).2⟩)
    (Cert.KernelIdeal.RunValue.run (F := Ideal) m ρ), ?_⟩
  refine (θ_run Cert.ReferenceIdeal.defs _ _).mono (fun _ h c => ⟨(h c).1.trans ?_, (h c).2⟩)
    (Cert.ReferenceIdeal.Stages.run (F := Ideal) m' ρ')
  refine (Cert.Bridge.reference_result _ _ _ _ _ _ _ _ _ _ _ _ _).trans ?_
  obtain ⟨h0, h1, h2, h3, h4, h5, h6, h7, h8, h9, h10, h11, h12⟩ := hagree c
  exact Cert.Bridge.layer_congr h0 h1 h2 h3 h4 h5 h6 h7 h8 h9 h10 h11 h12

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
